-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_tau" .f32 0x41200000#32 ((134217728 / 13421773 : ℝ) : EReal)
  ∧ IdealRules.named_const.Statement Cert.KernelIdeal.κ "inv_tau" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x64 : Shape := ⟨2, ![4096, 64]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : IVec S4096x64 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1024x1024 : Shape := ⟨2, ![1024, 1024]⟩
abbrev S1024x1 : Shape := ⟨2, ![1024, 1]⟩
abbrev S1024 : Shape := ⟨1, ![1024]⟩

abbrev nBuf : Space → Nat
  | .hbm => 77
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x64, .i32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i32⟩
  | .hbm, ⟨32, _⟩ => ⟨S4096x64, .i32⟩
  | .hbm, ⟨33, _⟩ => ⟨S4096x64, .i1⟩
  | .hbm, ⟨34, _⟩ => ⟨S4096x64, .i32⟩
  | .hbm, ⟨35, _⟩ => ⟨S_, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S4096x1, .i1⟩
  | .hbm, ⟨41, _⟩ => ⟨S4096, .i1⟩
  | .hbm, ⟨42, _⟩ => ⟨S1x4096, .i1⟩
  | .hbm, ⟨43, _⟩ => ⟨S4096x4096, .i1⟩
  | .hbm, ⟨44, _⟩ => ⟨S4096x4096, .i1⟩
  | .hbm, ⟨45, _⟩ => ⟨S4096x4096, .i1⟩
  | .hbm, ⟨46, _⟩ => ⟨S4096x4096, .i32⟩
  | .hbm, ⟨47, _⟩ => ⟨S_, .i32⟩
  | .hbm, ⟨48, _⟩ => ⟨S_, .i32⟩
  | .hbm, ⟨49, _⟩ => ⟨S4096x4096, .bf16⟩
  | .hbm, ⟨50, _⟩ => ⟨S4096x4096, .bf16⟩
  | .hbm, ⟨51, _⟩ => ⟨S4096x4096, .bf16⟩
  | .hbm, ⟨52, _⟩ => ⟨S4096x1, .f32⟩
  | .hbm, ⟨53, _⟩ => ⟨S_, .f32⟩
  | .hbm, ⟨54, _⟩ => ⟨S_, .f32⟩
  | .hbm, ⟨55, _⟩ => ⟨S4096x1, .f32⟩
  | .hbm, ⟨56, _⟩ => ⟨S_, .f32⟩
  | .hbm, ⟨57, _⟩ => ⟨S_, .f32⟩
  | .hbm, ⟨58, _⟩ => ⟨S_, .i32⟩
  | .hbm, ⟨59, _⟩ => ⟨S_, .i32⟩
  | .hbm, ⟨60, _⟩ => ⟨S_, .f32⟩
  | .hbm, ⟨61, _⟩ => ⟨S_, .i32⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .i32⟩
  | .hbm, ⟨68, _⟩ => ⟨S_, .i1⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1, .f32⟩
  | .local _ .vmem, ⟨7, _⟩ => ⟨S1024x1, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1, .f32⟩
  | .local _ .vmem, ⟨16, _⟩ => ⟨S1024x1, .f32⟩
  | .local _ .vmem, ⟨17, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_cst_11 : Ref sig .tc := ⟨.hbm, 64, rfl⟩
abbrev main_call2_v0 : Ref sig .tc := ⟨.hbm, 65, rfl⟩
abbrev main_v40 : Ref sig .tc := ⟨.hbm, 66, rfl⟩
abbrev main_c_12 : Ref sig .tc := ⟨.hbm, 67, rfl⟩
abbrev main_v41 : Ref sig .tc := ⟨.hbm, 68, rfl⟩
abbrev main_v42 : Ref sig .tc := ⟨.hbm, 69, rfl⟩
abbrev main_cst_13 : Ref sig .tc := ⟨.hbm, 70, rfl⟩
abbrev main_call3_v0 : Ref sig .tc := ⟨.hbm, 71, rfl⟩
abbrev main_v43 : Ref sig .tc := ⟨.hbm, 72, rfl⟩
abbrev main_v44 : Ref sig .tc := ⟨.hbm, 73, rfl⟩
abbrev main_cst_14 : Ref sig .tc := ⟨.hbm, 74, rfl⟩
abbrev main_v45 : Ref sig .tc := ⟨.hbm, 75, rfl⟩
abbrev main_v46 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let arg2 : BitVec 32 := BitVec.ofNat 32 (i 2).val
  let c0_i32_9 : BitVec 32 := 0#32
  let v14 : BitVec 1 := Scalar.cmpi .eq arg2 c0_i32_9
  let v15 : BitVec 1 := Scalar.andi v13 v14
  let v16 : BitVec 32 := Scalar.extui v15
  let c0_i32_10 : BitVec 32 := 0#32
  let v17 : BitVec 1 := Scalar.cmpi .ne v16 c0_i32_10
  v17

def k0_cond3 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev grid1 : Pipeline.Grid := ⟨3, ![4, 4, 4], ![false, false, false]⟩

def k1_cond2 (i : grid1.Coords) : BitVec 1 :=
  let arg1 : BitVec 32 := BitVec.ofNat 32 (i 1).val
  let c0_i32_8 : BitVec 32 := 0#32
  let v13 : BitVec 1 := Scalar.cmpi .eq arg1 c0_i32_8
  let arg2 : BitVec 32 := BitVec.ofNat 32 (i 2).val
  let c0_i32_9 : BitVec 32 := 0#32
  let v14 : BitVec 1 := Scalar.cmpi .eq arg2 c0_i32_9
  let v15 : BitVec 1 := Scalar.andi v13 v14
  let v16 : BitVec 32 := Scalar.extui v15
  let c0_i32_10 : BitVec 32 := 0#32
  let v17 : BitVec 1 := Scalar.cmpi .ne v16 c0_i32_10
  v17

def k1_cond3 (i : grid1.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_11 : BitVec 32 := 0#32
  let v20 : BitVec 1 := Scalar.cmpi .ne v19 c0_i32_11
  v20

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  natLt_1_32 : 1 < 32
  reducesTo_S4096x64_S4096_d1 : S4096x64.ReducesTo [1] S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  reducesTo_S4096x1_S_d0_1 : S4096x1.ReducesTo [0, 1] S_
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S4096x1.size a
  hwx0_3 : ∀ i : grid0.Coords, EltTy.bits .f32 = 32 ∨ (Rect.block (s := S4096x1) S1024x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .bf16 = 32 ∨ (Rect.block (s := S4096x4096) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S4096x1.size a
  hwx1_3 : ∀ i : grid1.Coords, EltTy.bits .f32 = 32 ∨ (Rect.block (s := S4096x1) S1024x1.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v30) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) && !(k0_cond3 i == 1#1) | ⟨_ + 4, h⟩ => absurd h (Nat.not_lt.2 (Nat.le_add_left _ _))

abbrev win1_0 : Pipeline.Window sig grid1 :=
  Pipeline.Window.ofSpec (Memref.whole main_v31) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) && !(k1_cond3 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 91
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x64, .i32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i32⟩
  | .hbm, ⟨32, _⟩ => ⟨S4096x64, .i32⟩
  | .hbm, ⟨33, _⟩ => ⟨S4096x64, .i1⟩
  | .hbm, ⟨34, _⟩ => ⟨S4096x64, .i32⟩
  | .hbm, ⟨35, _⟩ => ⟨S_, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S4096x1, .i1⟩
  | .hbm, ⟨41, _⟩ => ⟨S4096, .i1⟩
  | .hbm, ⟨42, _⟩ => ⟨S1x4096, .i1⟩
  | .hbm, ⟨43, _⟩ => ⟨S4096x4096, .i1⟩
  | .hbm, ⟨44, _⟩ => ⟨S4096x4096, .i1⟩
  | .hbm, ⟨45, _⟩ => ⟨S4096x4096, .i1⟩
  | .hbm, ⟨46, _⟩ => ⟨S4096x4096, .i32⟩
  | .hbm, ⟨47, _⟩ => ⟨S_, .i32⟩
  | .hbm, ⟨48, _⟩ => ⟨S_, .i32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S_, .f32⟩
  | .hbm, ⟨59, _⟩ => ⟨S_, .i32⟩
  | .hbm, ⟨60, _⟩ => ⟨S_, .i1⟩
  | .hbm, ⟨61, _⟩ => ⟨S_, .i32⟩
  | .hbm, ⟨62, _⟩ => ⟨S_, .i32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096x4096, .f32⟩
  | .hbm, ⟨69, _⟩ => ⟨S4096x4096, .f32⟩
  | .hbm, ⟨70, _⟩ => ⟨S_, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S4096x4096, .f32⟩
  | .hbm, ⟨76, _⟩ => ⟨S_, .f32⟩
  | .hbm, ⟨77, _⟩ => ⟨S_, .f32⟩
  | .hbm, ⟨78, _⟩ => ⟨S_, .i32⟩
  | .hbm, ⟨79, _⟩ => ⟨S_, .i1⟩
  | .hbm, ⟨80, _⟩ => ⟨S_, .i32⟩
  | .hbm, ⟨81, _⟩ => ⟨S_, .i32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_11 : Ref sig .tc := ⟨.hbm, 65, rfl⟩
abbrev main_call2_v0 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_12 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_13 : Ref sig .tc := ⟨.hbm, 76, rfl⟩
abbrev main_v49 : Ref sig .tc := ⟨.hbm, 77, rfl⟩
abbrev main_c_14 : Ref sig .tc := ⟨.hbm, 78, rfl⟩
abbrev main_v50 : Ref sig .tc := ⟨.hbm, 79, rfl⟩
abbrev main_c_15 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_16 : Ref sig .tc := ⟨.hbm, 84, rfl⟩
abbrev main_call3_v0 : Ref sig .tc := ⟨.hbm, 85, rfl⟩
abbrev main_v54 : Ref sig .tc := ⟨.hbm, 86, rfl⟩
abbrev main_v55 : Ref sig .tc := ⟨.hbm, 87, rfl⟩
abbrev main_cst_17 : Ref sig .tc := ⟨.hbm, 88, rfl⟩
abbrev main_v56 : Ref sig .tc := ⟨.hbm, 89, rfl⟩
abbrev main_v57 : Ref sig .tc := ⟨.hbm, 90, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  natLt_1_32 : 1 < 32
  reducesTo_S4096x64_S4096_d1 : S4096x64.ReducesTo [1] S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S_d0_1 : S4096x4096.ReducesTo [0, 1] S_
  transposes_S4096x4096_S4096x4096_1_0 : S4096x4096.Transposes [1, 0] S4096x4096
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KB.Phi0.lean ====
/-
  The scoped buffers the first kernel region's body may use besides its staging buffers: its scratch
  accumulator, named, and the other pipeline's scoped buffers, which ride along untouched.
-/
import proofs.«120869_j30030411333999_1_alg».proof.Proof.Gen.Kernel.Launch
import proofs.«120869_j30030411333999_1_alg».proof.Proof.Gen.Kernel.Skeleton
import proofs.«120869_j30030411333999_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch operand: a whole scoped buffer of the kernel's own. -/
abbrev scM0_0 : Memref sig .tc .vmem S1024x1024 .f32 := Memref.whole cc0_scratch0

/-- The scoped buffers of the core that are neither this pipeline's staging buffers nor its scratch (the other
    pipeline's staging buffers and scratch), each whole at some contents. -/
def restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the scratch as a memref owned at some contents. -/
theorem PhiA0_eq (c : Dev nD) :
    (Pipeline.ΦA spec0 c : sProp 𝕄)
      = iprop(iprop((∃ d, owns (c : Thread nD τ) scM0_0 fullShare d) ∗ restScoped0 (F := F) c) ∗ (∃ r, prngReg c r)) := by
  unfold Pipeline.ΦA restScoped0; rw [scopedRest0_eq]; simp only [scM0_0, owns_whole]; rfl

/-- The same as two entailments (the form the body obligation and the region's entry and exit use). -/
theorem PhiA0_split (c : Dev nD) :
    (Pipeline.ΦA spec0 c : sProp 𝕄)
      ⊢ iprop(iprop((∃ d, owns (c : Thread nD τ) scM0_0 fullShare d) ∗ restScoped0 (F := F) c) ∗ (∃ r, prngReg c r)) :=
  Entails.of_eq (PhiA0_eq c)
theorem PhiA0_join (c : Dev nD) :
    (iprop(iprop((∃ d, owns (c : Thread nD τ) scM0_0 fullShare d) ∗ restScoped0 (F := F) c) ∗ (∃ r, prngReg c r)) : sProp 𝕄)
      ⊢ Pipeline.ΦA spec0 c :=
  Entails.of_eq (PhiA0_eq c).symm

end Cert.Kernel.Hand

end
-- ==== Proof.KB.Shares.lean ====
/-
  The two halves of the full share of an array: in each kernel region the two row windows read one array, each at
  one half, and the halves make the whole again when the region ends.
-/
import Idealize.ShloMosaic.Lib.Pipeline.Kit

noncomputable section

namespace Cert.Kernel.Hand

open Idealize.ShloMosaic Idealize.SL Idealize.SL.RA

abbrev shL : PosShare TreeShare := fullShare.left
abbrev shR : PosShare TreeShare := fullShare.right

end Cert.Kernel.Hand

end
-- ==== Proof.KB.Defs0.lean ====
/-
  The first kernel region (the similarity reduction over the normalised first input): what its scratch
  accumulator and its output block hold after every grid point, and the proof data of its pipeline.

  The grid is 4 x 4 x 4, the last axis fastest: point t = (i*4 + j)*4 + k. At every point the body adds the
  product of the (i,k) block of the rows and the transposed (j,k) block of the rows into a 1024 x 1024
  scratch, which it clears first when k = 0; when k = 3 it adds to the output block (1024 x 1), which it
  cleared at j = k = 0, the row sums of exp(scratch * c) times the (i,j) block of the pair mask. The output
  block is written back after the last point of each i.
-/
import proofs.«120869_j30030411333999_1_alg».proof.Proof.Gen.Kernel.Launch
import proofs.«120869_j30030411333999_1_alg».proof.Proof.Gen.Kernel.Skeleton
import proofs.«120869_j30030411333999_1_alg».proof.Proof.Gen.Kernel.Points
import proofs.«120869_j30030411333999_1_alg».proof.Proof.KB.Phi0
import proofs.«120869_j30030411333999_1_alg».proof.Proof.KB.Shares
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at point `t` at their literal types: the (i,k) block of the rows, the (j,k) block of the
    rows, the (i,j) block of the pair mask. -/
abbrev zi0 (c : Dev nD) (t : Fin cfg0.N) : Vec F S1024x1024 .bf16 := iblk0 V c 0 t
abbrev zj0 (c : Dev nD) (t : Fin cfg0.N) : Vec F S1024x1024 .bf16 := iblk0 V c 1 t
abbrev mk0 (c : Dev nD) (t : Fin cfg0.N) : Vec F S1024x1024 .bf16 := iblk0 V c 2 t

/-- The scratch accumulator after the body at point `n`: the partial product over the k-blocks so far, restarted from
    zero where k = 0. -/
def accAt0 (c : Dev nD) : (n : ℕ) → n < cfg0.N → Vec F S1024x1024 .f32
  | 0, h => k0_pay2 (k0_pay1 (F := F)) (zi0 V c ⟨0, h⟩) (zj0 V c ⟨0, h⟩)
  | n + 1, h => k0_pay2 (if (n + 1) % 4 = 0 then k0_pay1 (F := F) else accAt0 c n (Nat.lt_of_succ_lt h)) (zi0 V c ⟨n + 1, h⟩) (zj0 V c ⟨n + 1, h⟩)

/-- The output block's staging contents after the body at point `n`: zero at the first point of each i, the masked
    row sums added where k = 3, carried unchanged elsewhere. -/
def outAt0 (c : Dev nD) : (n : ℕ) → n < cfg0.N → Vec F S1024x1 .f32
  | 0, _ => k0_pay3 (F := F)
  | n + 1, h =>
    if (n + 1) % 16 = 0 then k0_pay3 (F := F)
    else if (n + 1) % 4 = 3 then k0_pay4 (accAt0 V c (n + 1) h) (mk0 V c ⟨n + 1, h⟩) (outAt0 c n (Nat.lt_of_succ_lt h))
    else outAt0 c n (Nat.lt_of_succ_lt h)

/-- The region invariant before position `n`: before the first point the class's (every scoped buffer at anything);
    afterwards the scratch at what the point before left in it, the other scoped buffers at anything, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn) ∗ restScoped0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (accAt0 V c n hn) ∗ restScoped0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (accAt0 V c (n - 1) (by omega)) ∗ restScoped0 (F := F) c) ∗ (∃ r, prngReg c r)) := by
  cases n with
  | zero => exact absurd rfl hz
  | succ n => rfl

/-- The proof data of the pipeline on core `c`: the arrays as the region finds them; after the body each input's
    buffer at its block, the output's at `outAt0`; the invariant `PhiS0`; nothing owed; the array the first two
    windows share held at one half each, the others whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t.val t.isLt
  Φ t := PhiS0 V c t.val (Nat.le_of_lt_succ t.isLt)
  q w := match w with
    | ⟨0, _⟩ => shL
    | ⟨1, _⟩ => shR
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t.val t.isLt := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

end Cert.Kernel.Hand

end
-- ==== Proof.KB.Phi1.lean ====
/-
  The scoped buffers the second kernel region's body may use besides its staging buffers: its scratch
  accumulator, named, and the other pipeline's scoped buffers, which ride along untouched.
-/
import proofs.«120869_j30030411333999_1_alg».proof.Proof.Gen.Kernel.Launch
import proofs.«120869_j30030411333999_1_alg».proof.Proof.Gen.Kernel.Skeleton
import proofs.«120869_j30030411333999_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch operand: a whole scoped buffer of the kernel's own. -/
abbrev scM1_0 : Memref sig .tc .vmem S1024x1024 .f32 := Memref.whole cc1_scratch0

/-- The scoped buffers of the core that are neither this pipeline's staging buffers nor its scratch (the other
    pipeline's staging buffers and scratch), each whole at some contents. -/
def restScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant with the scratch as a memref owned at some contents, as two entailments. -/
theorem PhiA1_split (c : Dev nD) :
    (Pipeline.ΦA spec1 c : sProp 𝕄)
      ⊢ iprop(iprop((∃ d, owns (c : Thread nD τ) scM1_0 fullShare d) ∗ restScoped1 (F := F) c) ∗ (∃ r, prngReg c r)) := by
  unfold Pipeline.ΦA restScoped1; rw [scopedRest1_eq]; simp only [scM1_0, owns_whole]
  iintro ⟨⟨H1, H2, H3, H4, H5, H6, H7, H8, H9, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hg
theorem PhiA1_join (c : Dev nD) :
    (iprop(iprop((∃ d, owns (c : Thread nD τ) scM1_0 fullShare d) ∗ restScoped1 (F := F) c) ∗ (∃ r, prngReg c r)) : sProp 𝕄)
      ⊢ Pipeline.ΦA spec1 c := by
  unfold Pipeline.ΦA restScoped1; rw [scopedRest1_eq]; simp only [scM1_0, owns_whole]
  iintro ⟨⟨HS, H1, H2, H3, H4, H5, H6, H7, H8, H9⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iexact Hg

end Cert.Kernel.Hand

end
-- ==== Proof.KB.Defs1.lean ====
/-
  The second kernel region (the similarity reduction over the normalised second input): what its scratch
  accumulator and its output block hold after every grid point, and the proof data of its pipeline.

  The grid is 4 x 4 x 4, the last axis fastest: point t = (i*4 + j)*4 + k. At every point the body adds the
  product of the (i,k) block of the rows and the transposed (j,k) block of the rows into a 1024 x 1024
  scratch, which it clears first when k = 0; when k = 3 it adds to the output block (1024 x 1), which it
  cleared at j = k = 0, the row sums of exp(scratch * c) times the (i,j) block of the pair mask. The output
  block is written back after the last point of each i.
-/
import proofs.«120869_j30030411333999_1_alg».proof.Proof.Gen.Kernel.Launch
import proofs.«120869_j30030411333999_1_alg».proof.Proof.Gen.Kernel.Skeleton
import proofs.«120869_j30030411333999_1_alg».proof.Proof.Gen.Kernel.Points
import proofs.«120869_j30030411333999_1_alg».proof.Proof.KB.Phi1
import proofs.«120869_j30030411333999_1_alg».proof.Proof.KB.Shares
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at point `t` at their literal types: the (i,k) block of the rows, the (j,k) block of the
    rows, the (i,j) block of the pair mask. -/
abbrev zi1 (c : Dev nD) (t : Fin cfg1.N) : Vec F S1024x1024 .bf16 := iblk1 V c 0 t
abbrev zj1 (c : Dev nD) (t : Fin cfg1.N) : Vec F S1024x1024 .bf16 := iblk1 V c 1 t
abbrev mk1 (c : Dev nD) (t : Fin cfg1.N) : Vec F S1024x1024 .bf16 := iblk1 V c 2 t

/-- The scratch accumulator after the body at point `n`: the partial product over the k-blocks so far, restarted from
    zero where k = 0. -/
def accAt1 (c : Dev nD) : (n : ℕ) → n < cfg1.N → Vec F S1024x1024 .f32
  | 0, h => k1_pay2 (k1_pay1 (F := F)) (zi1 V c ⟨0, h⟩) (zj1 V c ⟨0, h⟩)
  | n + 1, h => k1_pay2 (if (n + 1) % 4 = 0 then k1_pay1 (F := F) else accAt1 c n (Nat.lt_of_succ_lt h)) (zi1 V c ⟨n + 1, h⟩) (zj1 V c ⟨n + 1, h⟩)

/-- The output block's staging contents after the body at point `n`: zero at the first point of each i, the masked
    row sums added where k = 3, carried unchanged elsewhere. -/
def outAt1 (c : Dev nD) : (n : ℕ) → n < cfg1.N → Vec F S1024x1 .f32
  | 0, _ => k1_pay3 (F := F)
  | n + 1, h =>
    if (n + 1) % 16 = 0 then k1_pay3 (F := F)
    else if (n + 1) % 4 = 3 then k1_pay4 (accAt1 V c (n + 1) h) (mk1 V c ⟨n + 1, h⟩) (outAt1 c n (Nat.lt_of_succ_lt h))
    else outAt1 c n (Nat.lt_of_succ_lt h)

/-- The region invariant before position `n`: before the first point the class's (every scoped buffer at anything);
    afterwards the scratch at what the point before left in it, the other scoped buffers at anything, the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ restScoped1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (accAt1 V c n hn) ∗ restScoped1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (accAt1 V c (n - 1) (by omega)) ∗ restScoped1 (F := F) c) ∗ (∃ r, prngReg c r)) := by
  cases n with
  | zero => exact absurd rfl hz
  | succ n => rfl

/-- The proof data of the pipeline on core `c`: the arrays as the region finds them; after the body each input's
    buffer at its block, the output's at `outAt1`; the invariant `PhiS1`; nothing owed; the array the first two
    windows share held at one half each, the others whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t.val t.isLt
  Φ t := PhiS1 V c t.val (Nat.le_of_lt_succ t.isLt)
  q w := match w with
    | ⟨0, _⟩ => shL
    | ⟨1, _⟩ => shR
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.Kernel.Hand

end
-- ==== Proof.KB.SegDefs.lean ====
/-
  The two kernel regions inside the whole program: what every unscoped buffer of a core holds between the items of
  the program (host operations, first region, host operations, second region, host operations), with the contents
  each region leaves in its result array named — row sums the pipeline's write-backs leave there — and the proof data
  of both pipelines at the contents their regions are entered from.
-/
import proofs.«120869_j30030411333999_1_alg».proof.Proof.Gen.Kernel.Launch
import proofs.«120869_j30030411333999_1_alg».proof.Proof.Gen.Kernel.Skeleton
import proofs.«120869_j30030411333999_1_alg».proof.Proof.Gen.Kernel.Points
import proofs.«120869_j30030411333999_1_alg».proof.Proof.Gen.Kernel.Regions
import proofs.«120869_j30030411333999_1_alg».proof.Proof.KB.Defs0
import proofs.«120869_j30030411333999_1_alg».proof.Proof.KB.Defs1
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- What the first region is entered from, read at the TensorCore's references. -/
abbrev Vin0 (c : Dev nD) (b : Ref sig .tc) : Buf (Elt F) ((c : Thread nD τ).loc b) := V4 m c b

/-- What the first region leaves in its result array: the write-backs of its output window folded. -/
def res0 (c : Dev nD) : Buf (Elt F) ((c : Thread nD τ).loc main_v32) := (dat0 (Vin0 m) c).arrAt 3 cfg0.N

/-- The regions' results as far as the first region: its result array at `res0`. -/
def outsA : Outs (F := F) := fun _ r c => Function.update (fun r' : Ref sig .tc => (V4 m c r' : Buf (Elt F) ((c : Thread nD τ).loc r'))) main_v32 (res0 m c) r

/-- What the second region is entered from. -/
abbrev Vin1 (c : Dev nD) (b : Ref sig .tc) : Buf (Elt F) ((c : Thread nD τ).loc b) := V6 m (outsA m) c b

/-- What the second region leaves in its result array. -/
def res1 (c : Dev nD) : Buf (Elt F) ((c : Thread nD τ).loc main_v34) := (dat1 (Vin1 m) c).arrAt 3 cfg1.N

/-- The regions' results: the first region's array at `res0` after item 4, the second's at `res1` after item 6. -/
def outs : Outs (F := F) := fun J r c =>
  if J = 7 then Function.update (fun r' : Ref sig .tc => outsA m J r' c) main_v34 (res1 m c) r else outsA m J r c

theorem outs_5 (c : Dev nD) : outs m 5 main_v32 c = res0 m c := by
  unfold outs; rw [if_neg (by decide)]; unfold outsA; exact Function.update_self ..
theorem outs_7 (c : Dev nD) : outs m 7 main_v34 c = res1 m c := by
  unfold outs; rw [if_pos rfl]; exact Function.update_self ..
theorem outsA_5 (c : Dev nD) : outsA m 5 main_v32 c = res0 m c := by
  unfold outsA; exact Function.update_self ..
/-- Up to the second region the two families agree. -/
theorem V5_outs (c : Dev nD) : V5 m (outs m) c = V5 m (outsA m) c := by
  unfold V5; rw [outs_5, outsA_5]
theorem V6_outs (c : Dev nD) : V6 m (outs m) c = V6 m (outsA m) c := by
  unfold V6; rw [V5_outs]

/-- Both pipelines' proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- No core owes another anything: no level is assigned. -/
abbrev L : GSem nD τ sig → Finset Unit := fun _ => ∅
abbrev lv : GSem nD τ sig → Unit → ℕ := fun _ _ => 0
/-- What rides beside the buffers through every item: the core's generator register at some state and its owing
    nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

end Cert.Kernel.Hand

end
-- ==== Proof.KB.Launch.lean ====
/-
  The whole program's run from its two kernel regions: given each region as an item entered from and left at the
  thread states of the generated conditional frame, every weakly fair execution terminates and the final memory holds
  every unscoped buffer at the last valuation of the chain — in particular the arguments as launched.
-/
import proofs.«120869_j30030411333999_1_alg».proof.Proof.Gen.Kernel.Launch
import proofs.«120869_j30030411333999_1_alg».proof.Proof.Gen.Kernel.Skeleton
import proofs.«120869_j30030411333999_1_alg».proof.Proof.Gen.Kernel.Points
import proofs.«120869_j30030411333999_1_alg».proof.Proof.Gen.Kernel.Regions
import proofs.«120869_j30030411333999_1_alg».proof.Proof.KB.SegDefs
import proofs.«120869_j30030411333999_1_alg».proof.Proof.KB.RunCond
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipeline library's initial element at every pipeline's staging cells. -/
abbrev u₀ : UR sig nD τ := initOf (Pipeline.cells cfgs cellOf_inj) (Pipeline.launchToks cfgs cellOf_inj)

/-- Owning the launch element is owning the library's through the whole user algebra; no core asks for a ghost
    resource of its own. -/
theorem hu₀ : (ownU u₀ : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core beside its buffers makes the rest state: the generator register at its launch
    state, and the core owing nothing to nobody. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The rest state after the last region still says the core owes nothing. -/
theorem hE2 (c : Dev nD) : E (F := F) 2 c ⊢ (iprop(∃ W, owes (c : Thread nD τ) (0 : CellTallies nD τ sig Unit) W) : sProp 𝕄) := by
  iintro ⟨-, H⟩; iexact H

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_of_regions
    (R0 : RegionSeg (pcfgs (F := F)) adm (pdats m) () defs₀ Variants.none L lv 0)
    (hpre0 : ∀ c : Dev nD, iprop(StableHlo.held (c : Thread nD τ) (Pipeline.ucRefs τ sig) (V4 m c) ∗ R (F := F) c) ⊢ R0.pre c)
    (hpost0 : ∀ c : Dev nD, R0.post c ⊢ iprop(StableHlo.held (c : Thread nD τ) (Pipeline.ucRefs τ sig) (V5 m (outs m) c) ∗ R (F := F) c))
    (R1 : RegionSeg (pcfgs (F := F)) adm (pdats m) () defs₀ Variants.none L lv 1)
    (hpre1 : ∀ c : Dev nD, iprop(StableHlo.held (c : Thread nD τ) (Pipeline.ucRefs τ sig) (V6 m (outs m) c) ∗ R (F := F) c) ⊢ R1.pre c)
    (hpost1 : ∀ c : Dev nD, R1.post c ⊢ iprop(StableHlo.held (c : Thread nD τ) (Pipeline.ucRefs τ sig) (V7 m (outs m) c) ∗ R (F := F) c)) :
    θ_run defs (onTc (τ := τ) (main (F := F))) ⟨m, fun _ => 0, ρ⟩ (fun r => ∀ c : Dev nD,
      ∀ b ∈ Pipeline.ucRefs τ sig, r.2.mem ((c : Thread nD τ).1, b) = V12 m (outs m) c b) :=
  run_cond m emb₁ () Variants.none L lv (fun _ _ => rfl) ρ (outs m) (pdats m) 0 (fun _ => iprop(emp)) u₀ hu₀
    E (hE0 ρ) hE2 R0 hpre0 hpost0 R1 hpre1 hpost1

theorem frame_of_regions
    (R0 : RegionSeg (pcfgs (F := F)) adm (pdats m) () defs₀ Variants.none L lv 0)
    (hpre0 : ∀ c : Dev nD, iprop(StableHlo.held (c : Thread nD τ) (Pipeline.ucRefs τ sig) (V4 m c) ∗ R (F := F) c) ⊢ R0.pre c)
    (hpost0 : ∀ c : Dev nD, R0.post c ⊢ iprop(StableHlo.held (c : Thread nD τ) (Pipeline.ucRefs τ sig) (V5 m (outs m) c) ∗ R (F := F) c))
    (R1 : RegionSeg (pcfgs (F := F)) adm (pdats m) () defs₀ Variants.none L lv 1)
    (hpre1 : ∀ c : Dev nD, iprop(StableHlo.held (c : Thread nD τ) (Pipeline.ucRefs τ sig) (V6 m (outs m) c) ∗ R (F := F) c) ⊢ R1.pre c)
    (hpost1 : ∀ c : Dev nD, R1.post c ⊢ iprop(StableHlo.held (c : Thread nD τ) (Pipeline.ucRefs τ sig) (V7 m (outs m) c) ∗ R (F := F) c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  OrdCont.mono (θ_run defs (onTc (τ := τ) (main (F := F))) ⟨m, fun _ => 0, ρ⟩)
    (fun r h c =>
      ⟨(h c _ (mem_uc main_arg0 (by decide))).trans (V12_main_arg0 m (outs m) c),
       (h c _ (mem_uc main_arg1 (by decide))).trans (V12_main_arg1 m (outs m) c),
       (h c _ (mem_uc main_arg2 (by decide))).trans (V12_main_arg2 m (outs m) c)⟩)
    (run_of_regions m ρ R0 hpre0 hpost0 R1 hpre1 hpost1)

end Cert.Kernel.Hand

end
-- ==== Proof.KB.Seg0.lean ====
/-
  The first kernel region as one item of the program: entered with every unscoped buffer of the core held whole, it
  takes its four windows' arrays out of them — the array the two row windows share at one half share each —, runs
  the pipeline, and puts them back with the result array at what the write-backs left.
-/
import proofs.«120869_j30030411333999_1_alg».proof.Proof.Gen.Kernel.Launch
import proofs.«120869_j30030411333999_1_alg».proof.Proof.Gen.Kernel.Skeleton
import proofs.«120869_j30030411333999_1_alg».proof.Proof.Gen.Kernel.Points
import proofs.«120869_j30030411333999_1_alg».proof.Proof.Gen.Kernel.Regions
import proofs.«120869_j30030411333999_1_alg».proof.Proof.KB.SegDefs
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- A conjunct that is two parts, at the head of a chain. -/
theorem sep_split_head {M : Type} [URA M] {A A1 A2 B : sProp M} (h : A ⊣⊢ iprop(A1 ∗ A2)) : iprop(A1 ∗ A2 ∗ B) = iprop(A ∗ B) := by
  have h1 : iprop(A1 ∗ A2 ∗ B) ⊢ iprop(A ∗ B) := by
    iintro ⟨H1, H2, H3⟩
    isplitl [H1 H2]
    · iapply h.2; isplitl [H1] <;> iassumption
    iexact H3
  have h2 : iprop(A ∗ B) ⊢ iprop(A1 ∗ A2 ∗ B) := by
    iintro ⟨H1, H3⟩
    ihave H := h.1 $$ H1
    icases H with ⟨H1, H2⟩
    isplitl [H1]; · iexact H1
    isplitl [H2]; · iexact H2
    iexact H3
  exact BI.Entails.antisymm h1 h2

/-- The distinct buffers behind the four windows' arrays. -/
theorem arrImage0 : (Finset.univ.image (Pipeline.arrRef spec0) : Finset (Ref sig .tc)) = {main_v30, main_v29, main_v32} := by decide

/-- Those buffers held whole, one by one: the rows, the pair mask, the result. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v30) ↦{fullShare} V main_v30) ∗ (((c : Thread nD τ).loc main_v29) ↦{fullShare} V main_v29) ∗ (((c : Thread nD τ).loc main_v32) ↦{fullShare} V main_v32)) := by
  unfold Pipeline.arrBufs
  rw [arrImage0, bigSep_insert (by decide), bigSep_insert (by decide), bigSep_singleton]
  rfl

/-- A core's unscoped buffers: the three distinct buffers behind the windows' arrays and the rest. -/
theorem unscopedBufs0_split (c : Dev nD) (V : (b : Ref sig .tc) → Buf (Elt F) ((c : Thread nD τ).loc b)) :
    (unscopedBufs (Ix := Unit) (Name := ℕ) (U := UR sig nD τ) (Lvl := ℕ) c V : sProp 𝕄)
      = iprop(iprop((((c : Thread nD τ).loc main_v30) ↦{fullShare} V main_v30) ∗ (((c : Thread nD τ).loc main_v29) ↦{fullShare} V main_v29) ∗ (((c : Thread nD τ).loc main_v32) ↦{fullShare} V main_v32))
          ∗ Pipeline.unscopedRest spec0 c V) := by
  rw [← arrBufs0_eq]
  exact Pipeline.unscopedBufs_split₀ (Ix := Unit) (Name := ℕ) (U := UR sig nD τ) (Lvl := ℕ) cfgs 0 winFacts₀0.arr_unscoped c V

section Arrays
variable (V : (c : Dev nD) → (b : Ref sig .tc) → Buf (Elt F) ((c : Thread nD τ).loc b))

theorem share0_0 (c : Dev nD) : (dat0 V c).share 0 = shL := by
  unfold Dat.share; rw [if_neg (by decide)]; rfl
theorem share0_1 (c : Dev nD) : (dat0 V c).share 1 = shR := by
  unfold Dat.share; rw [if_neg (by decide)]; rfl
theorem share0_2 (c : Dev nD) : (dat0 V c).share 2 = fullShare := by
  unfold Dat.share; rw [if_neg (by decide)]; rfl
theorem share0_3 (c : Dev nD) : (dat0 V c).share 3 = fullShare := by
  unfold Dat.share; rw [if_pos (by decide)]

/-- The four windows' arrays one by one: the rows' buffer at its two halves, the pair mask and the result whole. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v30) ↦{shL} G 0) ∗ (((c : Thread nD τ).loc main_v30) ↦{shR} G 1)
          ∗ (((c : Thread nD τ).loc main_v29) ↦{fullShare} G 2) ∗ (((c : Thread nD τ).loc main_v32) ↦{fullShare} G 3)) := by
  unfold Dat.arrays
  rw [bigSep_W0, share0_0, share0_1, share0_2, share0_3, (arr_whole0 0).set_eq_univ, (arr_whole0 2).set_eq_univ, (arr_whole0 3).set_eq_univ]

/-- The arrays' contents at entry and as the pipeline leaves them, for the input windows: what the region was
    entered from. -/
theorem arr0_0 (c : Dev nD) : ((dat0 V c).arrAt 0 0 : Buf (Elt F) ((c : Thread nD τ).loc main_v30)) = V c main_v30 := rfl
theorem arr0_1 (c : Dev nD) : ((dat0 V c).arrAt 1 0 : Buf (Elt F) ((c : Thread nD τ).loc main_v30)) = V c main_v30 := rfl
theorem arr0_2 (c : Dev nD) : ((dat0 V c).arrAt 2 0 : Buf (Elt F) ((c : Thread nD τ).loc main_v29)) = V c main_v29 := rfl
theorem arr0_3 (c : Dev nD) : ((dat0 V c).arrAt 3 0 : Buf (Elt F) ((c : Thread nD τ).loc main_v32)) = V c main_v32 := rfl
theorem arrN_0 (c : Dev nD) : ((dat0 V c).arrAt 0 cfg0.N : Buf (Elt F) ((c : Thread nD τ).loc main_v30)) = V c main_v30 :=
  ((dat0 V c).arrAt_in 0 rfl _).trans rfl
theorem arrN_1 (c : Dev nD) : ((dat0 V c).arrAt 1 cfg0.N : Buf (Elt F) ((c : Thread nD τ).loc main_v30)) = V c main_v30 :=
  ((dat0 V c).arrAt_in 1 rfl _).trans rfl
theorem arrN_2 (c : Dev nD) : ((dat0 V c).arrAt 2 cfg0.N : Buf (Elt F) ((c : Thread nD τ).loc main_v29)) = V c main_v29 :=
  ((dat0 V c).arrAt_in 2 rfl _).trans rfl

/-- The rows' buffer whole is its two halves: with one contents at both row windows the four arrays are the three
    distinct buffers whole. -/
theorem arrays0_whole (c : Dev nD) (G : (w : Fin cfg0.W) → Buf (Elt F) ((cfg0.win w).arr.view.loc (c : Thread nD τ)))
    (h01 : (G 0 : Buf (Elt F) ((c : Thread nD τ).loc main_v30)) = G 1) :
    ((dat0 V c).arrays G : sProp 𝕄)
      = iprop((((c : Thread nD τ).loc main_v30) ↦{fullShare} G 0) ∗ (((c : Thread nD τ).loc main_v29) ↦{fullShare} G 2)
          ∗ (((c : Thread nD τ).loc main_v32) ↦{fullShare} G 3)) := by
  rw [arrays0_eq, ← h01]
  exact sep_split_head (pointsTo_share (PosShare.mem_left_op_right fullShare))
end Arrays

section Region
variable (m : (ℓ : Loc nD τ sig) → Buf (Elt F) ℓ)
variable (Win Wout : Dev nD → Valuation τ sig (Elt F))
  (hWin : ∀ c (b : Ref sig .tc), Win c b = Vin0 m c b)
  (hkeep : ∀ c (b : DevRef τ sig), b ≠ Proc.devRef .tc main_v32 → Wout c b = Win c b)
  (hres : ∀ c, Wout c main_v32 = res0 m c)

include hWin in
/-- ENTRY, the buffers: every unscoped buffer held whole at the entry contents is the four windows' arrays at the
    proof data's entry contents — the rows' buffer as its two halves — and the unscoped rest. -/
theorem entry0 (c : Dev nD) :
    (StableHlo.held (c : Thread nD τ) (Pipeline.ucRefs τ sig) (Win c) : sProp 𝕄)
      ⊢ iprop((dat0 (Vin0 m) c).arrays ((dat0 (Vin0 m) c).arrAt · 0) ∗ Pipeline.unscopedRest (Ix := Unit) (Name := ℕ) (U := UR sig nD τ) (Lvl := ℕ) spec0 c (Vin0 m c)) := by
  rw [← Pipeline.unscopedBufs_held, show (fun b : Ref sig .tc => Win c b) = Vin0 m c from funext (hWin c),
    unscopedBufs0_split, arrays0_whole (Vin0 m) c (fun w => (dat0 (Vin0 m) c).arrAt w 0) ((arr0_0 (Vin0 m) c).trans (arr0_1 (Vin0 m) c).symm),
    arr0_0, arr0_2, arr0_3]

include hWin hkeep hres in
/-- EXIT, the buffers: the arrays as the pipeline leaves them — the inputs as entered, so the rows' two halves hold
    one contents and make the whole again, the result at what the write-backs left — and the unscoped rest are every
    unscoped buffer held whole at the exit contents. -/
theorem exit0 (c : Dev nD) :
    iprop((dat0 (Vin0 m) c).arrays ((dat0 (Vin0 m) c).arrAt · cfg0.N) ∗ Pipeline.unscopedRest (Ix := Unit) (Name := ℕ) (U := UR sig nD τ) (Lvl := ℕ) spec0 c (Vin0 m c))
      ⊢ (StableHlo.held (c : Thread nD τ) (Pipeline.ucRefs τ sig) (Wout c) : sProp 𝕄) := by
  have e30 : (Wout c main_v30 : Buf (Elt F) ((c : Thread nD τ).loc main_v30)) = Vin0 m c main_v30 :=
    (hkeep c _ (StableHlo.devRef_ne_of_ne (by decide))).trans (hWin c main_v30)
  have e29 : (Wout c main_v29 : Buf (Elt F) ((c : Thread nD τ).loc main_v29)) = Vin0 m c main_v29 :=
    (hkeep c _ (StableHlo.devRef_ne_of_ne (by decide))).trans (hWin c main_v29)
  have e32 : (Wout c main_v32 : Buf (Elt F) ((c : Thread nD τ).loc main_v32)) = (dat0 (Vin0 m) c).arrAt 3 cfg0.N := hres c
  have hrest : (Pipeline.unscopedRest (Ix := Unit) (Name := ℕ) (U := UR sig nD τ) (Lvl := ℕ) spec0 c (fun b => Wout c b) : sProp 𝕄)
      = Pipeline.unscopedRest spec0 c (Vin0 m c) := by
    unfold Pipeline.unscopedRest
    refine bigSep_congr fun b hb => ?_
    dsimp only
    rw [hkeep c _ (StableHlo.devRef_ne_of_ne fun e => (Finset.mem_sdiff.mp hb).2 (by rw [e, arrImage0]; decide)), hWin]
  rw [← Pipeline.unscopedBufs_held, unscopedBufs0_split,
    arrays0_whole (Vin0 m) c (fun w => (dat0 (Vin0 m) c).arrAt w cfg0.N) ((arrN_0 (Vin0 m) c).trans (arrN_1 (Vin0 m) c).symm),
    hrest, e30, e29, e32, arrN_0, arrN_2]
end Region

variable (m : (ℓ : Loc nD τ sig) → Buf (Elt F) ℓ)

/-- THE REGION. -/
def reg0
    -- the body obligation of the pipeline's proof data and its invariant's two ends
    (hb : ∀ c : Dev nD, BodyObligation (dat0 (F := F) (Vin0 m) c) (defs₀ (F := F)) Variants.none () Set.univ)
    (hi : ∀ c : Dev nD, (Pipeline.ΦA spec0 c : sProp 𝕄) ⊢ (dat0 (Vin0 m) c).Φ 0)
    (ho : ∀ c : Dev nD, (dat0 (Vin0 m) c).Φ (Fin.last cfg0.N) ⊢ (Pipeline.ΦA spec0 c : sProp 𝕄))
    -- the contents of the core's unscoped buffers before and after the region
    (Win Wout : Dev nD → Valuation τ sig (Elt F))
    (hWin : ∀ c (b : Ref sig .tc), Win c b = Vin0 m c b)
    (hkeep : ∀ c (b : DevRef τ sig), b ≠ Proc.devRef .tc main_v32 → Wout c b = Win c b)
    (hres : ∀ c, Wout c main_v32 = res0 m c) :
    RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := entry0 m Win hWin c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine (ho c).trans ?_
    rw [Pipeline.ownSems0_none]; unfold Pipeline.ΦA
    iintro ⟨Hr, Hp⟩
    isplitl [Hp]; · iexact Hp
    isplitr; · iempintro
    iexact Hr
  hexit c := by
    have hjoin := exit0 m Win Wout hWin hkeep hres c
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

theorem reg0_pre
    -- the body obligation of the pipeline's proof data and its invariant's two ends
    (hb : ∀ c : Dev nD, BodyObligation (dat0 (F := F) (Vin0 m) c) (defs₀ (F := F)) Variants.none () Set.univ)
    (hi : ∀ c : Dev nD, (Pipeline.ΦA spec0 c : sProp 𝕄) ⊢ (dat0 (Vin0 m) c).Φ 0)
    (ho : ∀ c : Dev nD, (dat0 (Vin0 m) c).Φ (Fin.last cfg0.N) ⊢ (Pipeline.ΦA spec0 c : sProp 𝕄))
    -- the contents of the core's unscoped buffers before and after the region
    (Win Wout : Dev nD → Valuation τ sig (Elt F))
    (hWin : ∀ c (b : Ref sig .tc), Win c b = Vin0 m c b)
    (hkeep : ∀ c (b : DevRef τ sig), b ≠ Proc.devRef .tc main_v32 → Wout c b = Win c b)
    (hres : ∀ c, Wout c main_v32 = res0 m c)
    (c : Dev nD) :
    iprop(StableHlo.held (c : Thread nD τ) (Pipeline.ucRefs τ sig) (Win c) ∗ R (F := F) c) ⊢ (reg0 m hb hi ho Win Wout hWin hkeep hres).pre c := .rfl
theorem reg0_post
    -- the body obligation of the pipeline's proof data and its invariant's two ends
    (hb : ∀ c : Dev nD, BodyObligation (dat0 (F := F) (Vin0 m) c) (defs₀ (F := F)) Variants.none () Set.univ)
    (hi : ∀ c : Dev nD, (Pipeline.ΦA spec0 c : sProp 𝕄) ⊢ (dat0 (Vin0 m) c).Φ 0)
    (ho : ∀ c : Dev nD, (dat0 (Vin0 m) c).Φ (Fin.last cfg0.N) ⊢ (Pipeline.ΦA spec0 c : sProp 𝕄))
    -- the contents of the core's unscoped buffers before and after the region
    (Win Wout : Dev nD → Valuation τ sig (Elt F))
    (hWin : ∀ c (b : Ref sig .tc), Win c b = Vin0 m c b)
    (hkeep : ∀ c (b : DevRef τ sig), b ≠ Proc.devRef .tc main_v32 → Wout c b = Win c b)
    (hres : ∀ c, Wout c main_v32 = res0 m c)
    (c : Dev nD) :
    (reg0 m hb hi ho Win Wout hWin hkeep hres).post c ⊢ iprop(StableHlo.held (c : Thread nD τ) (Pipeline.ucRefs τ sig) (Wout c) ∗ R (F := F) c) := .rfl

end Cert.Kernel.Hand

end
-- ==== Proof.KB.Seg1.lean ====
/-
  The second kernel region as one item of the program: entered with every unscoped buffer of the core held whole, it
  takes its four windows' arrays out of them — the array the two row windows share at one half share each —, runs
  the pipeline, and puts them back with the result array at what the write-backs left.
-/
import proofs.«120869_j30030411333999_1_alg».proof.Proof.Gen.Kernel.Launch
import proofs.«120869_j30030411333999_1_alg».proof.Proof.Gen.Kernel.Skeleton
import proofs.«120869_j30030411333999_1_alg».proof.Proof.Gen.Kernel.Points
import proofs.«120869_j30030411333999_1_alg».proof.Proof.Gen.Kernel.Regions
import proofs.«120869_j30030411333999_1_alg».proof.Proof.KB.SegDefs
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- A conjunct that is two parts, at the head of a chain. -/
theorem sep_split_head_r1 {M : Type} [URA M] {A A1 A2 B : sProp M} (h : A ⊣⊢ iprop(A1 ∗ A2)) : iprop(A1 ∗ A2 ∗ B) = iprop(A ∗ B) := by
  have h1 : iprop(A1 ∗ A2 ∗ B) ⊢ iprop(A ∗ B) := by
    iintro ⟨H1, H2, H3⟩
    isplitl [H1 H2]
    · iapply h.2; isplitl [H1] <;> iassumption
    iexact H3
  have h2 : iprop(A ∗ B) ⊢ iprop(A1 ∗ A2 ∗ B) := by
    iintro ⟨H1, H3⟩
    ihave H := h.1 $$ H1
    icases H with ⟨H1, H2⟩
    isplitl [H1]; · iexact H1
    isplitl [H2]; · iexact H2
    iexact H3
  exact BI.Entails.antisymm h1 h2

/-- The distinct buffers behind the four windows' arrays. -/
theorem arrImage1 : (Finset.univ.image (Pipeline.arrRef spec1) : Finset (Ref sig .tc)) = {main_v31, main_v29, main_v34} := by decide

/-- Those buffers held whole, one by one: the rows, the pair mask, the result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v31) ↦{fullShare} V main_v31) ∗ (((c : Thread nD τ).loc main_v29) ↦{fullShare} V main_v29) ∗ (((c : Thread nD τ).loc main_v34) ↦{fullShare} V main_v34)) := by
  unfold Pipeline.arrBufs
  rw [arrImage1, bigSep_insert (by decide), bigSep_insert (by decide), bigSep_singleton]
  rfl

/-- A core's unscoped buffers: the three distinct buffers behind the windows' arrays and the rest. -/
theorem unscopedBufs1_split (c : Dev nD) (V : (b : Ref sig .tc) → Buf (Elt F) ((c : Thread nD τ).loc b)) :
    (unscopedBufs (Ix := Unit) (Name := ℕ) (U := UR sig nD τ) (Lvl := ℕ) c V : sProp 𝕄)
      = iprop(iprop((((c : Thread nD τ).loc main_v31) ↦{fullShare} V main_v31) ∗ (((c : Thread nD τ).loc main_v29) ↦{fullShare} V main_v29) ∗ (((c : Thread nD τ).loc main_v34) ↦{fullShare} V main_v34))
          ∗ Pipeline.unscopedRest spec1 c V) := by
  rw [← arrBufs1_eq]
  exact Pipeline.unscopedBufs_split₀ (Ix := Unit) (Name := ℕ) (U := UR sig nD τ) (Lvl := ℕ) cfgs 1 winFacts₀1.arr_unscoped c V

section Arrays
variable (V : (c : Dev nD) → (b : Ref sig .tc) → Buf (Elt F) ((c : Thread nD τ).loc b))

theorem share1_0 (c : Dev nD) : (dat1 V c).share 0 = shL := by
  unfold Dat.share; rw [if_neg (by decide)]; rfl
theorem share1_1 (c : Dev nD) : (dat1 V c).share 1 = shR := by
  unfold Dat.share; rw [if_neg (by decide)]; rfl
theorem share1_2 (c : Dev nD) : (dat1 V c).share 2 = fullShare := by
  unfold Dat.share; rw [if_neg (by decide)]; rfl
theorem share1_3 (c : Dev nD) : (dat1 V c).share 3 = fullShare := by
  unfold Dat.share; rw [if_pos (by decide)]

/-- The four windows' arrays one by one: the rows' buffer at its two halves, the pair mask and the result whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v31) ↦{shL} G 0) ∗ (((c : Thread nD τ).loc main_v31) ↦{shR} G 1)
          ∗ (((c : Thread nD τ).loc main_v29) ↦{fullShare} G 2) ∗ (((c : Thread nD τ).loc main_v34) ↦{fullShare} G 3)) := by
  unfold Dat.arrays
  rw [bigSep_W1, share1_0, share1_1, share1_2, share1_3, (arr_whole1 0).set_eq_univ, (arr_whole1 2).set_eq_univ, (arr_whole1 3).set_eq_univ]

/-- The arrays' contents at entry and as the pipeline leaves them, for the input windows: what the region was
    entered from. -/
theorem arr1_0 (c : Dev nD) : ((dat1 V c).arrAt 0 0 : Buf (Elt F) ((c : Thread nD τ).loc main_v31)) = V c main_v31 := rfl
theorem arr1_1 (c : Dev nD) : ((dat1 V c).arrAt 1 0 : Buf (Elt F) ((c : Thread nD τ).loc main_v31)) = V c main_v31 := rfl
theorem arr1_2 (c : Dev nD) : ((dat1 V c).arrAt 2 0 : Buf (Elt F) ((c : Thread nD τ).loc main_v29)) = V c main_v29 := rfl
theorem arr1_3 (c : Dev nD) : ((dat1 V c).arrAt 3 0 : Buf (Elt F) ((c : Thread nD τ).loc main_v34)) = V c main_v34 := rfl
theorem arrN_0_r1 (c : Dev nD) : ((dat1 V c).arrAt 0 cfg1.N : Buf (Elt F) ((c : Thread nD τ).loc main_v31)) = V c main_v31 :=
  ((dat1 V c).arrAt_in 0 rfl _).trans rfl
theorem arrN_1_r1 (c : Dev nD) : ((dat1 V c).arrAt 1 cfg1.N : Buf (Elt F) ((c : Thread nD τ).loc main_v31)) = V c main_v31 :=
  ((dat1 V c).arrAt_in 1 rfl _).trans rfl
theorem arrN_2_r1 (c : Dev nD) : ((dat1 V c).arrAt 2 cfg1.N : Buf (Elt F) ((c : Thread nD τ).loc main_v29)) = V c main_v29 :=
  ((dat1 V c).arrAt_in 2 rfl _).trans rfl

/-- The rows' buffer whole is its two halves: with one contents at both row windows the four arrays are the three
    distinct buffers whole. -/
theorem arrays1_whole (c : Dev nD) (G : (w : Fin cfg1.W) → Buf (Elt F) ((cfg1.win w).arr.view.loc (c : Thread nD τ)))
    (h01 : (G 0 : Buf (Elt F) ((c : Thread nD τ).loc main_v31)) = G 1) :
    ((dat1 V c).arrays G : sProp 𝕄)
      = iprop((((c : Thread nD τ).loc main_v31) ↦{fullShare} G 0) ∗ (((c : Thread nD τ).loc main_v29) ↦{fullShare} G 2)
          ∗ (((c : Thread nD τ).loc main_v34) ↦{fullShare} G 3)) := by
  rw [arrays1_eq, ← h01]
  exact sep_split_head_r1 (pointsTo_share (PosShare.mem_left_op_right fullShare))
end Arrays

section Region
variable (m : (ℓ : Loc nD τ sig) → Buf (Elt F) ℓ)
variable (Win Wout : Dev nD → Valuation τ sig (Elt F))
  (hWin : ∀ c (b : Ref sig .tc), Win c b = Vin1 m c b)
  (hkeep : ∀ c (b : DevRef τ sig), b ≠ Proc.devRef .tc main_v34 → Wout c b = Win c b)
  (hres : ∀ c, Wout c main_v34 = res1 m c)

include hWin in
/-- ENTRY, the buffers: every unscoped buffer held whole at the entry contents is the four windows' arrays at the
    proof data's entry contents — the rows' buffer as its two halves — and the unscoped rest. -/
theorem entry1 (c : Dev nD) :
    (StableHlo.held (c : Thread nD τ) (Pipeline.ucRefs τ sig) (Win c) : sProp 𝕄)
      ⊢ iprop((dat1 (Vin1 m) c).arrays ((dat1 (Vin1 m) c).arrAt · 0) ∗ Pipeline.unscopedRest (Ix := Unit) (Name := ℕ) (U := UR sig nD τ) (Lvl := ℕ) spec1 c (Vin1 m c)) := by
  rw [← Pipeline.unscopedBufs_held, show (fun b : Ref sig .tc => Win c b) = Vin1 m c from funext (hWin c),
    unscopedBufs1_split, arrays1_whole (Vin1 m) c (fun w => (dat1 (Vin1 m) c).arrAt w 0) ((arr1_0 (Vin1 m) c).trans (arr1_1 (Vin1 m) c).symm),
    arr1_0, arr1_2, arr1_3]

include hWin hkeep hres in
/-- EXIT, the buffers: the arrays as the pipeline leaves them — the inputs as entered, so the rows' two halves hold
    one contents and make the whole again, the result at what the write-backs left — and the unscoped rest are every
    unscoped buffer held whole at the exit contents. -/
theorem exit1 (c : Dev nD) :
    iprop((dat1 (Vin1 m) c).arrays ((dat1 (Vin1 m) c).arrAt · cfg1.N) ∗ Pipeline.unscopedRest (Ix := Unit) (Name := ℕ) (U := UR sig nD τ) (Lvl := ℕ) spec1 c (Vin1 m c))
      ⊢ (StableHlo.held (c : Thread nD τ) (Pipeline.ucRefs τ sig) (Wout c) : sProp 𝕄) := by
  have e30 : (Wout c main_v31 : Buf (Elt F) ((c : Thread nD τ).loc main_v31)) = Vin1 m c main_v31 :=
    (hkeep c _ (StableHlo.devRef_ne_of_ne (by decide))).trans (hWin c main_v31)
  have e29 : (Wout c main_v29 : Buf (Elt F) ((c : Thread nD τ).loc main_v29)) = Vin1 m c main_v29 :=
    (hkeep c _ (StableHlo.devRef_ne_of_ne (by decide))).trans (hWin c main_v29)
  have e32 : (Wout c main_v34 : Buf (Elt F) ((c : Thread nD τ).loc main_v34)) = (dat1 (Vin1 m) c).arrAt 3 cfg1.N := hres c
  have hrest : (Pipeline.unscopedRest (Ix := Unit) (Name := ℕ) (U := UR sig nD τ) (Lvl := ℕ) spec1 c (fun b => Wout c b) : sProp 𝕄)
      = Pipeline.unscopedRest spec1 c (Vin1 m c) := by
    unfold Pipeline.unscopedRest
    refine bigSep_congr fun b hb => ?_
    dsimp only
    rw [hkeep c _ (StableHlo.devRef_ne_of_ne fun e => (Finset.mem_sdiff.mp hb).2 (by rw [e, arrImage1]; decide)), hWin]
  rw [← Pipeline.unscopedBufs_held, unscopedBufs1_split,
    arrays1_whole (Vin1 m) c (fun w => (dat1 (Vin1 m) c).arrAt w cfg1.N) ((arrN_0_r1 (Vin1 m) c).trans (arrN_1_r1 (Vin1 m) c).symm),
    hrest, e30, e29, e32, arrN_0_r1, arrN_2_r1]
end Region

variable (m : (ℓ : Loc nD τ sig) → Buf (Elt F) ℓ)

/-- THE REGION. -/
def reg1
    -- the body obligation of the pipeline's proof data and its invariant's two ends
    (hb : ∀ c : Dev nD, BodyObligation (dat1 (F := F) (Vin1 m) c) (defs₀ (F := F)) Variants.none () Set.univ)
    (hi : ∀ c : Dev nD, (Pipeline.ΦA spec1 c : sProp 𝕄) ⊢ (dat1 (Vin1 m) c).Φ 0)
    (ho : ∀ c : Dev nD, (dat1 (Vin1 m) c).Φ (Fin.last cfg1.N) ⊢ (Pipeline.ΦA spec1 c : sProp 𝕄))
    -- the contents of the core's unscoped buffers before and after the region
    (Win Wout : Dev nD → Valuation τ sig (Elt F))
    (hWin : ∀ c (b : Ref sig .tc), Win c b = Vin1 m c b)
    (hkeep : ∀ c (b : DevRef τ sig), b ≠ Proc.devRef .tc main_v34 → Wout c b = Win c b)
    (hres : ∀ c, Wout c main_v34 = res1 m c) :
    RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := entry1 m Win hWin c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine (ho c).trans ?_
    rw [Pipeline.ownSems0_none]; unfold Pipeline.ΦA
    iintro ⟨Hr, Hp⟩
    isplitl [Hp]; · iexact Hp
    isplitr; · iempintro
    iexact Hr
  hexit c := by
    have hjoin := exit1 m Win Wout hWin hkeep hres c
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

theorem reg1_pre
    -- the body obligation of the pipeline's proof data and its invariant's two ends
    (hb : ∀ c : Dev nD, BodyObligation (dat1 (F := F) (Vin1 m) c) (defs₀ (F := F)) Variants.none () Set.univ)
    (hi : ∀ c : Dev nD, (Pipeline.ΦA spec1 c : sProp 𝕄) ⊢ (dat1 (Vin1 m) c).Φ 0)
    (ho : ∀ c : Dev nD, (dat1 (Vin1 m) c).Φ (Fin.last cfg1.N) ⊢ (Pipeline.ΦA spec1 c : sProp 𝕄))
    -- the contents of the core's unscoped buffers before and after the region
    (Win Wout : Dev nD → Valuation τ sig (Elt F))
    (hWin : ∀ c (b : Ref sig .tc), Win c b = Vin1 m c b)
    (hkeep : ∀ c (b : DevRef τ sig), b ≠ Proc.devRef .tc main_v34 → Wout c b = Win c b)
    (hres : ∀ c, Wout c main_v34 = res1 m c)
    (c : Dev nD) :
    iprop(StableHlo.held (c : Thread nD τ) (Pipeline.ucRefs τ sig) (Win c) ∗ R (F := F) c) ⊢ (reg1 m hb hi ho Win Wout hWin hkeep hres).pre c := .rfl
theorem reg1_post
    -- the body obligation of the pipeline's proof data and its invariant's two ends
    (hb : ∀ c : Dev nD, BodyObligation (dat1 (F := F) (Vin1 m) c) (defs₀ (F := F)) Variants.none () Set.univ)
    (hi : ∀ c : Dev nD, (Pipeline.ΦA spec1 c : sProp 𝕄) ⊢ (dat1 (Vin1 m) c).Φ 0)
    (ho : ∀ c : Dev nD, (dat1 (Vin1 m) c).Φ (Fin.last cfg1.N) ⊢ (Pipeline.ΦA spec1 c : sProp 𝕄))
    -- the contents of the core's unscoped buffers before and after the region
    (Win Wout : Dev nD → Valuation τ sig (Elt F))
    (hWin : ∀ c (b : Ref sig .tc), Win c b = Vin1 m c b)
    (hkeep : ∀ c (b : DevRef τ sig), b ≠ Proc.devRef .tc main_v34 → Wout c b = Win c b)
    (hres : ∀ c, Wout c main_v34 = res1 m c)
    (c : Dev nD) :
    (reg1 m hb hi ho Win Wout hWin hkeep hres).post c ⊢ iprop(StableHlo.held (c : Thread nD τ) (Pipeline.ucRefs τ sig) (Wout c) ∗ R (F := F) c) := .rfl

end Cert.Kernel.Hand

end
-- ==== Proof.KB.Run0.lean ====
/-
  The kernel body of the first region, run once for each way its three conditionals can fall at a grid point
  (k = 0 and j = 0; k = 0 and j > 0; k = 1 or 2; k = 3), on whole staging memrefs: each run ends with the
  input blocks untouched, the scratch at the accumulated product and the output block cleared, kept, or
  increased by the masked row sums.
-/
import proofs.«120869_j30030411333999_1_alg».proof.Proof.Gen.Kernel.Launch
import proofs.«120869_j30030411333999_1_alg».proof.Proof.Gen.Kernel.Skeleton
import proofs.«120869_j30030411333999_1_alg».proof.Proof.Gen.Kernel.Points
import proofs.«120869_j30030411333999_1_alg».proof.Proof.KB.Defs0
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three conditions of the body's conditionals, from the grid coordinates. -/
abbrev cond0_0 (i : grid0.Coords) : Prop := (Scalar.cmpi .ne (Scalar.extui (Scalar.cmpi .eq (BitVec.ofNat 32 (i 2).val) 0#32)) 0#32) = 1#1
abbrev cond0_1 (i : grid0.Coords) : Prop := k0_cond2 i = 1#1
abbrev cond0_2 (i : grid0.Coords) : Prop := k0_cond3 i = 1#1

/-- They hold where k = 0, where j = k = 0, where k = 3 — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 16 = 0 :=
  (by decide +kernel : ∀ t : Fin grid0.N, cond0_1 (grid0.coords t) ↔ t.val % 16 = 0)
theorem hcond0_2 : ∀ t : Fin cfg0.N, cond0_2 (grid0.coords t) ↔ t.val % 4 = 3 :=
  (by decide +kernel : ∀ t : Fin grid0.N, cond0_2 (grid0.coords t) ↔ t.val % 4 = 3)

/-- A store through the whole-shape rectangle (zero offsets, full sizes), made last, covers every index. -/
private theorem cover_whole {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons.mpr (Or.inl rfl), View.mem_set_unit_zero h inb y⟩

/-- So a buffer whose last store went through the whole-shape rectangle reads as that store's payload, whatever it
    held and whatever was stored before. -/
private theorem read_writes_whole {κ : Kind} {sp : Space} {S : Shape} {e : EltTy} (v : View sig κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (cover_whole h inb w L)).trans (View.canon_cons_unit_zero h inb w L)

/-- The zero offsets of a rank-two rectangle, as the constant function. -/
private theorem hz : (![0, 0] : Fin 2 → Nat) = fun _ => 0 := funext fun a => by fin_cases a <;> rfl

set_option maxHeartbeats 1000000 in
/-- j = k = 0: the scratch is cleared and takes the first product; the output block is cleared. -/
theorem run0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : cond0_0 i) (hc1 : cond0_1 i) (hc2 : ¬cond0_2 i)
    (x0 x1 x2 : Vec F S1024x1024 .bf16)  (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare (k0_pay3 (F := F)) ∗ owns (c : Thread nD τ) arg7 fullShare (k0_pay2 (k0_pay1 (F := F)) x0 x1)) -∗ K ⟨⟩))
      ⊢ wp frame (wpE (defs₀ (F := F)) Variants.none c none) E (cc0__neg_error_kernel i arg3 harg3 arg4 harg4 arg5 harg5 arg6 harg6 arg7 harg7) K := by
  simp only [cc0__neg_error_kernel_eq_skeleton]; unfold cc0__neg_error_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  obtain rfl := harg3.eq_unread hf0; obtain rfl := harg4.eq_unread hf1; obtain rfl := harg5.eq_unread hf2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    exact read_writes_whole (S := S1024x1) _ _ hz _ _ _
  iexists _; isplitr; swap; · iexact HS
  ipureintro
  sl_unfold_words
  refine (read_writes_whole (S := S1024x1024) _ _ hz _ _ _).trans ?_
  rw [View.readCov_unit_zero (S := S1024x1024) _ hz]
  simp only [View.readAt_eq_ld, harg3.read_unread, harg4.read_unread, View.ld_unit_zero (S := S1024x1024) hz]

set_option maxHeartbeats 1000000 in
/-- k = 0, j > 0: the scratch is cleared and takes the first product; the output block is not touched. -/
theorem run0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : cond0_0 i) (hc1 : ¬cond0_1 i) (hc2 : ¬cond0_2 i)
    (x0 x1 x2 : Vec F S1024x1024 .bf16) (xi : Vec F S1024x1 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k0_pay2 (k0_pay1 (F := F)) x0 x1)) -∗ K ⟨⟩))
      ⊢ wp frame (wpE (defs₀ (F := F)) Variants.none c none) E (cc0__neg_error_kernel i arg3 harg3 arg4 harg4 arg5 harg5 arg6 harg6 arg7 harg7) K := by
  simp only [cc0__neg_error_kernel_eq_skeleton]; unfold cc0__neg_error_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2
  obtain rfl := harg6.eq_unread hf3
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr; swap; · iexact HS
  ipureintro
  sl_unfold_words
  refine (read_writes_whole (S := S1024x1024) _ _ hz _ _ _).trans ?_
  rw [View.readCov_unit_zero (S := S1024x1024) _ hz]
  simp only [View.readAt_eq_ld, harg3.read_unread, harg4.read_unread, View.ld_unit_zero (S := S1024x1024) hz]

set_option maxHeartbeats 1000000 in
/-- k = 1 or 2: the product is added into the scratch; the output block is not touched. -/
theorem run0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : ¬cond0_0 i) (hc1 : ¬cond0_1 i) (hc2 : ¬cond0_2 i)
    (x0 x1 x2 : Vec F S1024x1024 .bf16) (xi : Vec F S1024x1 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k0_pay2 xs x0 x1)) -∗ K ⟨⟩))
      ⊢ wp frame (wpE (defs₀ (F := F)) Variants.none c none) E (cc0__neg_error_kernel i arg3 harg3 arg4 harg4 arg5 harg5 arg6 harg6 arg7 harg7) K := by
  simp only [cc0__neg_error_kernel_eq_skeleton]; unfold cc0__neg_error_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr; swap; · iexact HS
  ipureintro
  refine (read_writes_whole (S := S1024x1024) _ _ hz _ _ _).trans ?_
  simp only [View.readAt_eq_ld, harg3.read_unread, harg4.read_unread, harg7.read_unread, View.ld_unit_zero (S := S1024x1024) hz]

set_option maxHeartbeats 1000000 in
/-- k = 3: the product is added into the scratch, and the masked row sums of its exponential into the output block. -/
theorem run0_D (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : ¬cond0_0 i) (hc1 : ¬cond0_1 i) (hc2 : cond0_2 i)
    (x0 x1 x2 : Vec F S1024x1024 .bf16) (xo : Vec F S1024x1 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k0_pay4 (k0_pay2 xs x0 x1) x2 xo) ∗ owns (c : Thread nD τ) arg7 fullShare (k0_pay2 xs x0 x1)) -∗ K ⟨⟩))
      ⊢ wp frame (wpE (defs₀ (F := F)) Variants.none c none) E (cc0__neg_error_kernel i arg3 harg3 arg4 harg4 arg5 harg5 arg6 harg6 arg7 harg7) K := by
  simp only [cc0__neg_error_kernel_eq_skeleton]; unfold cc0__neg_error_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    sl_unfold_words
    refine (read_writes_whole (S := S1024x1) _ _ hz _ _ _).trans ?_
    rw [View.readCov_unit_zero (S := S1024x1024) _ hz]
    simp only [View.readAt_eq_ld, harg3.read_unread, harg4.read_unread, harg5.read_unread, harg6.read_unread, harg7.read_unread,
      View.ld_unit_zero (S := S1024x1024) hz, View.ld_unit_zero (S := S1024x1) hz]
  iexists _; isplitr; swap; · iexact HS
  ipureintro
  sl_unfold_words
  refine (read_writes_whole (S := S1024x1024) _ _ hz _ _ _).trans ?_
  simp only [View.readAt_eq_ld, harg3.read_unread, harg4.read_unread, harg7.read_unread, View.ld_unit_zero (S := S1024x1024) hz]

end Cert.Kernel.Hand

end
-- ==== Proof.KB.Body0.lean ====
/-
  The body obligation of the first kernel region's pipeline, and the invariant's entry and exit.

  At every grid point t = (i*4 + j)*4 + k the three input windows' staging buffers hold their blocks (the two row
  windows are fetched at every point; the mask window only where k = 0, but its block index does not move with k).
  The output window's buffer holds anything where t % 16 = 0 (the first point, or the point after a write-back)
  and otherwise what the point before left in it, which the contents function carries unchanged through the points
  that do not store into it. The scratch accumulator is handed over by the invariant: at anything where k = 0 (the
  body clears it first), at what the point before left elsewhere. The four ways the body's conditionals fall
  (j = k = 0; k = 0 < j; k = 1 or 2; k = 3) are the four runs of the body; each is applied at the point's memrefs
  and blocks, and what it returns is what the proof data state for the point.
-/
import proofs.«120869_j30030411333999_1_alg».proof.Proof.KB.Run0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The staging memrefs at a point, and where the windows are idle -/

/-- Each window's current staging memref at point `t`, as the pipeline passes it to the body, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The output window is idle exactly where the body neither clears its block nor adds to it. -/
theorem idleAt0_3 : ∀ t : Fin cfg0.N, cfg0.idle 3 (grid0.coords t) = true ↔ (t.val % 16 ≠ 0 ∧ t.val % 4 ≠ 3) :=
  (by decide +kernel : ∀ t : Fin grid0.N, cfg0.idle 3 (grid0.coords t) = true ↔ (t.val % 16 ≠ 0 ∧ t.val % 4 ≠ 3))
theorem idleAt0_3_of (t : Fin cfg0.N) (h1 : t.val % 16 ≠ 0) (h2 : t.val % 4 ≠ 3) : cfg0.idle 3 (grid0.coords t) = true :=
  (idleAt0_3 t).mpr ⟨h1, h2⟩
theorem liveAt0_3_of (t : Fin cfg0.N) (h : t.val % 16 = 0 ∨ t.val % 4 = 3) : cfg0.idle 3 (grid0.coords t) = false :=
  Bool.eq_false_iff.mpr fun hi => by have := (idleAt0_3 t).mp hi; omega
/-- The output block is not written back at a point that is not the last of its i. -/
theorem noFlush0_3_of (t : Fin cfg0.N) (h : t.val % 16 ≠ 15) : (cfg0.win 3).flush t = false :=
  Bool.eq_false_iff.mpr fun hf => h ((flush0_3 t).mp hf)

/-! ## The contents functions at a point -/

/-- Where k = 0 the accumulator restarts from zero. -/
theorem accAt0_reset (c : Dev nD) (t : Fin cfg0.N) (h : t.val % 4 = 0) :
    accAt0 V c t.val t.isLt = k0_pay2 (k0_pay1 (F := F)) (zi0 V c t) (zj0 V c t) := by
  obtain ⟨n, hn⟩ := t
  cases n with
  | zero => rfl
  | succ n => exact congrArg (fun x => k0_pay2 x (zi0 V c ⟨n + 1, hn⟩) (zj0 V c ⟨n + 1, hn⟩)) (if_pos h)

/-- Elsewhere it adds to what the point before left. -/
theorem accAt0_step (c : Dev nD) (t : Fin cfg0.N) (h : t.val % 4 ≠ 0) :
    accAt0 V c t.val t.isLt = k0_pay2 (accAt0 V c (t.val - 1) (Nat.lt_of_le_of_lt (Nat.sub_le _ _) t.isLt)) (zi0 V c t) (zj0 V c t) := by
  obtain ⟨n, hn⟩ := t
  cases n with
  | zero => exact absurd (Nat.zero_mod _) h
  | succ n => exact congrArg (fun x => k0_pay2 x (zi0 V c ⟨n + 1, hn⟩) (zj0 V c ⟨n + 1, hn⟩)) (if_neg h)

/-- At the first point of each i the output block is zero. -/
theorem outAt0_zero (c : Dev nD) (t : Fin cfg0.N) (h : t.val % 16 = 0) : outAt0 V c t.val t.isLt = k0_pay3 (F := F) := by
  obtain ⟨n, hn⟩ := t
  cases n with
  | zero => rfl
  | succ n => exact if_pos h

/-- Where k = 3 the masked row sums are added to what the point before left. -/
theorem outAt0_add (c : Dev nD) (t : Fin cfg0.N) (h1 : t.val % 16 ≠ 0) (h2 : t.val % 4 = 3) :
    outAt0 V c t.val t.isLt = k0_pay4 (accAt0 V c t.val t.isLt) (mk0 V c t) (outAt0 V c (t.val - 1) (Nat.lt_of_le_of_lt (Nat.sub_le _ _) t.isLt)) := by
  obtain ⟨n, hn⟩ := t
  cases n with
  | zero => exact absurd (Nat.zero_mod _) h1
  | succ n => exact (if_neg h1).trans (if_pos h2)

/-- Elsewhere the block is as the point before left it. -/
theorem outAt0_keep (c : Dev nD) (t : Fin cfg0.N) (h1 : t.val % 16 ≠ 0) (h2 : t.val % 4 ≠ 3) :
    outAt0 V c t.val t.isLt = outAt0 V c (t.val - 1) (Nat.lt_of_le_of_lt (Nat.sub_le _ _) t.isLt) := by
  obtain ⟨n, hn⟩ := t
  cases n with
  | zero => exact absurd (Nat.zero_mod _) h1
  | succ n => exact (if_neg h1).trans (if_neg h2)

/-! ## What the body finds in the staging buffers -/

/-- Each input's current staging buffer holds its block at every point, fetched there or not: unfetched, the block
    index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- What the body left in the output's buffer at a point live for it, as the next point finds it: all of it (the
    window is uncut). -/
theorem kept0_3 (c : Dev nD) (t : Fin cfg0.N) (d) : (dat0 V c).kept 3 t d = outAt0 V c t.val t.isLt := by
  unfold Dat.kept
  rw [Pipeline.fill_of_clip_none 3 _ (fun _ => rfl) d ((dat0 V c).after 3 t), Window.fill_cut, after0_3]

/-- At a point other than the first of an i the output's current staging buffer holds what the contents function
    says of the point before: the buffer is not written back between, and through the points that do not store into
    it both the buffer and the contents function stand still. By induction on the point. -/
theorem before0_3_aux (c : Dev nD) (d) : ∀ (n : ℕ) (hn : n < cfg0.N), (n + 1) % 16 ≠ 0 → ∀ hn' : n + 1 < cfg0.N,
    (dat0 V c).before 3 ⟨n + 1, hn'⟩ d = outAt0 V c n hn := by
  intro n
  induction n with
  | zero =>
    intro hn h16 hn'
    rw [Dat.before_of_pos _ 3 ⟨0 + 1, hn'⟩ (Nat.succ_ne_zero _) ((cfg0.win 3).fetch_out rfl _) d]
    rw [noFlush0_3_of ⟨0 + 1 - 1, _⟩ (by dsimp only; omega), if_neg Bool.false_ne_true]
    unfold Dat.left
    rw [liveAt0_3_of ⟨0 + 1 - 1, _⟩ (Or.inl (by dsimp only))]
    exact kept0_3 V c _ d
  | succ n ih =>
    intro hn h16 hn'
    rw [Dat.before_of_pos _ 3 ⟨n + 1 + 1, hn'⟩ (Nat.succ_ne_zero _) ((cfg0.win 3).fetch_out rfl _) d]
    rw [noFlush0_3_of ⟨n + 1 + 1 - 1, _⟩ (by dsimp only; omega), if_neg Bool.false_ne_true]
    unfold Dat.left
    by_cases hl : (n + 1) % 16 = 0 ∨ (n + 1) % 4 = 3
    · rw [liveAt0_3_of ⟨n + 1 + 1 - 1, _⟩ (by dsimp only; omega)]
      exact kept0_3 V c _ d
    · rw [idleAt0_3_of ⟨n + 1 + 1 - 1, _⟩ (by dsimp only; omega) (by dsimp only; omega)]
      have h := ih (Nat.lt_of_succ_lt hn) (by omega) hn
      exact h.trans (outAt0_keep V c ⟨n + 1, hn⟩ (by dsimp only; omega) (by dsimp only; omega)).symm

theorem before0_3_kept (c : Dev nD) (t : Fin cfg0.N) (h : t.val % 16 ≠ 0) (d) :
    (dat0 V c).before 3 t d = outAt0 V c (t.val - 1) (Nat.lt_of_le_of_lt (Nat.sub_le _ _) t.isLt) := by
  obtain ⟨n, hn⟩ := t
  cases n with
  | zero => exact absurd (Nat.zero_mod _) h
  | succ n => exact before0_3_aux V c d n (Nat.lt_of_succ_lt hn) h hn

/-! ## The invariant with the scratch's contents forgotten -/

/-- Before any position the invariant gives the scratch at some contents, the other scoped buffers and the generator
    register: before the first point that is the class invariant itself; afterwards the named contents are forgotten. -/
theorem PhiS0_forget (c : Dev nD) (n : ℕ) (h : n ≤ cfg0.N) :
    PhiS0 V c n h ⊢ (iprop(iprop((∃ d, owns (c : Thread nD τ) scM0_0 fullShare d) ∗ restScoped0 (F := F) c) ∗ (∃ r, prngReg c r)) : sProp 𝕄) := by
  cases n with
  | zero => exact PhiA0_split c
  | succ n =>
    rw [PhiS0_succ]
    iintro ⟨⟨HS, HR⟩, Hg⟩
    isplitl [HS HR]
    · isplitl [HS]
      · iexists _; iexact HS
      iexact HR
    iexact Hg

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the closed forms of the conditions say which of the
    four runs applies. Where t % 16 = 0 the output's buffer is handed over at anything and comes back cleared; where
    k = 0 < j or k is 1 or 2 it is handed over as found and comes back so (the window is idle there); where k = 3 it
    holds what the point before left and comes back with the masked row sums added. The invariant hands over the
    scratch (at anything where k = 0, else at what the point before left) and takes it back at this point's
    contents; the other scoped buffers, the generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ, PhiS0_castSucc V c t]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  have hN : t.val < 64 := lt_of_lt_of_eq t.isLt (show cfg0.N = 64 from N_0)
  by_cases h0 : t.val % 4 = 0
  · by_cases h1 : t.val % 16 = 0
    · -- j = k = 0
      have h2 : ¬t.val % 4 = 3 := by omega
      rw [show (dat0 V c).leavesExact 3 t = owns (c : Thread nD τ) (ms0_3 t) fullShare ((dat0 V c).after 3 t) from by
        unfold Dat.leavesExact; rw [liveAt0_3_of t (Or.inl h1)], after0_3, outAt0_zero V c t h1, accAt0_reset V c t h0]
      iintro ⟨HΦ, Ho, ⟨%d0, H0⟩, ⟨%d1, H1⟩, ⟨%d2, H2⟩, ⟨%d3, H3⟩⟩
      ihave ⟨⟨HS, HR⟩, Hg⟩ := (PhiS0_forget V c t.val (Nat.le_of_lt t.isLt)) $$ HΦ
      iapply (run0_A c (grid0.coords t) (ms0_0 t) (hs0_0 t) (ms0_1 t) (hs0_1 t) (ms0_2 t) (hs0_2 t) (ms0_3 t) (hs0_3 t) scM0_0 (Memref.isWhole_whole _)
        ((hcond0_0 t).mpr h0) ((hcond0_1 t).mpr h1) (fun h => h2 ((hcond0_2 t).mp h)) (iblk0 V c 0 t) (iblk0 V c 1 t) (iblk0 V c 2 t) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- k = 0 < j
      have h2 : ¬t.val % 4 = 3 := by omega
      rw [Dat.leavesExact_idle (dat0 V c) 3 t (idleAt0_3_of t h1 h2) (noFlush0_3_of t (by omega)), accAt0_reset V c t h0]
      iintro ⟨HΦ, Ho, ⟨%d0, H0⟩, ⟨%d1, H1⟩, ⟨%d2, H2⟩, ⟨%d3, H3⟩⟩
      ihave ⟨⟨HS, HR⟩, Hg⟩ := (PhiS0_forget V c t.val (Nat.le_of_lt t.isLt)) $$ HΦ
      iapply (run0_B c (grid0.coords t) (ms0_0 t) (hs0_0 t) (ms0_1 t) (hs0_1 t) (ms0_2 t) (hs0_2 t) (ms0_3 t) (hs0_3 t) scM0_0 (Memref.isWhole_whole _)
        ((hcond0_0 t).mpr h0) (fun h => h1 ((hcond0_1 t).mp h)) (fun h => h2 ((hcond0_2 t).mp h)) (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have h1 : ¬t.val % 16 = 0 := by omega
    rw [PhiS0_pos V c _ _ hz, accAt0_step V c t h0]
    by_cases h2 : t.val % 4 = 3
    · -- k = 3
      rw [show (dat0 V c).leavesExact 3 t = owns (c : Thread nD τ) (ms0_3 t) fullShare ((dat0 V c).after 3 t) from by
        unfold Dat.leavesExact; rw [liveAt0_3_of t (Or.inr h2)], after0_3, outAt0_add V c t h1 h2, accAt0_step V c t h0]
      simp only [before0_3_kept V c t h1]
      iintro ⟨⟨⟨HS, HR⟩, Hg⟩, Ho, ⟨%d0, H0⟩, ⟨%d1, H1⟩, ⟨%d2, H2⟩, ⟨%d3, H3⟩⟩
      iapply (run0_D c (grid0.coords t) (ms0_0 t) (hs0_0 t) (ms0_1 t) (hs0_1 t) (ms0_2 t) (hs0_2 t) (ms0_3 t) (hs0_3 t) scM0_0 (Memref.isWhole_whole _)
        (fun h => h0 ((hcond0_0 t).mp h)) (fun h => h1 ((hcond0_1 t).mp h)) ((hcond0_2 t).mpr h2) (iblk0 V c 0 t) (iblk0 V c 1 t) (iblk0 V c 2 t)
        (outAt0 V c (t.val - 1) (Nat.lt_of_le_of_lt (Nat.sub_le _ _) t.isLt)) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- k = 1 or 2
      rw [Dat.leavesExact_idle (dat0 V c) 3 t (idleAt0_3_of t h1 h2) (noFlush0_3_of t (by omega))]
      iintro ⟨⟨⟨HS, HR⟩, Hg⟩, Ho, ⟨%d0, H0⟩, ⟨%d1, H1⟩, ⟨%d2, H2⟩, ⟨%d3, H3⟩⟩
      iapply (run0_C c (grid0.coords t) (ms0_0 t) (hs0_0 t) (ms0_1 t) (hs0_1 t) (ms0_2 t) (hs0_2 t) (ms0_3 t) (hs0_3 t) scM0_0 (Memref.isWhole_whole _)
        (fun h => h0 ((hcond0_0 t).mp h)) (fun h => h1 ((hcond0_1 t).mp h)) (fun h => h2 ((hcond0_2 t).mp h)) (iblk0 V c 0 t) (iblk0 V c 1 t) (iblk0 V c 2 t)
        ((dat0 V c).before 3 t d3) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's entry and exit -/

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives the class invariant back: the scratch's named contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl]
  exact (PhiS0_forget V c _ _).trans (PhiA0_join c)

end Cert.Kernel.Hand

end
-- ==== Proof.KB.Run1.lean ====
/-
  The kernel body of the second region, run once for each way its three conditionals can fall at a grid point
  (k = 0 and j = 0; k = 0 and j > 0; k = 1 or 2; k = 3), on whole staging memrefs: each run ends with the
  input blocks untouched, the scratch at the accumulated product and the output block cleared, kept, or
  increased by the masked row sums.
-/
import proofs.«120869_j30030411333999_1_alg».proof.Proof.Gen.Kernel.Launch
import proofs.«120869_j30030411333999_1_alg».proof.Proof.Gen.Kernel.Skeleton
import proofs.«120869_j30030411333999_1_alg».proof.Proof.Gen.Kernel.Points
import proofs.«120869_j30030411333999_1_alg».proof.Proof.KB.Defs1
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three conditions of the body's conditionals, from the grid coordinates. -/
abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1
abbrev cond1_2 (i : grid1.Coords) : Prop := k1_cond3 i = 1#1

/-- They hold where k = 0, where j = k = 0, where k = 3 — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 16 = 0 :=
  (by decide +kernel : ∀ t : Fin grid1.N, cond1_1 (grid1.coords t) ↔ t.val % 16 = 0)
theorem hcond1_2 : ∀ t : Fin cfg1.N, cond1_2 (grid1.coords t) ↔ t.val % 4 = 3 :=
  (by decide +kernel : ∀ t : Fin grid1.N, cond1_2 (grid1.coords t) ↔ t.val % 4 = 3)

/-- A store through the whole-shape rectangle (zero offsets, full sizes), made last, covers every index. -/
private theorem cover_whole {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons.mpr (Or.inl rfl), View.mem_set_unit_zero h inb y⟩

/-- So a buffer whose last store went through the whole-shape rectangle reads as that store's payload, whatever it
    held and whatever was stored before. -/
private theorem read_writes_whole {κ : Kind} {sp : Space} {S : Shape} {e : EltTy} (v : View sig κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (cover_whole h inb w L)).trans (View.canon_cons_unit_zero h inb w L)

/-- The zero offsets of a rank-two rectangle, as the constant function. -/
private theorem hz : (![0, 0] : Fin 2 → Nat) = fun _ => 0 := funext fun a => by fin_cases a <;> rfl

set_option maxHeartbeats 1000000 in
/-- j = k = 0: the scratch is cleared and takes the first product; the output block is cleared. -/
theorem run1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : cond1_0 i) (hc1 : cond1_1 i) (hc2 : ¬cond1_2 i)
    (x0 x1 x2 : Vec F S1024x1024 .bf16)  (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare (k1_pay3 (F := F)) ∗ owns (c : Thread nD τ) arg7 fullShare (k1_pay2 (k1_pay1 (F := F)) x0 x1)) -∗ K ⟨⟩))
      ⊢ wp frame (wpE (defs₀ (F := F)) Variants.none c none) E (cc1__neg_error_kernel i arg3 harg3 arg4 harg4 arg5 harg5 arg6 harg6 arg7 harg7) K := by
  simp only [cc1__neg_error_kernel_eq_skeleton]; unfold cc1__neg_error_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  obtain rfl := harg3.eq_unread hf0; obtain rfl := harg4.eq_unread hf1; obtain rfl := harg5.eq_unread hf2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    exact read_writes_whole (S := S1024x1) _ _ hz _ _ _
  iexists _; isplitr; swap; · iexact HS
  ipureintro
  sl_unfold_words
  refine (read_writes_whole (S := S1024x1024) _ _ hz _ _ _).trans ?_
  rw [View.readCov_unit_zero (S := S1024x1024) _ hz]
  simp only [View.readAt_eq_ld, harg3.read_unread, harg4.read_unread, View.ld_unit_zero (S := S1024x1024) hz]

set_option maxHeartbeats 1000000 in
/-- k = 0, j > 0: the scratch is cleared and takes the first product; the output block is not touched. -/
theorem run1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : cond1_0 i) (hc1 : ¬cond1_1 i) (hc2 : ¬cond1_2 i)
    (x0 x1 x2 : Vec F S1024x1024 .bf16) (xi : Vec F S1024x1 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k1_pay2 (k1_pay1 (F := F)) x0 x1)) -∗ K ⟨⟩))
      ⊢ wp frame (wpE (defs₀ (F := F)) Variants.none c none) E (cc1__neg_error_kernel i arg3 harg3 arg4 harg4 arg5 harg5 arg6 harg6 arg7 harg7) K := by
  simp only [cc1__neg_error_kernel_eq_skeleton]; unfold cc1__neg_error_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2
  obtain rfl := harg6.eq_unread hf3
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr; swap; · iexact HS
  ipureintro
  sl_unfold_words
  refine (read_writes_whole (S := S1024x1024) _ _ hz _ _ _).trans ?_
  rw [View.readCov_unit_zero (S := S1024x1024) _ hz]
  simp only [View.readAt_eq_ld, harg3.read_unread, harg4.read_unread, View.ld_unit_zero (S := S1024x1024) hz]

set_option maxHeartbeats 1000000 in
/-- k = 1 or 2: the product is added into the scratch; the output block is not touched. -/
theorem run1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : ¬cond1_0 i) (hc1 : ¬cond1_1 i) (hc2 : ¬cond1_2 i)
    (x0 x1 x2 : Vec F S1024x1024 .bf16) (xi : Vec F S1024x1 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k1_pay2 xs x0 x1)) -∗ K ⟨⟩))
      ⊢ wp frame (wpE (defs₀ (F := F)) Variants.none c none) E (cc1__neg_error_kernel i arg3 harg3 arg4 harg4 arg5 harg5 arg6 harg6 arg7 harg7) K := by
  simp only [cc1__neg_error_kernel_eq_skeleton]; unfold cc1__neg_error_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr; swap; · iexact HS
  ipureintro
  refine (read_writes_whole (S := S1024x1024) _ _ hz _ _ _).trans ?_
  simp only [View.readAt_eq_ld, harg3.read_unread, harg4.read_unread, harg7.read_unread, View.ld_unit_zero (S := S1024x1024) hz]

set_option maxHeartbeats 1000000 in
/-- k = 3: the product is added into the scratch, and the masked row sums of its exponential into the output block. -/
theorem run1_D (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : ¬cond1_0 i) (hc1 : ¬cond1_1 i) (hc2 : cond1_2 i)
    (x0 x1 x2 : Vec F S1024x1024 .bf16) (xo : Vec F S1024x1 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k1_pay4 (k1_pay2 xs x0 x1) x2 xo) ∗ owns (c : Thread nD τ) arg7 fullShare (k1_pay2 xs x0 x1)) -∗ K ⟨⟩))
      ⊢ wp frame (wpE (defs₀ (F := F)) Variants.none c none) E (cc1__neg_error_kernel i arg3 harg3 arg4 harg4 arg5 harg5 arg6 harg6 arg7 harg7) K := by
  simp only [cc1__neg_error_kernel_eq_skeleton]; unfold cc1__neg_error_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    sl_unfold_words
    refine (read_writes_whole (S := S1024x1) _ _ hz _ _ _).trans ?_
    rw [View.readCov_unit_zero (S := S1024x1024) _ hz]
    simp only [View.readAt_eq_ld, harg3.read_unread, harg4.read_unread, harg5.read_unread, harg6.read_unread, harg7.read_unread,
      View.ld_unit_zero (S := S1024x1024) hz, View.ld_unit_zero (S := S1024x1) hz]
  iexists _; isplitr; swap; · iexact HS
  ipureintro
  sl_unfold_words
  refine (read_writes_whole (S := S1024x1024) _ _ hz _ _ _).trans ?_
  simp only [View.readAt_eq_ld, harg3.read_unread, harg4.read_unread, harg7.read_unread, View.ld_unit_zero (S := S1024x1024) hz]

end Cert.Kernel.Hand

end
-- ==== Proof.KB.Body1.lean ====
/-
  The body obligation of the second kernel region's pipeline, and the invariant's entry and exit.

  At every grid point t = (i*4 + j)*4 + k the three input windows' staging buffers hold their blocks (the two row
  windows are fetched at every point; the mask window only where k = 0, but its block index does not move with k).
  The output window's buffer holds anything where t % 16 = 0 (the first point, or the point after a write-back)
  and otherwise what the point before left in it, which the contents function carries unchanged through the points
  that do not store into it. The scratch accumulator is handed over by the invariant: at anything where k = 0 (the
  body clears it first), at what the point before left elsewhere. The four ways the body's conditionals fall
  (j = k = 0; k = 0 < j; k = 1 or 2; k = 3) are the four runs of the body; each is applied at the point's memrefs
  and blocks, and what it returns is what the proof data state for the point.
-/
import proofs.«120869_j30030411333999_1_alg».proof.Proof.KB.Run1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The staging memrefs at a point, and where the windows are idle -/

/-- Each window's current staging memref at point `t`, as the pipeline passes it to the body, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle exactly where the body neither clears its block nor adds to it. -/
theorem idleAt1_3 : ∀ t : Fin cfg1.N, cfg1.idle 3 (grid1.coords t) = true ↔ (t.val % 16 ≠ 0 ∧ t.val % 4 ≠ 3) :=
  (by decide +kernel : ∀ t : Fin grid1.N, cfg1.idle 3 (grid1.coords t) = true ↔ (t.val % 16 ≠ 0 ∧ t.val % 4 ≠ 3))
theorem idleAt1_3_of (t : Fin cfg1.N) (h1 : t.val % 16 ≠ 0) (h2 : t.val % 4 ≠ 3) : cfg1.idle 3 (grid1.coords t) = true :=
  (idleAt1_3 t).mpr ⟨h1, h2⟩
theorem liveAt1_3_of (t : Fin cfg1.N) (h : t.val % 16 = 0 ∨ t.val % 4 = 3) : cfg1.idle 3 (grid1.coords t) = false :=
  Bool.eq_false_iff.mpr fun hi => by have := (idleAt1_3 t).mp hi; omega
/-- The output block is not written back at a point that is not the last of its i. -/
theorem noFlush1_3_of (t : Fin cfg1.N) (h : t.val % 16 ≠ 15) : (cfg1.win 3).flush t = false :=
  Bool.eq_false_iff.mpr fun hf => h ((flush1_3 t).mp hf)

/-! ## The contents functions at a point -/

/-- Where k = 0 the accumulator restarts from zero. -/
theorem accAt1_reset (c : Dev nD) (t : Fin cfg1.N) (h : t.val % 4 = 0) :
    accAt1 V c t.val t.isLt = k1_pay2 (k1_pay1 (F := F)) (zi1 V c t) (zj1 V c t) := by
  obtain ⟨n, hn⟩ := t
  cases n with
  | zero => rfl
  | succ n => exact congrArg (fun x => k1_pay2 x (zi1 V c ⟨n + 1, hn⟩) (zj1 V c ⟨n + 1, hn⟩)) (if_pos h)

/-- Elsewhere it adds to what the point before left. -/
theorem accAt1_step (c : Dev nD) (t : Fin cfg1.N) (h : t.val % 4 ≠ 0) :
    accAt1 V c t.val t.isLt = k1_pay2 (accAt1 V c (t.val - 1) (Nat.lt_of_le_of_lt (Nat.sub_le _ _) t.isLt)) (zi1 V c t) (zj1 V c t) := by
  obtain ⟨n, hn⟩ := t
  cases n with
  | zero => exact absurd (Nat.zero_mod _) h
  | succ n => exact congrArg (fun x => k1_pay2 x (zi1 V c ⟨n + 1, hn⟩) (zj1 V c ⟨n + 1, hn⟩)) (if_neg h)

/-- At the first point of each i the output block is zero. -/
theorem outAt1_zero (c : Dev nD) (t : Fin cfg1.N) (h : t.val % 16 = 0) : outAt1 V c t.val t.isLt = k1_pay3 (F := F) := by
  obtain ⟨n, hn⟩ := t
  cases n with
  | zero => rfl
  | succ n => exact if_pos h

/-- Where k = 3 the masked row sums are added to what the point before left. -/
theorem outAt1_add (c : Dev nD) (t : Fin cfg1.N) (h1 : t.val % 16 ≠ 0) (h2 : t.val % 4 = 3) :
    outAt1 V c t.val t.isLt = k1_pay4 (accAt1 V c t.val t.isLt) (mk1 V c t) (outAt1 V c (t.val - 1) (Nat.lt_of_le_of_lt (Nat.sub_le _ _) t.isLt)) := by
  obtain ⟨n, hn⟩ := t
  cases n with
  | zero => exact absurd (Nat.zero_mod _) h1
  | succ n => exact (if_neg h1).trans (if_pos h2)

/-- Elsewhere the block is as the point before left it. -/
theorem outAt1_keep (c : Dev nD) (t : Fin cfg1.N) (h1 : t.val % 16 ≠ 0) (h2 : t.val % 4 ≠ 3) :
    outAt1 V c t.val t.isLt = outAt1 V c (t.val - 1) (Nat.lt_of_le_of_lt (Nat.sub_le _ _) t.isLt) := by
  obtain ⟨n, hn⟩ := t
  cases n with
  | zero => exact absurd (Nat.zero_mod _) h1
  | succ n => exact (if_neg h1).trans (if_neg h2)

/-! ## What the body finds in the staging buffers -/

/-- Each input's current staging buffer holds its block at every point, fetched there or not: unfetched, the block
    index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- What the body left in the output's buffer at a point live for it, as the next point finds it: all of it (the
    window is uncut). -/
theorem kept1_3 (c : Dev nD) (t : Fin cfg1.N) (d) : (dat1 V c).kept 3 t d = outAt1 V c t.val t.isLt := by
  unfold Dat.kept
  rw [Pipeline.fill_of_clip_none 3 _ (fun _ => rfl) d ((dat1 V c).after 3 t), Window.fill_cut, after1_3]

/-- At a point other than the first of an i the output's current staging buffer holds what the contents function
    says of the point before: the buffer is not written back between, and through the points that do not store into
    it both the buffer and the contents function stand still. By induction on the point. -/
theorem before1_3_aux (c : Dev nD) (d) : ∀ (n : ℕ) (hn : n < cfg1.N), (n + 1) % 16 ≠ 0 → ∀ hn' : n + 1 < cfg1.N,
    (dat1 V c).before 3 ⟨n + 1, hn'⟩ d = outAt1 V c n hn := by
  intro n
  induction n with
  | zero =>
    intro hn h16 hn'
    rw [Dat.before_of_pos _ 3 ⟨0 + 1, hn'⟩ (Nat.succ_ne_zero _) ((cfg1.win 3).fetch_out rfl _) d]
    rw [noFlush1_3_of ⟨0 + 1 - 1, _⟩ (by dsimp only; omega), if_neg Bool.false_ne_true]
    unfold Dat.left
    rw [liveAt1_3_of ⟨0 + 1 - 1, _⟩ (Or.inl (by dsimp only))]
    exact kept1_3 V c _ d
  | succ n ih =>
    intro hn h16 hn'
    rw [Dat.before_of_pos _ 3 ⟨n + 1 + 1, hn'⟩ (Nat.succ_ne_zero _) ((cfg1.win 3).fetch_out rfl _) d]
    rw [noFlush1_3_of ⟨n + 1 + 1 - 1, _⟩ (by dsimp only; omega), if_neg Bool.false_ne_true]
    unfold Dat.left
    by_cases hl : (n + 1) % 16 = 0 ∨ (n + 1) % 4 = 3
    · rw [liveAt1_3_of ⟨n + 1 + 1 - 1, _⟩ (by dsimp only; omega)]
      exact kept1_3 V c _ d
    · rw [idleAt1_3_of ⟨n + 1 + 1 - 1, _⟩ (by dsimp only; omega) (by dsimp only; omega)]
      have h := ih (Nat.lt_of_succ_lt hn) (by omega) hn
      exact h.trans (outAt1_keep V c ⟨n + 1, hn⟩ (by dsimp only; omega) (by dsimp only; omega)).symm

theorem before1_3_kept (c : Dev nD) (t : Fin cfg1.N) (h : t.val % 16 ≠ 0) (d) :
    (dat1 V c).before 3 t d = outAt1 V c (t.val - 1) (Nat.lt_of_le_of_lt (Nat.sub_le _ _) t.isLt) := by
  obtain ⟨n, hn⟩ := t
  cases n with
  | zero => exact absurd (Nat.zero_mod _) h
  | succ n => exact before1_3_aux V c d n (Nat.lt_of_succ_lt hn) h hn

/-! ## The invariant with the scratch's contents forgotten -/

/-- Before any position the invariant gives the scratch at some contents, the other scoped buffers and the generator
    register: before the first point that is the class invariant itself; afterwards the named contents are forgotten. -/
theorem PhiS1_forget (c : Dev nD) (n : ℕ) (h : n ≤ cfg1.N) :
    PhiS1 V c n h ⊢ (iprop(iprop((∃ d, owns (c : Thread nD τ) scM1_0 fullShare d) ∗ restScoped1 (F := F) c) ∗ (∃ r, prngReg c r)) : sProp 𝕄) := by
  cases n with
  | zero => exact PhiA1_split c
  | succ n =>
    rw [PhiS1_succ]
    iintro ⟨⟨HS, HR⟩, Hg⟩
    isplitl [HS HR]
    · isplitl [HS]
      · iexists _; iexact HS
      iexact HR
    iexact Hg

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms of the conditions say which of the
    four runs applies. Where t % 16 = 0 the output's buffer is handed over at anything and comes back cleared; where
    k = 0 < j or k is 1 or 2 it is handed over as found and comes back so (the window is idle there); where k = 3 it
    holds what the point before left and comes back with the masked row sums added. The invariant hands over the
    scratch (at anything where k = 0, else at what the point before left) and takes it back at this point's
    contents; the other scoped buffers, the generator register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  have hN : t.val < 64 := lt_of_lt_of_eq t.isLt (show cfg1.N = 64 from N_1)
  by_cases h0 : t.val % 4 = 0
  · by_cases h1 : t.val % 16 = 0
    · -- j = k = 0
      have h2 : ¬t.val % 4 = 3 := by omega
      rw [show (dat1 V c).leavesExact 3 t = owns (c : Thread nD τ) (ms1_3 t) fullShare ((dat1 V c).after 3 t) from by
        unfold Dat.leavesExact; rw [liveAt1_3_of t (Or.inl h1)], after1_3, outAt1_zero V c t h1, accAt1_reset V c t h0]
      iintro ⟨HΦ, Ho, ⟨%d0, H0⟩, ⟨%d1, H1⟩, ⟨%d2, H2⟩, ⟨%d3, H3⟩⟩
      ihave ⟨⟨HS, HR⟩, Hg⟩ := (PhiS1_forget V c t.val (Nat.le_of_lt t.isLt)) $$ HΦ
      iapply (run1_A c (grid1.coords t) (ms1_0 t) (hs1_0 t) (ms1_1 t) (hs1_1 t) (ms1_2 t) (hs1_2 t) (ms1_3 t) (hs1_3 t) scM1_0 (Memref.isWhole_whole _)
        ((hcond1_0 t).mpr h0) ((hcond1_1 t).mpr h1) (fun h => h2 ((hcond1_2 t).mp h)) (iblk1 V c 0 t) (iblk1 V c 1 t) (iblk1 V c 2 t) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- k = 0 < j
      have h2 : ¬t.val % 4 = 3 := by omega
      rw [Dat.leavesExact_idle (dat1 V c) 3 t (idleAt1_3_of t h1 h2) (noFlush1_3_of t (by omega)), accAt1_reset V c t h0]
      iintro ⟨HΦ, Ho, ⟨%d0, H0⟩, ⟨%d1, H1⟩, ⟨%d2, H2⟩, ⟨%d3, H3⟩⟩
      ihave ⟨⟨HS, HR⟩, Hg⟩ := (PhiS1_forget V c t.val (Nat.le_of_lt t.isLt)) $$ HΦ
      iapply (run1_B c (grid1.coords t) (ms1_0 t) (hs1_0 t) (ms1_1 t) (hs1_1 t) (ms1_2 t) (hs1_2 t) (ms1_3 t) (hs1_3 t) scM1_0 (Memref.isWhole_whole _)
        ((hcond1_0 t).mpr h0) (fun h => h1 ((hcond1_1 t).mp h)) (fun h => h2 ((hcond1_2 t).mp h)) (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have h1 : ¬t.val % 16 = 0 := by omega
    rw [PhiS1_pos V c _ _ hz, accAt1_step V c t h0]
    by_cases h2 : t.val % 4 = 3
    · -- k = 3
      rw [show (dat1 V c).leavesExact 3 t = owns (c : Thread nD τ) (ms1_3 t) fullShare ((dat1 V c).after 3 t) from by
        unfold Dat.leavesExact; rw [liveAt1_3_of t (Or.inr h2)], after1_3, outAt1_add V c t h1 h2, accAt1_step V c t h0]
      simp only [before1_3_kept V c t h1]
      iintro ⟨⟨⟨HS, HR⟩, Hg⟩, Ho, ⟨%d0, H0⟩, ⟨%d1, H1⟩, ⟨%d2, H2⟩, ⟨%d3, H3⟩⟩
      iapply (run1_D c (grid1.coords t) (ms1_0 t) (hs1_0 t) (ms1_1 t) (hs1_1 t) (ms1_2 t) (hs1_2 t) (ms1_3 t) (hs1_3 t) scM1_0 (Memref.isWhole_whole _)
        (fun h => h0 ((hcond1_0 t).mp h)) (fun h => h1 ((hcond1_1 t).mp h)) ((hcond1_2 t).mpr h2) (iblk1 V c 0 t) (iblk1 V c 1 t) (iblk1 V c 2 t)
        (outAt1 V c (t.val - 1) (Nat.lt_of_le_of_lt (Nat.sub_le _ _) t.isLt)) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- k = 1 or 2
      rw [Dat.leavesExact_idle (dat1 V c) 3 t (idleAt1_3_of t h1 h2) (noFlush1_3_of t (by omega))]
      iintro ⟨⟨⟨HS, HR⟩, Hg⟩, Ho, ⟨%d0, H0⟩, ⟨%d1, H1⟩, ⟨%d2, H2⟩, ⟨%d3, H3⟩⟩
      iapply (run1_C c (grid1.coords t) (ms1_0 t) (hs1_0 t) (ms1_1 t) (hs1_1 t) (ms1_2 t) (hs1_2 t) (ms1_3 t) (hs1_3 t) scM1_0 (Memref.isWhole_whole _)
        (fun h => h0 ((hcond1_0 t).mp h)) (fun h => h1 ((hcond1_1 t).mp h)) (fun h => h2 ((hcond1_2 t).mp h)) (iblk1 V c 0 t) (iblk1 V c 1 t) (iblk1 V c 2 t)
        ((dat1 V c).before 3 t d3) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's entry and exit -/

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the class invariant back: the scratch's named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl]
  exact (PhiS1_forget V c _ _).trans (PhiA1_join c)

end Cert.Kernel.Hand

end
-- ==== Proof.KB.Frames.lean ====
/-
  The program's run with both kernel regions in place: each region's record at the proof data's body obligation and
  the buffer contents of the chain before and after it, handed to the launch.
-/
import proofs.«120869_j30030411333999_1_alg».proof.Proof.Gen.Kernel.Launch
import proofs.«120869_j30030411333999_1_alg».proof.Proof.Gen.Kernel.Skeleton
import proofs.«120869_j30030411333999_1_alg».proof.Proof.Gen.Kernel.Points
import proofs.«120869_j30030411333999_1_alg».proof.Proof.Gen.Kernel.Regions
import proofs.«120869_j30030411333999_1_alg».proof.Proof.KB.Launch
import proofs.«120869_j30030411333999_1_alg».proof.Proof.KB.Seg0
import proofs.«120869_j30030411333999_1_alg».proof.Proof.KB.Seg1
import proofs.«120869_j30030411333999_1_alg».proof.Proof.KB.Body0
import proofs.«120869_j30030411333999_1_alg».proof.Proof.KB.Body1
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first region leaves every buffer but its result array as it found it, and that one at its result. -/
theorem keep0 (c : Dev nD) (b : DevRef τ sig) (hb : b ≠ Proc.devRef .tc main_v32) : V5 m (outs m) c b = V4 m c b :=
  Function.update_of_ne hb _ _
theorem at0 (c : Dev nD) : V5 m (outs m) c main_v32 = res0 m c := by
  unfold V5; rw [Function.update_self]; exact outs_5 m c
/-- The second region likewise; it is entered from the contents the first region's result made. -/
theorem keep1 (c : Dev nD) (b : DevRef τ sig) (hb : b ≠ Proc.devRef .tc main_v34) : V7 m (outs m) c b = V6 m (outs m) c b :=
  Function.update_of_ne hb _ _
theorem at1 (c : Dev nD) : V7 m (outs m) c main_v34 = res1 m c := by
  unfold V7; rw [Function.update_self]; exact outs_7 m c
theorem in1 (c : Dev nD) (b : Ref sig .tc) : V6 m (outs m) c b = Vin1 m c b :=
  congrFun (V6_outs m c) _

/-- The first region's record, -/
abbrev R0 : RegionSeg (pcfgs (F := F)) adm (pdats m) () defs₀ Variants.none L lv 0 :=
  reg0 m (body_obligation0 (Vin0 m)) (hin0 (Vin0 m)) (hout0 (Vin0 m)) (V4 m) (V5 m (outs m)) (fun _ _ => rfl) (keep0 m) (at0 m)
/-- and the second's. -/
abbrev R1 : RegionSeg (pcfgs (F := F)) adm (pdats m) () defs₀ Variants.none L lv 1 :=
  reg1 m (body_obligation1 (Vin1 m)) (hin1 (Vin1 m)) (hout1 (Vin1 m)) (V6 m (outs m)) (V7 m (outs m)) (in1 m) (keep1 m) (at1 m)

/-- THE RUN: every weakly fair execution terminates, and the final memory holds every unscoped buffer at the chain's
    last contents. -/
theorem run_all :
    θ_run defs (onTc (τ := τ) (main (F := F))) ⟨m, fun _ => 0, ρ⟩ (fun r => ∀ c : Dev nD,
      ∀ b ∈ Pipeline.ucRefs τ sig, r.2.mem ((c : Thread nD τ).1, b) = V12 m (outs m) c b) :=
  run_of_regions m ρ (R0 m) (reg0_pre m _ _ _ _ _ _ _ _) (reg0_post m _ _ _ _ _ _ _ _) (R1 m) (reg1_pre m _ _ _ _ _ _ _ _) (reg1_post m _ _ _ _ _ _ _ _)

/-- THE FRAME: the arguments end as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_regions m ρ (R0 m) (reg0_pre m _ _ _ _ _ _ _ _) (reg0_post m _ _ _ _ _ _ _ _) (R1 m) (reg1_pre m _ _ _ _ _ _ _ _) (reg1_post m _ _ _ _ _ _ _ _)

end Cert.Kernel.Hand

end
-- ==== Proof.KI.Phi0.lean ====
/-
  The scoped buffers the first kernel region's body may use besides its staging buffers: its scratch
  accumulator, named, and the other pipeline's scoped buffers, which ride along untouched.
-/
import proofs.«120869_j30030411333999_1_alg».proof.Proof.Gen.KernelIdeal.Launch
import proofs.«120869_j30030411333999_1_alg».proof.Proof.Gen.KernelIdeal.Skeleton
import proofs.«120869_j30030411333999_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The scratch operand: a whole scoped buffer of the kernel's own. -/
abbrev scM0_0 : Memref sig .tc .vmem S1024x1024 .f32 := Memref.whole cc0_scratch0

/-- The scoped buffers of the core that are neither this pipeline's staging buffers nor its scratch (the other
    pipeline's staging buffers and scratch), each whole at some contents. -/
def restScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the scratch as a memref owned at some contents. -/
theorem PhiA0_eq (c : Dev nD) :
    (Pipeline.ΦA spec0 c : sProp 𝕄)
      = iprop(iprop((∃ d, owns (c : Thread nD τ) scM0_0 fullShare d) ∗ restScoped0 (F := F) c) ∗ (∃ r, prngReg c r)) := by
  unfold Pipeline.ΦA restScoped0; rw [scopedRest0_eq]; simp only [scM0_0, owns_whole]; rfl

/-- The same as two entailments (the form the body obligation and the region's entry and exit use). -/
theorem PhiA0_split (c : Dev nD) :
    (Pipeline.ΦA spec0 c : sProp 𝕄)
      ⊢ iprop(iprop((∃ d, owns (c : Thread nD τ) scM0_0 fullShare d) ∗ restScoped0 (F := F) c) ∗ (∃ r, prngReg c r)) :=
  Entails.of_eq (PhiA0_eq c)
theorem PhiA0_join (c : Dev nD) :
    (iprop(iprop((∃ d, owns (c : Thread nD τ) scM0_0 fullShare d) ∗ restScoped0 (F := F) c) ∗ (∃ r, prngReg c r)) : sProp 𝕄)
      ⊢ Pipeline.ΦA spec0 c :=
  Entails.of_eq (PhiA0_eq c).symm

end Cert.KernelIdeal.Hand

end
-- ==== Proof.KI.Shares.lean ====
/-
  The two halves of the full share of an array: in each kernel region the two row windows read one array, each at
  one half, and the halves make the whole again when the region ends.
-/
import Idealize.ShloMosaic.Lib.Pipeline.Kit

noncomputable section

namespace Cert.KernelIdeal.Hand

open Idealize.ShloMosaic Idealize.SL Idealize.SL.RA

abbrev shL : PosShare TreeShare := fullShare.left
abbrev shR : PosShare TreeShare := fullShare.right

end Cert.KernelIdeal.Hand

end
-- ==== Proof.KI.Defs0.lean ====
/-
  The first kernel region (the similarity reduction over the normalised first input): what its scratch
  accumulator and its output block hold after every grid point, and the proof data of its pipeline.

  The grid is 4 x 4 x 4, the last axis fastest: point t = (i*4 + j)*4 + k. At every point the body adds the
  product of the (i,k) block of the rows and the transposed (j,k) block of the rows into a 1024 x 1024
  scratch, which it clears first when k = 0; when k = 3 it adds to the output block (1024 x 1), which it
  cleared at j = k = 0, the row sums of exp(scratch * c) times the (i,j) block of the pair mask. The output
  block is written back after the last point of each i.
-/
import proofs.«120869_j30030411333999_1_alg».proof.Proof.Gen.KernelIdeal.Launch
import proofs.«120869_j30030411333999_1_alg».proof.Proof.Gen.KernelIdeal.Skeleton
import proofs.«120869_j30030411333999_1_alg».proof.Proof.Gen.KernelIdeal.Points
import proofs.«120869_j30030411333999_1_alg».proof.Proof.KI.Phi0
import proofs.«120869_j30030411333999_1_alg».proof.Proof.KI.Shares
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input blocks at point `t` at their literal types: the (i,k) block of the rows, the (j,k) block of the
    rows, the (i,j) block of the pair mask. -/
abbrev zi0 (c : Dev nD) (t : Fin cfg0.N) : Vec F S1024x1024 .bf16 := iblk0 V c 0 t
abbrev zj0 (c : Dev nD) (t : Fin cfg0.N) : Vec F S1024x1024 .bf16 := iblk0 V c 1 t
abbrev mk0 (c : Dev nD) (t : Fin cfg0.N) : Vec F S1024x1024 .bf16 := iblk0 V c 2 t

/-- The scratch accumulator after the body at point `n`: the partial product over the k-blocks so far, restarted from
    zero where k = 0. -/
def accAt0 (c : Dev nD) : (n : ℕ) → n < cfg0.N → Vec F S1024x1024 .f32
  | 0, h => k0_pay2 (k0_pay1 (F := F)) (zi0 V c ⟨0, h⟩) (zj0 V c ⟨0, h⟩)
  | n + 1, h => k0_pay2 (if (n + 1) % 4 = 0 then k0_pay1 (F := F) else accAt0 c n (Nat.lt_of_succ_lt h)) (zi0 V c ⟨n + 1, h⟩) (zj0 V c ⟨n + 1, h⟩)

/-- The output block's staging contents after the body at point `n`: zero at the first point of each i, the masked
    row sums added where k = 3, carried unchanged elsewhere. -/
def outAt0 (c : Dev nD) : (n : ℕ) → n < cfg0.N → Vec F S1024x1 .f32
  | 0, _ => k0_pay3 (F := F)
  | n + 1, h =>
    if (n + 1) % 16 = 0 then k0_pay3 (F := F)
    else if (n + 1) % 4 = 3 then k0_pay4 (accAt0 V c (n + 1) h) (mk0 V c ⟨n + 1, h⟩) (outAt0 c n (Nat.lt_of_succ_lt h))
    else outAt0 c n (Nat.lt_of_succ_lt h)

/-- The region invariant before position `n`: before the first point the class's (every scoped buffer at anything);
    afterwards the scratch at what the point before left in it, the other scoped buffers at anything, the generator
    register at some state. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn) ∗ restScoped0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (accAt0 V c n hn) ∗ restScoped0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (accAt0 V c (n - 1) (by omega)) ∗ restScoped0 (F := F) c) ∗ (∃ r, prngReg c r)) := by
  cases n with
  | zero => exact absurd rfl hz
  | succ n => rfl

/-- The proof data of the pipeline on core `c`: the arrays as the region finds them; after the body each input's
    buffer at its block, the output's at `outAt0`; the invariant `PhiS0`; nothing owed; the array the first two
    windows share held at one half each, the others whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t.val t.isLt
  Φ t := PhiS0 V c t.val (Nat.le_of_lt_succ t.isLt)
  q w := match w with
    | ⟨0, _⟩ => shL
    | ⟨1, _⟩ => shR
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t.val t.isLt := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

end Cert.KernelIdeal.Hand

end
-- ==== Proof.KI.Phi1.lean ====
/-
  The scoped buffers the second kernel region's body may use besides its staging buffers: its scratch
  accumulator, named, and the other pipeline's scoped buffers, which ride along untouched.
-/
import proofs.«120869_j30030411333999_1_alg».proof.Proof.Gen.KernelIdeal.Launch
import proofs.«120869_j30030411333999_1_alg».proof.Proof.Gen.KernelIdeal.Skeleton
import proofs.«120869_j30030411333999_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The scratch operand: a whole scoped buffer of the kernel's own. -/
abbrev scM1_0 : Memref sig .tc .vmem S1024x1024 .f32 := Memref.whole cc1_scratch0

/-- The scoped buffers of the core that are neither this pipeline's staging buffers nor its scratch (the other
    pipeline's staging buffers and scratch), each whole at some contents. -/
def restScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- The class invariant with the scratch as a memref owned at some contents, as two entailments. -/
theorem PhiA1_split (c : Dev nD) :
    (Pipeline.ΦA spec1 c : sProp 𝕄)
      ⊢ iprop(iprop((∃ d, owns (c : Thread nD τ) scM1_0 fullShare d) ∗ restScoped1 (F := F) c) ∗ (∃ r, prngReg c r)) := by
  unfold Pipeline.ΦA restScoped1; rw [scopedRest1_eq]; simp only [scM1_0, owns_whole]
  iintro ⟨⟨H1, H2, H3, H4, H5, H6, H7, H8, H9, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iexact Hg
theorem PhiA1_join (c : Dev nD) :
    (iprop(iprop((∃ d, owns (c : Thread nD τ) scM1_0 fullShare d) ∗ restScoped1 (F := F) c) ∗ (∃ r, prngReg c r)) : sProp 𝕄)
      ⊢ Pipeline.ΦA spec1 c := by
  unfold Pipeline.ΦA restScoped1; rw [scopedRest1_eq]; simp only [scM1_0, owns_whole]
  iintro ⟨⟨HS, H1, H2, H3, H4, H5, H6, H7, H8, H9⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iexact Hg

end Cert.KernelIdeal.Hand

end
-- ==== Proof.KI.Defs1.lean ====
/-
  The second kernel region (the similarity reduction over the normalised second input): what its scratch
  accumulator and its output block hold after every grid point, and the proof data of its pipeline.

  The grid is 4 x 4 x 4, the last axis fastest: point t = (i*4 + j)*4 + k. At every point the body adds the
  product of the (i,k) block of the rows and the transposed (j,k) block of the rows into a 1024 x 1024
  scratch, which it clears first when k = 0; when k = 3 it adds to the output block (1024 x 1), which it
  cleared at j = k = 0, the row sums of exp(scratch * c) times the (i,j) block of the pair mask. The output
  block is written back after the last point of each i.
-/
import proofs.«120869_j30030411333999_1_alg».proof.Proof.Gen.KernelIdeal.Launch
import proofs.«120869_j30030411333999_1_alg».proof.Proof.Gen.KernelIdeal.Skeleton
import proofs.«120869_j30030411333999_1_alg».proof.Proof.Gen.KernelIdeal.Points
import proofs.«120869_j30030411333999_1_alg».proof.Proof.KI.Phi1
import proofs.«120869_j30030411333999_1_alg».proof.Proof.KI.Shares
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The three input blocks at point `t` at their literal types: the (i,k) block of the rows, the (j,k) block of the
    rows, the (i,j) block of the pair mask. -/
abbrev zi1 (c : Dev nD) (t : Fin cfg1.N) : Vec F S1024x1024 .bf16 := iblk1 V c 0 t
abbrev zj1 (c : Dev nD) (t : Fin cfg1.N) : Vec F S1024x1024 .bf16 := iblk1 V c 1 t
abbrev mk1 (c : Dev nD) (t : Fin cfg1.N) : Vec F S1024x1024 .bf16 := iblk1 V c 2 t

/-- The scratch accumulator after the body at point `n`: the partial product over the k-blocks so far, restarted from
    zero where k = 0. -/
def accAt1 (c : Dev nD) : (n : ℕ) → n < cfg1.N → Vec F S1024x1024 .f32
  | 0, h => k1_pay2 (k1_pay1 (F := F)) (zi1 V c ⟨0, h⟩) (zj1 V c ⟨0, h⟩)
  | n + 1, h => k1_pay2 (if (n + 1) % 4 = 0 then k1_pay1 (F := F) else accAt1 c n (Nat.lt_of_succ_lt h)) (zi1 V c ⟨n + 1, h⟩) (zj1 V c ⟨n + 1, h⟩)

/-- The output block's staging contents after the body at point `n`: zero at the first point of each i, the masked
    row sums added where k = 3, carried unchanged elsewhere. -/
def outAt1 (c : Dev nD) : (n : ℕ) → n < cfg1.N → Vec F S1024x1 .f32
  | 0, _ => k1_pay3 (F := F)
  | n + 1, h =>
    if (n + 1) % 16 = 0 then k1_pay3 (F := F)
    else if (n + 1) % 4 = 3 then k1_pay4 (accAt1 V c (n + 1) h) (mk1 V c ⟨n + 1, h⟩) (outAt1 c n (Nat.lt_of_succ_lt h))
    else outAt1 c n (Nat.lt_of_succ_lt h)

/-- The region invariant before position `n`: before the first point the class's (every scoped buffer at anything);
    afterwards the scratch at what the point before left in it, the other scoped buffers at anything, the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ restScoped1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (accAt1 V c n hn) ∗ restScoped1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (accAt1 V c (n - 1) (by omega)) ∗ restScoped1 (F := F) c) ∗ (∃ r, prngReg c r)) := by
  cases n with
  | zero => exact absurd rfl hz
  | succ n => rfl

/-- The proof data of the pipeline on core `c`: the arrays as the region finds them; after the body each input's
    buffer at its block, the output's at `outAt1`; the invariant `PhiS1`; nothing owed; the array the first two
    windows share held at one half each, the others whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t.val t.isLt
  Φ t := PhiS1 V c t.val (Nat.le_of_lt_succ t.isLt)
  q w := match w with
    | ⟨0, _⟩ => shL
    | ⟨1, _⟩ => shR
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.KernelIdeal.Hand

end
-- ==== Proof.KI.SegDefs.lean ====
/-
  The two kernel regions inside the whole program: what every unscoped buffer of a core holds between the items of
  the program (host operations, first region, host operations, second region, host operations), with the contents
  each region leaves in its result array named — row sums the pipeline's write-backs leave there — and the proof data
  of both pipelines at the contents their regions are entered from.
-/
import proofs.«120869_j30030411333999_1_alg».proof.Proof.Gen.KernelIdeal.Launch
import proofs.«120869_j30030411333999_1_alg».proof.Proof.Gen.KernelIdeal.Skeleton
import proofs.«120869_j30030411333999_1_alg».proof.Proof.Gen.KernelIdeal.Points
import proofs.«120869_j30030411333999_1_alg».proof.Proof.Gen.KernelIdeal.Regions
import proofs.«120869_j30030411333999_1_alg».proof.Proof.KI.Defs0
import proofs.«120869_j30030411333999_1_alg».proof.Proof.KI.Defs1
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ)

/-- What the first region is entered from, read at the TensorCore's references. -/
abbrev Vin0 (c : Dev nD) (b : Ref sig .tc) : Buf (Elt F) ((c : Thread nD τ).loc b) := V4 m c b

/-- What the first region leaves in its result array: the write-backs of its output window folded. -/
def res0 (c : Dev nD) : Buf (Elt F) ((c : Thread nD τ).loc main_v32) := (dat0 (Vin0 m) c).arrAt 3 cfg0.N

/-- The regions' results as far as the first region: its result array at `res0`. -/
def outsA : Outs (F := F) := fun _ r c => Function.update (fun r' : Ref sig .tc => (V4 m c r' : Buf (Elt F) ((c : Thread nD τ).loc r'))) main_v32 (res0 m c) r

/-- What the second region is entered from. -/
abbrev Vin1 (c : Dev nD) (b : Ref sig .tc) : Buf (Elt F) ((c : Thread nD τ).loc b) := V6 m (outsA m) c b

/-- What the second region leaves in its result array. -/
def res1 (c : Dev nD) : Buf (Elt F) ((c : Thread nD τ).loc main_v34) := (dat1 (Vin1 m) c).arrAt 3 cfg1.N

/-- The regions' results: the first region's array at `res0` after item 4, the second's at `res1` after item 6. -/
def outs : Outs (F := F) := fun J r c =>
  if J = 7 then Function.update (fun r' : Ref sig .tc => outsA m J r' c) main_v34 (res1 m c) r else outsA m J r c

theorem outs_5 (c : Dev nD) : outs m 5 main_v32 c = res0 m c := by
  unfold outs; rw [if_neg (by decide)]; unfold outsA; exact Function.update_self ..
theorem outs_7 (c : Dev nD) : outs m 7 main_v34 c = res1 m c := by
  unfold outs; rw [if_pos rfl]; exact Function.update_self ..
theorem outsA_5 (c : Dev nD) : outsA m 5 main_v32 c = res0 m c := by
  unfold outsA; exact Function.update_self ..
/-- Up to the second region the two families agree. -/
theorem V5_outs (c : Dev nD) : V5 m (outs m) c = V5 m (outsA m) c := by
  unfold V5; rw [outs_5, outsA_5]
theorem V6_outs (c : Dev nD) : V6 m (outs m) c = V6 m (outsA m) c := by
  unfold V6; rw [V5_outs]

/-- Both pipelines' proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- No core owes another anything: no level is assigned. -/
abbrev L : GSem nD τ sig → Finset Unit := fun _ => ∅
abbrev lv : GSem nD τ sig → Unit → ℕ := fun _ _ => 0
/-- What rides beside the buffers through every item: the core's generator register at some state and its owing
    nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

end Cert.KernelIdeal.Hand

end
-- ==== Proof.KI.Launch.lean ====
/-
  The whole program's run from its two kernel regions: given each region as an item entered from and left at the
  thread states of the generated conditional frame, every weakly fair execution terminates and the final memory holds
  every unscoped buffer at the last valuation of the chain — in particular the arguments as launched.
-/
import proofs.«120869_j30030411333999_1_alg».proof.Proof.Gen.KernelIdeal.Launch
import proofs.«120869_j30030411333999_1_alg».proof.Proof.Gen.KernelIdeal.Skeleton
import proofs.«120869_j30030411333999_1_alg».proof.Proof.Gen.KernelIdeal.Points
import proofs.«120869_j30030411333999_1_alg».proof.Proof.Gen.KernelIdeal.Regions
import proofs.«120869_j30030411333999_1_alg».proof.Proof.KI.SegDefs
import proofs.«120869_j30030411333999_1_alg».proof.Proof.KI.RunCond
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The launch element: the pipeline library's initial element at every pipeline's staging cells. -/
abbrev u₀ : UR sig nD τ := initOf (Pipeline.cells cfgs cellOf_inj) (Pipeline.launchToks cfgs cellOf_inj)

/-- Owning the launch element is owning the library's through the whole user algebra; no core asks for a ghost
    resource of its own. -/
theorem hu₀ : (ownU u₀ : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core beside its buffers makes the rest state: the generator register at its launch
    state, and the core owing nothing to nobody. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The rest state after the last region still says the core owes nothing. -/
theorem hE2 (c : Dev nD) : E (F := F) 2 c ⊢ (iprop(∃ W, owes (c : Thread nD τ) (0 : CellTallies nD τ sig Unit) W) : sProp 𝕄) := by
  iintro ⟨-, H⟩; iexact H

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem run_of_regions
    (R0 : RegionSeg (pcfgs (F := F)) adm (pdats m) () defs₀ Variants.none L lv 0)
    (hpre0 : ∀ c : Dev nD, iprop(StableHlo.held (c : Thread nD τ) (Pipeline.ucRefs τ sig) (V4 m c) ∗ R (F := F) c) ⊢ R0.pre c)
    (hpost0 : ∀ c : Dev nD, R0.post c ⊢ iprop(StableHlo.held (c : Thread nD τ) (Pipeline.ucRefs τ sig) (V5 m (outs m) c) ∗ R (F := F) c))
    (R1 : RegionSeg (pcfgs (F := F)) adm (pdats m) () defs₀ Variants.none L lv 1)
    (hpre1 : ∀ c : Dev nD, iprop(StableHlo.held (c : Thread nD τ) (Pipeline.ucRefs τ sig) (V6 m (outs m) c) ∗ R (F := F) c) ⊢ R1.pre c)
    (hpost1 : ∀ c : Dev nD, R1.post c ⊢ iprop(StableHlo.held (c : Thread nD τ) (Pipeline.ucRefs τ sig) (V7 m (outs m) c) ∗ R (F := F) c)) :
    θ_run defs (onTc (τ := τ) (main (F := F))) ⟨m, fun _ => 0, ρ⟩ (fun r => ∀ c : Dev nD,
      ∀ b ∈ Pipeline.ucRefs τ sig, r.2.mem ((c : Thread nD τ).1, b) = V12 m (outs m) c b) :=
  run_cond m emb₁ () Variants.none L lv (fun _ _ => rfl) ρ (outs m) (pdats m) 0 (fun _ => iprop(emp)) u₀ hu₀
    E (hE0 ρ) hE2 R0 hpre0 hpost0 R1 hpre1 hpost1

theorem frame_of_regions
    (R0 : RegionSeg (pcfgs (F := F)) adm (pdats m) () defs₀ Variants.none L lv 0)
    (hpre0 : ∀ c : Dev nD, iprop(StableHlo.held (c : Thread nD τ) (Pipeline.ucRefs τ sig) (V4 m c) ∗ R (F := F) c) ⊢ R0.pre c)
    (hpost0 : ∀ c : Dev nD, R0.post c ⊢ iprop(StableHlo.held (c : Thread nD τ) (Pipeline.ucRefs τ sig) (V5 m (outs m) c) ∗ R (F := F) c))
    (R1 : RegionSeg (pcfgs (F := F)) adm (pdats m) () defs₀ Variants.none L lv 1)
    (hpre1 : ∀ c : Dev nD, iprop(StableHlo.held (c : Thread nD τ) (Pipeline.ucRefs τ sig) (V6 m (outs m) c) ∗ R (F := F) c) ⊢ R1.pre c)
    (hpost1 : ∀ c : Dev nD, R1.post c ⊢ iprop(StableHlo.held (c : Thread nD τ) (Pipeline.ucRefs τ sig) (V7 m (outs m) c) ∗ R (F := F) c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  OrdCont.mono (θ_run defs (onTc (τ := τ) (main (F := F))) ⟨m, fun _ => 0, ρ⟩)
    (fun r h c =>
      ⟨(h c _ (mem_uc main_arg0 (by decide))).trans (V12_main_arg0 m (outs m) c),
       (h c _ (mem_uc main_arg1 (by decide))).trans (V12_main_arg1 m (outs m) c),
       (h c _ (mem_uc main_arg2 (by decide))).trans (V12_main_arg2 m (outs m) c)⟩)
    (run_of_regions m ρ R0 hpre0 hpost0 R1 hpre1 hpost1)

end Cert.KernelIdeal.Hand

end
-- ==== Proof.KI.Seg0.lean ====
/-
  The first kernel region as one item of the program: entered with every unscoped buffer of the core held whole, it
  takes its four windows' arrays out of them — the array the two row windows share at one half share each —, runs
  the pipeline, and puts them back with the result array at what the write-backs left.
-/
import proofs.«120869_j30030411333999_1_alg».proof.Proof.Gen.KernelIdeal.Launch
import proofs.«120869_j30030411333999_1_alg».proof.Proof.Gen.KernelIdeal.Skeleton
import proofs.«120869_j30030411333999_1_alg».proof.Proof.Gen.KernelIdeal.Points
import proofs.«120869_j30030411333999_1_alg».proof.Proof.Gen.KernelIdeal.Regions
import proofs.«120869_j30030411333999_1_alg».proof.Proof.KI.SegDefs
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

/-- A conjunct that is two parts, at the head of a chain. -/
theorem sep_split_head {M : Type} [URA M] {A A1 A2 B : sProp M} (h : A ⊣⊢ iprop(A1 ∗ A2)) : iprop(A1 ∗ A2 ∗ B) = iprop(A ∗ B) := by
  have h1 : iprop(A1 ∗ A2 ∗ B) ⊢ iprop(A ∗ B) := by
    iintro ⟨H1, H2, H3⟩
    isplitl [H1 H2]
    · iapply h.2; isplitl [H1] <;> iassumption
    iexact H3
  have h2 : iprop(A ∗ B) ⊢ iprop(A1 ∗ A2 ∗ B) := by
    iintro ⟨H1, H3⟩
    ihave H := h.1 $$ H1
    icases H with ⟨H1, H2⟩
    isplitl [H1]; · iexact H1
    isplitl [H2]; · iexact H2
    iexact H3
  exact BI.Entails.antisymm h1 h2

/-- The distinct buffers behind the four windows' arrays. -/
theorem arrImage0 : (Finset.univ.image (Pipeline.arrRef spec0) : Finset (Ref sig .tc)) = {main_v30, main_v29, main_v32} := by decide

/-- Those buffers held whole, one by one: the rows, the pair mask, the result. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v30) ↦{fullShare} V main_v30) ∗ (((c : Thread nD τ).loc main_v29) ↦{fullShare} V main_v29) ∗ (((c : Thread nD τ).loc main_v32) ↦{fullShare} V main_v32)) := by
  unfold Pipeline.arrBufs
  rw [arrImage0, bigSep_insert (by decide), bigSep_insert (by decide), bigSep_singleton]
  rfl

/-- A core's unscoped buffers: the three distinct buffers behind the windows' arrays and the rest. -/
theorem unscopedBufs0_split (c : Dev nD) (V : (b : Ref sig .tc) → Buf (Elt F) ((c : Thread nD τ).loc b)) :
    (unscopedBufs (Ix := Unit) (Name := ℕ) (U := UR sig nD τ) (Lvl := ℕ) c V : sProp 𝕄)
      = iprop(iprop((((c : Thread nD τ).loc main_v30) ↦{fullShare} V main_v30) ∗ (((c : Thread nD τ).loc main_v29) ↦{fullShare} V main_v29) ∗ (((c : Thread nD τ).loc main_v32) ↦{fullShare} V main_v32))
          ∗ Pipeline.unscopedRest spec0 c V) := by
  rw [← arrBufs0_eq]
  exact Pipeline.unscopedBufs_split₀ (Ix := Unit) (Name := ℕ) (U := UR sig nD τ) (Lvl := ℕ) cfgs 0 winFacts₀0.arr_unscoped c V

section Arrays
variable (V : (c : Dev nD) → (b : Ref sig .tc) → Buf (Elt F) ((c : Thread nD τ).loc b))

theorem share0_0 (c : Dev nD) : (dat0 V c).share 0 = shL := by
  unfold Dat.share; rw [if_neg (by decide)]; rfl
theorem share0_1 (c : Dev nD) : (dat0 V c).share 1 = shR := by
  unfold Dat.share; rw [if_neg (by decide)]; rfl
theorem share0_2 (c : Dev nD) : (dat0 V c).share 2 = fullShare := by
  unfold Dat.share; rw [if_neg (by decide)]; rfl
theorem share0_3 (c : Dev nD) : (dat0 V c).share 3 = fullShare := by
  unfold Dat.share; rw [if_pos (by decide)]

/-- The four windows' arrays one by one: the rows' buffer at its two halves, the pair mask and the result whole. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_v30) ↦{shL} G 0) ∗ (((c : Thread nD τ).loc main_v30) ↦{shR} G 1)
          ∗ (((c : Thread nD τ).loc main_v29) ↦{fullShare} G 2) ∗ (((c : Thread nD τ).loc main_v32) ↦{fullShare} G 3)) := by
  unfold Dat.arrays
  rw [bigSep_W0, share0_0, share0_1, share0_2, share0_3, (arr_whole0 0).set_eq_univ, (arr_whole0 2).set_eq_univ, (arr_whole0 3).set_eq_univ]

/-- The arrays' contents at entry and as the pipeline leaves them, for the input windows: what the region was
    entered from. -/
theorem arr0_0 (c : Dev nD) : ((dat0 V c).arrAt 0 0 : Buf (Elt F) ((c : Thread nD τ).loc main_v30)) = V c main_v30 := rfl
theorem arr0_1 (c : Dev nD) : ((dat0 V c).arrAt 1 0 : Buf (Elt F) ((c : Thread nD τ).loc main_v30)) = V c main_v30 := rfl
theorem arr0_2 (c : Dev nD) : ((dat0 V c).arrAt 2 0 : Buf (Elt F) ((c : Thread nD τ).loc main_v29)) = V c main_v29 := rfl
theorem arr0_3 (c : Dev nD) : ((dat0 V c).arrAt 3 0 : Buf (Elt F) ((c : Thread nD τ).loc main_v32)) = V c main_v32 := rfl
theorem arrN_0 (c : Dev nD) : ((dat0 V c).arrAt 0 cfg0.N : Buf (Elt F) ((c : Thread nD τ).loc main_v30)) = V c main_v30 :=
  ((dat0 V c).arrAt_in 0 rfl _).trans rfl
theorem arrN_1 (c : Dev nD) : ((dat0 V c).arrAt 1 cfg0.N : Buf (Elt F) ((c : Thread nD τ).loc main_v30)) = V c main_v30 :=
  ((dat0 V c).arrAt_in 1 rfl _).trans rfl
theorem arrN_2 (c : Dev nD) : ((dat0 V c).arrAt 2 cfg0.N : Buf (Elt F) ((c : Thread nD τ).loc main_v29)) = V c main_v29 :=
  ((dat0 V c).arrAt_in 2 rfl _).trans rfl

/-- The rows' buffer whole is its two halves: with one contents at both row windows the four arrays are the three
    distinct buffers whole. -/
theorem arrays0_whole (c : Dev nD) (G : (w : Fin cfg0.W) → Buf (Elt F) ((cfg0.win w).arr.view.loc (c : Thread nD τ)))
    (h01 : (G 0 : Buf (Elt F) ((c : Thread nD τ).loc main_v30)) = G 1) :
    ((dat0 V c).arrays G : sProp 𝕄)
      = iprop((((c : Thread nD τ).loc main_v30) ↦{fullShare} G 0) ∗ (((c : Thread nD τ).loc main_v29) ↦{fullShare} G 2)
          ∗ (((c : Thread nD τ).loc main_v32) ↦{fullShare} G 3)) := by
  rw [arrays0_eq, ← h01]
  exact sep_split_head (pointsTo_share (PosShare.mem_left_op_right fullShare))
end Arrays

section Region
variable (m : (ℓ : Loc nD τ sig) → Buf (Elt F) ℓ)
variable (Win Wout : Dev nD → Valuation τ sig (Elt F))
  (hWin : ∀ c (b : Ref sig .tc), Win c b = Vin0 m c b)
  (hkeep : ∀ c (b : DevRef τ sig), b ≠ Proc.devRef .tc main_v32 → Wout c b = Win c b)
  (hres : ∀ c, Wout c main_v32 = res0 m c)

include hWin in
/-- ENTRY, the buffers: every unscoped buffer held whole at the entry contents is the four windows' arrays at the
    proof data's entry contents — the rows' buffer as its two halves — and the unscoped rest. -/
theorem entry0 (c : Dev nD) :
    (StableHlo.held (c : Thread nD τ) (Pipeline.ucRefs τ sig) (Win c) : sProp 𝕄)
      ⊢ iprop((dat0 (Vin0 m) c).arrays ((dat0 (Vin0 m) c).arrAt · 0) ∗ Pipeline.unscopedRest (Ix := Unit) (Name := ℕ) (U := UR sig nD τ) (Lvl := ℕ) spec0 c (Vin0 m c)) := by
  rw [← Pipeline.unscopedBufs_held, show (fun b : Ref sig .tc => Win c b) = Vin0 m c from funext (hWin c),
    unscopedBufs0_split, arrays0_whole (Vin0 m) c (fun w => (dat0 (Vin0 m) c).arrAt w 0) ((arr0_0 (Vin0 m) c).trans (arr0_1 (Vin0 m) c).symm),
    arr0_0, arr0_2, arr0_3]

include hWin hkeep hres in
/-- EXIT, the buffers: the arrays as the pipeline leaves them — the inputs as entered, so the rows' two halves hold
    one contents and make the whole again, the result at what the write-backs left — and the unscoped rest are every
    unscoped buffer held whole at the exit contents. -/
theorem exit0 (c : Dev nD) :
    iprop((dat0 (Vin0 m) c).arrays ((dat0 (Vin0 m) c).arrAt · cfg0.N) ∗ Pipeline.unscopedRest (Ix := Unit) (Name := ℕ) (U := UR sig nD τ) (Lvl := ℕ) spec0 c (Vin0 m c))
      ⊢ (StableHlo.held (c : Thread nD τ) (Pipeline.ucRefs τ sig) (Wout c) : sProp 𝕄) := by
  have e30 : (Wout c main_v30 : Buf (Elt F) ((c : Thread nD τ).loc main_v30)) = Vin0 m c main_v30 :=
    (hkeep c _ (StableHlo.devRef_ne_of_ne (by decide))).trans (hWin c main_v30)
  have e29 : (Wout c main_v29 : Buf (Elt F) ((c : Thread nD τ).loc main_v29)) = Vin0 m c main_v29 :=
    (hkeep c _ (StableHlo.devRef_ne_of_ne (by decide))).trans (hWin c main_v29)
  have e32 : (Wout c main_v32 : Buf (Elt F) ((c : Thread nD τ).loc main_v32)) = (dat0 (Vin0 m) c).arrAt 3 cfg0.N := hres c
  have hrest : (Pipeline.unscopedRest (Ix := Unit) (Name := ℕ) (U := UR sig nD τ) (Lvl := ℕ) spec0 c (fun b => Wout c b) : sProp 𝕄)
      = Pipeline.unscopedRest spec0 c (Vin0 m c) := by
    unfold Pipeline.unscopedRest
    refine bigSep_congr fun b hb => ?_
    dsimp only
    rw [hkeep c _ (StableHlo.devRef_ne_of_ne fun e => (Finset.mem_sdiff.mp hb).2 (by rw [e, arrImage0]; decide)), hWin]
  rw [← Pipeline.unscopedBufs_held, unscopedBufs0_split,
    arrays0_whole (Vin0 m) c (fun w => (dat0 (Vin0 m) c).arrAt w cfg0.N) ((arrN_0 (Vin0 m) c).trans (arrN_1 (Vin0 m) c).symm),
    hrest, e30, e29, e32, arrN_0, arrN_2]
end Region

variable (m : (ℓ : Loc nD τ sig) → Buf (Elt F) ℓ)

/-- THE REGION. -/
def reg0
    -- the body obligation of the pipeline's proof data and its invariant's two ends
    (hb : ∀ c : Dev nD, BodyObligation (dat0 (F := F) (Vin0 m) c) (defs₀ (F := F)) Variants.none () Set.univ)
    (hi : ∀ c : Dev nD, (Pipeline.ΦA spec0 c : sProp 𝕄) ⊢ (dat0 (Vin0 m) c).Φ 0)
    (ho : ∀ c : Dev nD, (dat0 (Vin0 m) c).Φ (Fin.last cfg0.N) ⊢ (Pipeline.ΦA spec0 c : sProp 𝕄))
    -- the contents of the core's unscoped buffers before and after the region
    (Win Wout : Dev nD → Valuation τ sig (Elt F))
    (hWin : ∀ c (b : Ref sig .tc), Win c b = Vin0 m c b)
    (hkeep : ∀ c (b : DevRef τ sig), b ≠ Proc.devRef .tc main_v32 → Wout c b = Win c b)
    (hres : ∀ c, Wout c main_v32 = res0 m c) :
    RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := entry0 m Win hWin c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine (ho c).trans ?_
    rw [Pipeline.ownSems0_none]; unfold Pipeline.ΦA
    iintro ⟨Hr, Hp⟩
    isplitl [Hp]; · iexact Hp
    isplitr; · iempintro
    iexact Hr
  hexit c := by
    have hjoin := exit0 m Win Wout hWin hkeep hres c
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

theorem reg0_pre
    -- the body obligation of the pipeline's proof data and its invariant's two ends
    (hb : ∀ c : Dev nD, BodyObligation (dat0 (F := F) (Vin0 m) c) (defs₀ (F := F)) Variants.none () Set.univ)
    (hi : ∀ c : Dev nD, (Pipeline.ΦA spec0 c : sProp 𝕄) ⊢ (dat0 (Vin0 m) c).Φ 0)
    (ho : ∀ c : Dev nD, (dat0 (Vin0 m) c).Φ (Fin.last cfg0.N) ⊢ (Pipeline.ΦA spec0 c : sProp 𝕄))
    -- the contents of the core's unscoped buffers before and after the region
    (Win Wout : Dev nD → Valuation τ sig (Elt F))
    (hWin : ∀ c (b : Ref sig .tc), Win c b = Vin0 m c b)
    (hkeep : ∀ c (b : DevRef τ sig), b ≠ Proc.devRef .tc main_v32 → Wout c b = Win c b)
    (hres : ∀ c, Wout c main_v32 = res0 m c)
    (c : Dev nD) :
    iprop(StableHlo.held (c : Thread nD τ) (Pipeline.ucRefs τ sig) (Win c) ∗ R (F := F) c) ⊢ (reg0 m hb hi ho Win Wout hWin hkeep hres).pre c := .rfl
theorem reg0_post
    -- the body obligation of the pipeline's proof data and its invariant's two ends
    (hb : ∀ c : Dev nD, BodyObligation (dat0 (F := F) (Vin0 m) c) (defs₀ (F := F)) Variants.none () Set.univ)
    (hi : ∀ c : Dev nD, (Pipeline.ΦA spec0 c : sProp 𝕄) ⊢ (dat0 (Vin0 m) c).Φ 0)
    (ho : ∀ c : Dev nD, (dat0 (Vin0 m) c).Φ (Fin.last cfg0.N) ⊢ (Pipeline.ΦA spec0 c : sProp 𝕄))
    -- the contents of the core's unscoped buffers before and after the region
    (Win Wout : Dev nD → Valuation τ sig (Elt F))
    (hWin : ∀ c (b : Ref sig .tc), Win c b = Vin0 m c b)
    (hkeep : ∀ c (b : DevRef τ sig), b ≠ Proc.devRef .tc main_v32 → Wout c b = Win c b)
    (hres : ∀ c, Wout c main_v32 = res0 m c)
    (c : Dev nD) :
    (reg0 m hb hi ho Win Wout hWin hkeep hres).post c ⊢ iprop(StableHlo.held (c : Thread nD τ) (Pipeline.ucRefs τ sig) (Wout c) ∗ R (F := F) c) := .rfl

end Cert.KernelIdeal.Hand

end
-- ==== Proof.KI.Seg1.lean ====
/-
  The second kernel region as one item of the program: entered with every unscoped buffer of the core held whole, it
  takes its four windows' arrays out of them — the array the two row windows share at one half share each —, runs
  the pipeline, and puts them back with the result array at what the write-backs left.
-/
import proofs.«120869_j30030411333999_1_alg».proof.Proof.Gen.KernelIdeal.Launch
import proofs.«120869_j30030411333999_1_alg».proof.Proof.Gen.KernelIdeal.Skeleton
import proofs.«120869_j30030411333999_1_alg».proof.Proof.Gen.KernelIdeal.Points
import proofs.«120869_j30030411333999_1_alg».proof.Proof.Gen.KernelIdeal.Regions
import proofs.«120869_j30030411333999_1_alg».proof.Proof.KI.SegDefs
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

/-- A conjunct that is two parts, at the head of a chain. -/
theorem sep_split_head_r1 {M : Type} [URA M] {A A1 A2 B : sProp M} (h : A ⊣⊢ iprop(A1 ∗ A2)) : iprop(A1 ∗ A2 ∗ B) = iprop(A ∗ B) := by
  have h1 : iprop(A1 ∗ A2 ∗ B) ⊢ iprop(A ∗ B) := by
    iintro ⟨H1, H2, H3⟩
    isplitl [H1 H2]
    · iapply h.2; isplitl [H1] <;> iassumption
    iexact H3
  have h2 : iprop(A ∗ B) ⊢ iprop(A1 ∗ A2 ∗ B) := by
    iintro ⟨H1, H3⟩
    ihave H := h.1 $$ H1
    icases H with ⟨H1, H2⟩
    isplitl [H1]; · iexact H1
    isplitl [H2]; · iexact H2
    iexact H3
  exact BI.Entails.antisymm h1 h2

/-- The distinct buffers behind the four windows' arrays. -/
theorem arrImage1 : (Finset.univ.image (Pipeline.arrRef spec1) : Finset (Ref sig .tc)) = {main_v31, main_v29, main_v34} := by decide

/-- Those buffers held whole, one by one: the rows, the pair mask, the result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v31) ↦{fullShare} V main_v31) ∗ (((c : Thread nD τ).loc main_v29) ↦{fullShare} V main_v29) ∗ (((c : Thread nD τ).loc main_v34) ↦{fullShare} V main_v34)) := by
  unfold Pipeline.arrBufs
  rw [arrImage1, bigSep_insert (by decide), bigSep_insert (by decide), bigSep_singleton]
  rfl

/-- A core's unscoped buffers: the three distinct buffers behind the windows' arrays and the rest. -/
theorem unscopedBufs1_split (c : Dev nD) (V : (b : Ref sig .tc) → Buf (Elt F) ((c : Thread nD τ).loc b)) :
    (unscopedBufs (Ix := Unit) (Name := ℕ) (U := UR sig nD τ) (Lvl := ℕ) c V : sProp 𝕄)
      = iprop(iprop((((c : Thread nD τ).loc main_v31) ↦{fullShare} V main_v31) ∗ (((c : Thread nD τ).loc main_v29) ↦{fullShare} V main_v29) ∗ (((c : Thread nD τ).loc main_v34) ↦{fullShare} V main_v34))
          ∗ Pipeline.unscopedRest spec1 c V) := by
  rw [← arrBufs1_eq]
  exact Pipeline.unscopedBufs_split₀ (Ix := Unit) (Name := ℕ) (U := UR sig nD τ) (Lvl := ℕ) cfgs 1 winFacts₀1.arr_unscoped c V

section Arrays
variable (V : (c : Dev nD) → (b : Ref sig .tc) → Buf (Elt F) ((c : Thread nD τ).loc b))

theorem share1_0 (c : Dev nD) : (dat1 V c).share 0 = shL := by
  unfold Dat.share; rw [if_neg (by decide)]; rfl
theorem share1_1 (c : Dev nD) : (dat1 V c).share 1 = shR := by
  unfold Dat.share; rw [if_neg (by decide)]; rfl
theorem share1_2 (c : Dev nD) : (dat1 V c).share 2 = fullShare := by
  unfold Dat.share; rw [if_neg (by decide)]; rfl
theorem share1_3 (c : Dev nD) : (dat1 V c).share 3 = fullShare := by
  unfold Dat.share; rw [if_pos (by decide)]

/-- The four windows' arrays one by one: the rows' buffer at its two halves, the pair mask and the result whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v31) ↦{shL} G 0) ∗ (((c : Thread nD τ).loc main_v31) ↦{shR} G 1)
          ∗ (((c : Thread nD τ).loc main_v29) ↦{fullShare} G 2) ∗ (((c : Thread nD τ).loc main_v34) ↦{fullShare} G 3)) := by
  unfold Dat.arrays
  rw [bigSep_W1, share1_0, share1_1, share1_2, share1_3, (arr_whole1 0).set_eq_univ, (arr_whole1 2).set_eq_univ, (arr_whole1 3).set_eq_univ]

/-- The arrays' contents at entry and as the pipeline leaves them, for the input windows: what the region was
    entered from. -/
theorem arr1_0 (c : Dev nD) : ((dat1 V c).arrAt 0 0 : Buf (Elt F) ((c : Thread nD τ).loc main_v31)) = V c main_v31 := rfl
theorem arr1_1 (c : Dev nD) : ((dat1 V c).arrAt 1 0 : Buf (Elt F) ((c : Thread nD τ).loc main_v31)) = V c main_v31 := rfl
theorem arr1_2 (c : Dev nD) : ((dat1 V c).arrAt 2 0 : Buf (Elt F) ((c : Thread nD τ).loc main_v29)) = V c main_v29 := rfl
theorem arr1_3 (c : Dev nD) : ((dat1 V c).arrAt 3 0 : Buf (Elt F) ((c : Thread nD τ).loc main_v34)) = V c main_v34 := rfl
theorem arrN_0_r1 (c : Dev nD) : ((dat1 V c).arrAt 0 cfg1.N : Buf (Elt F) ((c : Thread nD τ).loc main_v31)) = V c main_v31 :=
  ((dat1 V c).arrAt_in 0 rfl _).trans rfl
theorem arrN_1_r1 (c : Dev nD) : ((dat1 V c).arrAt 1 cfg1.N : Buf (Elt F) ((c : Thread nD τ).loc main_v31)) = V c main_v31 :=
  ((dat1 V c).arrAt_in 1 rfl _).trans rfl
theorem arrN_2_r1 (c : Dev nD) : ((dat1 V c).arrAt 2 cfg1.N : Buf (Elt F) ((c : Thread nD τ).loc main_v29)) = V c main_v29 :=
  ((dat1 V c).arrAt_in 2 rfl _).trans rfl

/-- The rows' buffer whole is its two halves: with one contents at both row windows the four arrays are the three
    distinct buffers whole. -/
theorem arrays1_whole (c : Dev nD) (G : (w : Fin cfg1.W) → Buf (Elt F) ((cfg1.win w).arr.view.loc (c : Thread nD τ)))
    (h01 : (G 0 : Buf (Elt F) ((c : Thread nD τ).loc main_v31)) = G 1) :
    ((dat1 V c).arrays G : sProp 𝕄)
      = iprop((((c : Thread nD τ).loc main_v31) ↦{fullShare} G 0) ∗ (((c : Thread nD τ).loc main_v29) ↦{fullShare} G 2)
          ∗ (((c : Thread nD τ).loc main_v34) ↦{fullShare} G 3)) := by
  rw [arrays1_eq, ← h01]
  exact sep_split_head_r1 (pointsTo_share (PosShare.mem_left_op_right fullShare))
end Arrays

section Region
variable (m : (ℓ : Loc nD τ sig) → Buf (Elt F) ℓ)
variable (Win Wout : Dev nD → Valuation τ sig (Elt F))
  (hWin : ∀ c (b : Ref sig .tc), Win c b = Vin1 m c b)
  (hkeep : ∀ c (b : DevRef τ sig), b ≠ Proc.devRef .tc main_v34 → Wout c b = Win c b)
  (hres : ∀ c, Wout c main_v34 = res1 m c)

include hWin in
/-- ENTRY, the buffers: every unscoped buffer held whole at the entry contents is the four windows' arrays at the
    proof data's entry contents — the rows' buffer as its two halves — and the unscoped rest. -/
theorem entry1 (c : Dev nD) :
    (StableHlo.held (c : Thread nD τ) (Pipeline.ucRefs τ sig) (Win c) : sProp 𝕄)
      ⊢ iprop((dat1 (Vin1 m) c).arrays ((dat1 (Vin1 m) c).arrAt · 0) ∗ Pipeline.unscopedRest (Ix := Unit) (Name := ℕ) (U := UR sig nD τ) (Lvl := ℕ) spec1 c (Vin1 m c)) := by
  rw [← Pipeline.unscopedBufs_held, show (fun b : Ref sig .tc => Win c b) = Vin1 m c from funext (hWin c),
    unscopedBufs1_split, arrays1_whole (Vin1 m) c (fun w => (dat1 (Vin1 m) c).arrAt w 0) ((arr1_0 (Vin1 m) c).trans (arr1_1 (Vin1 m) c).symm),
    arr1_0, arr1_2, arr1_3]

include hWin hkeep hres in
/-- EXIT, the buffers: the arrays as the pipeline leaves them — the inputs as entered, so the rows' two halves hold
    one contents and make the whole again, the result at what the write-backs left — and the unscoped rest are every
    unscoped buffer held whole at the exit contents. -/
theorem exit1 (c : Dev nD) :
    iprop((dat1 (Vin1 m) c).arrays ((dat1 (Vin1 m) c).arrAt · cfg1.N) ∗ Pipeline.unscopedRest (Ix := Unit) (Name := ℕ) (U := UR sig nD τ) (Lvl := ℕ) spec1 c (Vin1 m c))
      ⊢ (StableHlo.held (c : Thread nD τ) (Pipeline.ucRefs τ sig) (Wout c) : sProp 𝕄) := by
  have e30 : (Wout c main_v31 : Buf (Elt F) ((c : Thread nD τ).loc main_v31)) = Vin1 m c main_v31 :=
    (hkeep c _ (StableHlo.devRef_ne_of_ne (by decide))).trans (hWin c main_v31)
  have e29 : (Wout c main_v29 : Buf (Elt F) ((c : Thread nD τ).loc main_v29)) = Vin1 m c main_v29 :=
    (hkeep c _ (StableHlo.devRef_ne_of_ne (by decide))).trans (hWin c main_v29)
  have e32 : (Wout c main_v34 : Buf (Elt F) ((c : Thread nD τ).loc main_v34)) = (dat1 (Vin1 m) c).arrAt 3 cfg1.N := hres c
  have hrest : (Pipeline.unscopedRest (Ix := Unit) (Name := ℕ) (U := UR sig nD τ) (Lvl := ℕ) spec1 c (fun b => Wout c b) : sProp 𝕄)
      = Pipeline.unscopedRest spec1 c (Vin1 m c) := by
    unfold Pipeline.unscopedRest
    refine bigSep_congr fun b hb => ?_
    dsimp only
    rw [hkeep c _ (StableHlo.devRef_ne_of_ne fun e => (Finset.mem_sdiff.mp hb).2 (by rw [e, arrImage1]; decide)), hWin]
  rw [← Pipeline.unscopedBufs_held, unscopedBufs1_split,
    arrays1_whole (Vin1 m) c (fun w => (dat1 (Vin1 m) c).arrAt w cfg1.N) ((arrN_0_r1 (Vin1 m) c).trans (arrN_1_r1 (Vin1 m) c).symm),
    hrest, e30, e29, e32, arrN_0_r1, arrN_2_r1]
end Region

variable (m : (ℓ : Loc nD τ sig) → Buf (Elt F) ℓ)

/-- THE REGION. -/
def reg1
    -- the body obligation of the pipeline's proof data and its invariant's two ends
    (hb : ∀ c : Dev nD, BodyObligation (dat1 (F := F) (Vin1 m) c) (defs₀ (F := F)) Variants.none () Set.univ)
    (hi : ∀ c : Dev nD, (Pipeline.ΦA spec1 c : sProp 𝕄) ⊢ (dat1 (Vin1 m) c).Φ 0)
    (ho : ∀ c : Dev nD, (dat1 (Vin1 m) c).Φ (Fin.last cfg1.N) ⊢ (Pipeline.ΦA spec1 c : sProp 𝕄))
    -- the contents of the core's unscoped buffers before and after the region
    (Win Wout : Dev nD → Valuation τ sig (Elt F))
    (hWin : ∀ c (b : Ref sig .tc), Win c b = Vin1 m c b)
    (hkeep : ∀ c (b : DevRef τ sig), b ≠ Proc.devRef .tc main_v34 → Wout c b = Win c b)
    (hres : ∀ c, Wout c main_v34 = res1 m c) :
    RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := entry1 m Win hWin c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine (ho c).trans ?_
    rw [Pipeline.ownSems0_none]; unfold Pipeline.ΦA
    iintro ⟨Hr, Hp⟩
    isplitl [Hp]; · iexact Hp
    isplitr; · iempintro
    iexact Hr
  hexit c := by
    have hjoin := exit1 m Win Wout hWin hkeep hres c
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

theorem reg1_pre
    -- the body obligation of the pipeline's proof data and its invariant's two ends
    (hb : ∀ c : Dev nD, BodyObligation (dat1 (F := F) (Vin1 m) c) (defs₀ (F := F)) Variants.none () Set.univ)
    (hi : ∀ c : Dev nD, (Pipeline.ΦA spec1 c : sProp 𝕄) ⊢ (dat1 (Vin1 m) c).Φ 0)
    (ho : ∀ c : Dev nD, (dat1 (Vin1 m) c).Φ (Fin.last cfg1.N) ⊢ (Pipeline.ΦA spec1 c : sProp 𝕄))
    -- the contents of the core's unscoped buffers before and after the region
    (Win Wout : Dev nD → Valuation τ sig (Elt F))
    (hWin : ∀ c (b : Ref sig .tc), Win c b = Vin1 m c b)
    (hkeep : ∀ c (b : DevRef τ sig), b ≠ Proc.devRef .tc main_v34 → Wout c b = Win c b)
    (hres : ∀ c, Wout c main_v34 = res1 m c)
    (c : Dev nD) :
    iprop(StableHlo.held (c : Thread nD τ) (Pipeline.ucRefs τ sig) (Win c) ∗ R (F := F) c) ⊢ (reg1 m hb hi ho Win Wout hWin hkeep hres).pre c := .rfl
theorem reg1_post
    -- the body obligation of the pipeline's proof data and its invariant's two ends
    (hb : ∀ c : Dev nD, BodyObligation (dat1 (F := F) (Vin1 m) c) (defs₀ (F := F)) Variants.none () Set.univ)
    (hi : ∀ c : Dev nD, (Pipeline.ΦA spec1 c : sProp 𝕄) ⊢ (dat1 (Vin1 m) c).Φ 0)
    (ho : ∀ c : Dev nD, (dat1 (Vin1 m) c).Φ (Fin.last cfg1.N) ⊢ (Pipeline.ΦA spec1 c : sProp 𝕄))
    -- the contents of the core's unscoped buffers before and after the region
    (Win Wout : Dev nD → Valuation τ sig (Elt F))
    (hWin : ∀ c (b : Ref sig .tc), Win c b = Vin1 m c b)
    (hkeep : ∀ c (b : DevRef τ sig), b ≠ Proc.devRef .tc main_v34 → Wout c b = Win c b)
    (hres : ∀ c, Wout c main_v34 = res1 m c)
    (c : Dev nD) :
    (reg1 m hb hi ho Win Wout hWin hkeep hres).post c ⊢ iprop(StableHlo.held (c : Thread nD τ) (Pipeline.ucRefs τ sig) (Wout c) ∗ R (F := F) c) := .rfl

end Cert.KernelIdeal.Hand

end
-- ==== Proof.KI.Run0.lean ====
/-
  The kernel body of the first region, run once for each way its three conditionals can fall at a grid point
  (k = 0 and j = 0; k = 0 and j > 0; k = 1 or 2; k = 3), on whole staging memrefs: each run ends with the
  input blocks untouched, the scratch at the accumulated product and the output block cleared, kept, or
  increased by the masked row sums.
-/
import proofs.«120869_j30030411333999_1_alg».proof.Proof.Gen.KernelIdeal.Launch
import proofs.«120869_j30030411333999_1_alg».proof.Proof.Gen.KernelIdeal.Skeleton
import proofs.«120869_j30030411333999_1_alg».proof.Proof.Gen.KernelIdeal.Points
import proofs.«120869_j30030411333999_1_alg».proof.Proof.KI.Defs0
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The three conditions of the body's conditionals, from the grid coordinates. -/
abbrev cond0_0 (i : grid0.Coords) : Prop := (Scalar.cmpi .ne (Scalar.extui (Scalar.cmpi .eq (BitVec.ofNat 32 (i 2).val) 0#32)) 0#32) = 1#1
abbrev cond0_1 (i : grid0.Coords) : Prop := k0_cond2 i = 1#1
abbrev cond0_2 (i : grid0.Coords) : Prop := k0_cond3 i = 1#1

/-- They hold where k = 0, where j = k = 0, where k = 3 — decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 16 = 0 :=
  (by decide +kernel : ∀ t : Fin grid0.N, cond0_1 (grid0.coords t) ↔ t.val % 16 = 0)
theorem hcond0_2 : ∀ t : Fin cfg0.N, cond0_2 (grid0.coords t) ↔ t.val % 4 = 3 :=
  (by decide +kernel : ∀ t : Fin grid0.N, cond0_2 (grid0.coords t) ↔ t.val % 4 = 3)

/-- A store through the whole-shape rectangle (zero offsets, full sizes), made last, covers every index. -/
private theorem cover_whole {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons.mpr (Or.inl rfl), View.mem_set_unit_zero h inb y⟩

/-- So a buffer whose last store went through the whole-shape rectangle reads as that store's payload, whatever it
    held and whatever was stored before. -/
private theorem read_writes_whole {κ : Kind} {sp : Space} {S : Shape} {e : EltTy} (v : View sig κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (cover_whole h inb w L)).trans (View.canon_cons_unit_zero h inb w L)

/-- The zero offsets of a rank-two rectangle, as the constant function. -/
private theorem hz : (![0, 0] : Fin 2 → Nat) = fun _ => 0 := funext fun a => by fin_cases a <;> rfl

set_option maxHeartbeats 1000000 in
/-- j = k = 0: the scratch is cleared and takes the first product; the output block is cleared. -/
theorem run0_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : cond0_0 i) (hc1 : cond0_1 i) (hc2 : ¬cond0_2 i)
    (x0 x1 x2 : Vec F S1024x1024 .bf16)  (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare (k0_pay3 (F := F)) ∗ owns (c : Thread nD τ) arg7 fullShare (k0_pay2 (k0_pay1 (F := F)) x0 x1)) -∗ K ⟨⟩))
      ⊢ wp frame (wpE (defs₀ (F := F)) Variants.none c none) E (cc0__neg_error_kernel i arg3 harg3 arg4 harg4 arg5 harg5 arg6 harg6 arg7 harg7) K := by
  simp only [cc0__neg_error_kernel_eq_skeleton]; unfold cc0__neg_error_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  obtain rfl := harg3.eq_unread hf0; obtain rfl := harg4.eq_unread hf1; obtain rfl := harg5.eq_unread hf2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    exact read_writes_whole (S := S1024x1) _ _ hz _ _ _
  iexists _; isplitr; swap; · iexact HS
  ipureintro
  sl_unfold_words
  refine (read_writes_whole (S := S1024x1024) _ _ hz _ _ _).trans ?_
  rw [View.readCov_unit_zero (S := S1024x1024) _ hz]
  simp only [View.readAt_eq_ld, harg3.read_unread, harg4.read_unread, View.ld_unit_zero (S := S1024x1024) hz]

set_option maxHeartbeats 1000000 in
/-- k = 0, j > 0: the scratch is cleared and takes the first product; the output block is not touched. -/
theorem run0_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : cond0_0 i) (hc1 : ¬cond0_1 i) (hc2 : ¬cond0_2 i)
    (x0 x1 x2 : Vec F S1024x1024 .bf16) (xi : Vec F S1024x1 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k0_pay2 (k0_pay1 (F := F)) x0 x1)) -∗ K ⟨⟩))
      ⊢ wp frame (wpE (defs₀ (F := F)) Variants.none c none) E (cc0__neg_error_kernel i arg3 harg3 arg4 harg4 arg5 harg5 arg6 harg6 arg7 harg7) K := by
  simp only [cc0__neg_error_kernel_eq_skeleton]; unfold cc0__neg_error_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2
  obtain rfl := harg6.eq_unread hf3
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr; swap; · iexact HS
  ipureintro
  sl_unfold_words
  refine (read_writes_whole (S := S1024x1024) _ _ hz _ _ _).trans ?_
  rw [View.readCov_unit_zero (S := S1024x1024) _ hz]
  simp only [View.readAt_eq_ld, harg3.read_unread, harg4.read_unread, View.ld_unit_zero (S := S1024x1024) hz]

set_option maxHeartbeats 1000000 in
/-- k = 1 or 2: the product is added into the scratch; the output block is not touched. -/
theorem run0_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : ¬cond0_0 i) (hc1 : ¬cond0_1 i) (hc2 : ¬cond0_2 i)
    (x0 x1 x2 : Vec F S1024x1024 .bf16) (xi : Vec F S1024x1 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k0_pay2 xs x0 x1)) -∗ K ⟨⟩))
      ⊢ wp frame (wpE (defs₀ (F := F)) Variants.none c none) E (cc0__neg_error_kernel i arg3 harg3 arg4 harg4 arg5 harg5 arg6 harg6 arg7 harg7) K := by
  simp only [cc0__neg_error_kernel_eq_skeleton]; unfold cc0__neg_error_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr; swap; · iexact HS
  ipureintro
  refine (read_writes_whole (S := S1024x1024) _ _ hz _ _ _).trans ?_
  simp only [View.readAt_eq_ld, harg3.read_unread, harg4.read_unread, harg7.read_unread, View.ld_unit_zero (S := S1024x1024) hz]

set_option maxHeartbeats 1000000 in
/-- k = 3: the product is added into the scratch, and the masked row sums of its exponential into the output block. -/
theorem run0_D (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : ¬cond0_0 i) (hc1 : ¬cond0_1 i) (hc2 : cond0_2 i)
    (x0 x1 x2 : Vec F S1024x1024 .bf16) (xo : Vec F S1024x1 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k0_pay4 (k0_pay2 xs x0 x1) x2 xo) ∗ owns (c : Thread nD τ) arg7 fullShare (k0_pay2 xs x0 x1)) -∗ K ⟨⟩))
      ⊢ wp frame (wpE (defs₀ (F := F)) Variants.none c none) E (cc0__neg_error_kernel i arg3 harg3 arg4 harg4 arg5 harg5 arg6 harg6 arg7 harg7) K := by
  simp only [cc0__neg_error_kernel_eq_skeleton]; unfold cc0__neg_error_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    sl_unfold_words
    refine (read_writes_whole (S := S1024x1) _ _ hz _ _ _).trans ?_
    rw [View.readCov_unit_zero (S := S1024x1024) _ hz]
    simp only [View.readAt_eq_ld, harg3.read_unread, harg4.read_unread, harg5.read_unread, harg6.read_unread, harg7.read_unread,
      View.ld_unit_zero (S := S1024x1024) hz, View.ld_unit_zero (S := S1024x1) hz]
  iexists _; isplitr; swap; · iexact HS
  ipureintro
  sl_unfold_words
  refine (read_writes_whole (S := S1024x1024) _ _ hz _ _ _).trans ?_
  simp only [View.readAt_eq_ld, harg3.read_unread, harg4.read_unread, harg7.read_unread, View.ld_unit_zero (S := S1024x1024) hz]

end Cert.KernelIdeal.Hand

end
-- ==== Proof.KI.Body0.lean ====
/-
  The body obligation of the first kernel region's pipeline, and the invariant's entry and exit.

  At every grid point t = (i*4 + j)*4 + k the three input windows' staging buffers hold their blocks (the two row
  windows are fetched at every point; the mask window only where k = 0, but its block index does not move with k).
  The output window's buffer holds anything where t % 16 = 0 (the first point, or the point after a write-back)
  and otherwise what the point before left in it, which the contents function carries unchanged through the points
  that do not store into it. The scratch accumulator is handed over by the invariant: at anything where k = 0 (the
  body clears it first), at what the point before left elsewhere. The four ways the body's conditionals fall
  (j = k = 0; k = 0 < j; k = 1 or 2; k = 3) are the four runs of the body; each is applied at the point's memrefs
  and blocks, and what it returns is what the proof data state for the point.
-/
import proofs.«120869_j30030411333999_1_alg».proof.Proof.KI.Run0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The staging memrefs at a point, and where the windows are idle -/

/-- Each window's current staging memref at point `t`, as the pipeline passes it to the body, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The output window is idle exactly where the body neither clears its block nor adds to it. -/
theorem idleAt0_3 : ∀ t : Fin cfg0.N, cfg0.idle 3 (grid0.coords t) = true ↔ (t.val % 16 ≠ 0 ∧ t.val % 4 ≠ 3) :=
  (by decide +kernel : ∀ t : Fin grid0.N, cfg0.idle 3 (grid0.coords t) = true ↔ (t.val % 16 ≠ 0 ∧ t.val % 4 ≠ 3))
theorem idleAt0_3_of (t : Fin cfg0.N) (h1 : t.val % 16 ≠ 0) (h2 : t.val % 4 ≠ 3) : cfg0.idle 3 (grid0.coords t) = true :=
  (idleAt0_3 t).mpr ⟨h1, h2⟩
theorem liveAt0_3_of (t : Fin cfg0.N) (h : t.val % 16 = 0 ∨ t.val % 4 = 3) : cfg0.idle 3 (grid0.coords t) = false :=
  Bool.eq_false_iff.mpr fun hi => by have := (idleAt0_3 t).mp hi; omega
/-- The output block is not written back at a point that is not the last of its i. -/
theorem noFlush0_3_of (t : Fin cfg0.N) (h : t.val % 16 ≠ 15) : (cfg0.win 3).flush t = false :=
  Bool.eq_false_iff.mpr fun hf => h ((flush0_3 t).mp hf)

/-! ## The contents functions at a point -/

/-- Where k = 0 the accumulator restarts from zero. -/
theorem accAt0_reset (c : Dev nD) (t : Fin cfg0.N) (h : t.val % 4 = 0) :
    accAt0 V c t.val t.isLt = k0_pay2 (k0_pay1 (F := F)) (zi0 V c t) (zj0 V c t) := by
  obtain ⟨n, hn⟩ := t
  cases n with
  | zero => rfl
  | succ n => exact congrArg (fun x => k0_pay2 x (zi0 V c ⟨n + 1, hn⟩) (zj0 V c ⟨n + 1, hn⟩)) (if_pos h)

/-- Elsewhere it adds to what the point before left. -/
theorem accAt0_step (c : Dev nD) (t : Fin cfg0.N) (h : t.val % 4 ≠ 0) :
    accAt0 V c t.val t.isLt = k0_pay2 (accAt0 V c (t.val - 1) (Nat.lt_of_le_of_lt (Nat.sub_le _ _) t.isLt)) (zi0 V c t) (zj0 V c t) := by
  obtain ⟨n, hn⟩ := t
  cases n with
  | zero => exact absurd (Nat.zero_mod _) h
  | succ n => exact congrArg (fun x => k0_pay2 x (zi0 V c ⟨n + 1, hn⟩) (zj0 V c ⟨n + 1, hn⟩)) (if_neg h)

/-- At the first point of each i the output block is zero. -/
theorem outAt0_zero (c : Dev nD) (t : Fin cfg0.N) (h : t.val % 16 = 0) : outAt0 V c t.val t.isLt = k0_pay3 (F := F) := by
  obtain ⟨n, hn⟩ := t
  cases n with
  | zero => rfl
  | succ n => exact if_pos h

/-- Where k = 3 the masked row sums are added to what the point before left. -/
theorem outAt0_add (c : Dev nD) (t : Fin cfg0.N) (h1 : t.val % 16 ≠ 0) (h2 : t.val % 4 = 3) :
    outAt0 V c t.val t.isLt = k0_pay4 (accAt0 V c t.val t.isLt) (mk0 V c t) (outAt0 V c (t.val - 1) (Nat.lt_of_le_of_lt (Nat.sub_le _ _) t.isLt)) := by
  obtain ⟨n, hn⟩ := t
  cases n with
  | zero => exact absurd (Nat.zero_mod _) h1
  | succ n => exact (if_neg h1).trans (if_pos h2)

/-- Elsewhere the block is as the point before left it. -/
theorem outAt0_keep (c : Dev nD) (t : Fin cfg0.N) (h1 : t.val % 16 ≠ 0) (h2 : t.val % 4 ≠ 3) :
    outAt0 V c t.val t.isLt = outAt0 V c (t.val - 1) (Nat.lt_of_le_of_lt (Nat.sub_le _ _) t.isLt) := by
  obtain ⟨n, hn⟩ := t
  cases n with
  | zero => exact absurd (Nat.zero_mod _) h1
  | succ n => exact (if_neg h1).trans (if_neg h2)

/-! ## What the body finds in the staging buffers -/

/-- Each input's current staging buffer holds its block at every point, fetched there or not: unfetched, the block
    index has not moved. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- What the body left in the output's buffer at a point live for it, as the next point finds it: all of it (the
    window is uncut). -/
theorem kept0_3 (c : Dev nD) (t : Fin cfg0.N) (d) : (dat0 V c).kept 3 t d = outAt0 V c t.val t.isLt := by
  unfold Dat.kept
  rw [Pipeline.fill_of_clip_none 3 _ (fun _ => rfl) d ((dat0 V c).after 3 t), Window.fill_cut, after0_3]

/-- At a point other than the first of an i the output's current staging buffer holds what the contents function
    says of the point before: the buffer is not written back between, and through the points that do not store into
    it both the buffer and the contents function stand still. By induction on the point. -/
theorem before0_3_aux (c : Dev nD) (d) : ∀ (n : ℕ) (hn : n < cfg0.N), (n + 1) % 16 ≠ 0 → ∀ hn' : n + 1 < cfg0.N,
    (dat0 V c).before 3 ⟨n + 1, hn'⟩ d = outAt0 V c n hn := by
  intro n
  induction n with
  | zero =>
    intro hn h16 hn'
    rw [Dat.before_of_pos _ 3 ⟨0 + 1, hn'⟩ (Nat.succ_ne_zero _) ((cfg0.win 3).fetch_out rfl _) d]
    rw [noFlush0_3_of ⟨0 + 1 - 1, _⟩ (by dsimp only; omega), if_neg Bool.false_ne_true]
    unfold Dat.left
    rw [liveAt0_3_of ⟨0 + 1 - 1, _⟩ (Or.inl (by dsimp only))]
    exact kept0_3 V c _ d
  | succ n ih =>
    intro hn h16 hn'
    rw [Dat.before_of_pos _ 3 ⟨n + 1 + 1, hn'⟩ (Nat.succ_ne_zero _) ((cfg0.win 3).fetch_out rfl _) d]
    rw [noFlush0_3_of ⟨n + 1 + 1 - 1, _⟩ (by dsimp only; omega), if_neg Bool.false_ne_true]
    unfold Dat.left
    by_cases hl : (n + 1) % 16 = 0 ∨ (n + 1) % 4 = 3
    · rw [liveAt0_3_of ⟨n + 1 + 1 - 1, _⟩ (by dsimp only; omega)]
      exact kept0_3 V c _ d
    · rw [idleAt0_3_of ⟨n + 1 + 1 - 1, _⟩ (by dsimp only; omega) (by dsimp only; omega)]
      have h := ih (Nat.lt_of_succ_lt hn) (by omega) hn
      exact h.trans (outAt0_keep V c ⟨n + 1, hn⟩ (by dsimp only; omega) (by dsimp only; omega)).symm

theorem before0_3_kept (c : Dev nD) (t : Fin cfg0.N) (h : t.val % 16 ≠ 0) (d) :
    (dat0 V c).before 3 t d = outAt0 V c (t.val - 1) (Nat.lt_of_le_of_lt (Nat.sub_le _ _) t.isLt) := by
  obtain ⟨n, hn⟩ := t
  cases n with
  | zero => exact absurd (Nat.zero_mod _) h
  | succ n => exact before0_3_aux V c d n (Nat.lt_of_succ_lt hn) h hn

/-! ## The invariant with the scratch's contents forgotten -/

/-- Before any position the invariant gives the scratch at some contents, the other scoped buffers and the generator
    register: before the first point that is the class invariant itself; afterwards the named contents are forgotten. -/
theorem PhiS0_forget (c : Dev nD) (n : ℕ) (h : n ≤ cfg0.N) :
    PhiS0 V c n h ⊢ (iprop(iprop((∃ d, owns (c : Thread nD τ) scM0_0 fullShare d) ∗ restScoped0 (F := F) c) ∗ (∃ r, prngReg c r)) : sProp 𝕄) := by
  cases n with
  | zero => exact PhiA0_split c
  | succ n =>
    rw [PhiS0_succ]
    iintro ⟨⟨HS, HR⟩, Hg⟩
    isplitl [HS HR]
    · isplitl [HS]
      · iexists _; iexact HS
      iexact HR
    iexact Hg

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the closed forms of the conditions say which of the
    four runs applies. Where t % 16 = 0 the output's buffer is handed over at anything and comes back cleared; where
    k = 0 < j or k is 1 or 2 it is handed over as found and comes back so (the window is idle there); where k = 3 it
    holds what the point before left and comes back with the masked row sums added. The invariant hands over the
    scratch (at anything where k = 0, else at what the point before left) and takes it back at this point's
    contents; the other scoped buffers, the generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ, PhiS0_castSucc V c t]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  have hN : t.val < 64 := lt_of_lt_of_eq t.isLt (show cfg0.N = 64 from N_0)
  by_cases h0 : t.val % 4 = 0
  · by_cases h1 : t.val % 16 = 0
    · -- j = k = 0
      have h2 : ¬t.val % 4 = 3 := by omega
      rw [show (dat0 V c).leavesExact 3 t = owns (c : Thread nD τ) (ms0_3 t) fullShare ((dat0 V c).after 3 t) from by
        unfold Dat.leavesExact; rw [liveAt0_3_of t (Or.inl h1)], after0_3, outAt0_zero V c t h1, accAt0_reset V c t h0]
      iintro ⟨HΦ, Ho, ⟨%d0, H0⟩, ⟨%d1, H1⟩, ⟨%d2, H2⟩, ⟨%d3, H3⟩⟩
      ihave ⟨⟨HS, HR⟩, Hg⟩ := (PhiS0_forget V c t.val (Nat.le_of_lt t.isLt)) $$ HΦ
      iapply (run0_A c (grid0.coords t) (ms0_0 t) (hs0_0 t) (ms0_1 t) (hs0_1 t) (ms0_2 t) (hs0_2 t) (ms0_3 t) (hs0_3 t) scM0_0 (Memref.isWhole_whole _)
        ((hcond0_0 t).mpr h0) ((hcond0_1 t).mpr h1) (fun h => h2 ((hcond0_2 t).mp h)) (iblk0 V c 0 t) (iblk0 V c 1 t) (iblk0 V c 2 t) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- k = 0 < j
      have h2 : ¬t.val % 4 = 3 := by omega
      rw [Dat.leavesExact_idle (dat0 V c) 3 t (idleAt0_3_of t h1 h2) (noFlush0_3_of t (by omega)), accAt0_reset V c t h0]
      iintro ⟨HΦ, Ho, ⟨%d0, H0⟩, ⟨%d1, H1⟩, ⟨%d2, H2⟩, ⟨%d3, H3⟩⟩
      ihave ⟨⟨HS, HR⟩, Hg⟩ := (PhiS0_forget V c t.val (Nat.le_of_lt t.isLt)) $$ HΦ
      iapply (run0_B c (grid0.coords t) (ms0_0 t) (hs0_0 t) (ms0_1 t) (hs0_1 t) (ms0_2 t) (hs0_2 t) (ms0_3 t) (hs0_3 t) scM0_0 (Memref.isWhole_whole _)
        ((hcond0_0 t).mpr h0) (fun h => h1 ((hcond0_1 t).mp h)) (fun h => h2 ((hcond0_2 t).mp h)) (iblk0 V c 0 t) (iblk0 V c 1 t) (iblk0 V c 2 t) ((dat0 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have h1 : ¬t.val % 16 = 0 := by omega
    rw [PhiS0_pos V c _ _ hz, accAt0_step V c t h0]
    by_cases h2 : t.val % 4 = 3
    · -- k = 3
      rw [show (dat0 V c).leavesExact 3 t = owns (c : Thread nD τ) (ms0_3 t) fullShare ((dat0 V c).after 3 t) from by
        unfold Dat.leavesExact; rw [liveAt0_3_of t (Or.inr h2)], after0_3, outAt0_add V c t h1 h2, accAt0_step V c t h0]
      simp only [before0_3_kept V c t h1]
      iintro ⟨⟨⟨HS, HR⟩, Hg⟩, Ho, ⟨%d0, H0⟩, ⟨%d1, H1⟩, ⟨%d2, H2⟩, ⟨%d3, H3⟩⟩
      iapply (run0_D c (grid0.coords t) (ms0_0 t) (hs0_0 t) (ms0_1 t) (hs0_1 t) (ms0_2 t) (hs0_2 t) (ms0_3 t) (hs0_3 t) scM0_0 (Memref.isWhole_whole _)
        (fun h => h0 ((hcond0_0 t).mp h)) (fun h => h1 ((hcond0_1 t).mp h)) ((hcond0_2 t).mpr h2) (iblk0 V c 0 t) (iblk0 V c 1 t) (iblk0 V c 2 t)
        (outAt0 V c (t.val - 1) (Nat.lt_of_le_of_lt (Nat.sub_le _ _) t.isLt)) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- k = 1 or 2
      rw [Dat.leavesExact_idle (dat0 V c) 3 t (idleAt0_3_of t h1 h2) (noFlush0_3_of t (by omega))]
      iintro ⟨⟨⟨HS, HR⟩, Hg⟩, Ho, ⟨%d0, H0⟩, ⟨%d1, H1⟩, ⟨%d2, H2⟩, ⟨%d3, H3⟩⟩
      iapply (run0_C c (grid0.coords t) (ms0_0 t) (hs0_0 t) (ms0_1 t) (hs0_1 t) (ms0_2 t) (hs0_2 t) (ms0_3 t) (hs0_3 t) scM0_0 (Memref.isWhole_whole _)
        (fun h => h0 ((hcond0_0 t).mp h)) (fun h => h1 ((hcond0_1 t).mp h)) (fun h => h2 ((hcond0_2 t).mp h)) (iblk0 V c 0 t) (iblk0 V c 1 t) (iblk0 V c 2 t)
        ((dat0 V c).before 3 t d3) (accAt0 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant's entry and exit -/

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the invariant gives the class invariant back: the scratch's named contents are forgotten. -/
theorem hout0 (c : Dev nD) : (dat0 V c).Φ (Fin.last cfg0.N) ⊢ (Pipeline.ΦA spec0 c : sProp 𝕄) := by
  rw [show (dat0 V c).Φ (Fin.last cfg0.N) = PhiS0 V c (Fin.last cfg0.N).val (Nat.le_of_lt_succ (Fin.last cfg0.N).isLt) from rfl]
  exact (PhiS0_forget V c _ _).trans (PhiA0_join c)

end Cert.KernelIdeal.Hand

end
-- ==== Proof.KI.Run1.lean ====
/-
  The kernel body of the second region, run once for each way its three conditionals can fall at a grid point
  (k = 0 and j = 0; k = 0 and j > 0; k = 1 or 2; k = 3), on whole staging memrefs: each run ends with the
  input blocks untouched, the scratch at the accumulated product and the output block cleared, kept, or
  increased by the masked row sums.
-/
import proofs.«120869_j30030411333999_1_alg».proof.Proof.Gen.KernelIdeal.Launch
import proofs.«120869_j30030411333999_1_alg».proof.Proof.Gen.KernelIdeal.Skeleton
import proofs.«120869_j30030411333999_1_alg».proof.Proof.Gen.KernelIdeal.Points
import proofs.«120869_j30030411333999_1_alg».proof.Proof.KI.Defs1
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The three conditions of the body's conditionals, from the grid coordinates. -/
abbrev cond1_0 (i : grid1.Coords) : Prop := (Scalar.cmpi .ne (Scalar.extui (Scalar.cmpi .eq (BitVec.ofNat 32 (i 2).val) 0#32)) 0#32) = 1#1
abbrev cond1_1 (i : grid1.Coords) : Prop := k1_cond2 i = 1#1
abbrev cond1_2 (i : grid1.Coords) : Prop := k1_cond3 i = 1#1

/-- They hold where k = 0, where j = k = 0, where k = 3 — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 16 = 0 :=
  (by decide +kernel : ∀ t : Fin grid1.N, cond1_1 (grid1.coords t) ↔ t.val % 16 = 0)
theorem hcond1_2 : ∀ t : Fin cfg1.N, cond1_2 (grid1.coords t) ↔ t.val % 4 = 3 :=
  (by decide +kernel : ∀ t : Fin grid1.N, cond1_2 (grid1.coords t) ↔ t.val % 4 = 3)

/-- A store through the whole-shape rectangle (zero offsets, full sizes), made last, covers every index. -/
private theorem cover_whole {S : Shape} {e : EltTy} {off : Fin S.rank → Nat} (h : off = fun _ => 0)
    (inb : ∀ a, off a + S.size a ≤ S.size a) (w : S.Idx → Elt F e) (L : List (View.Piece (Elt F) S e)) (y : S.Idx) :
    ∃ p ∈ ((⟨Rect.unit off S.size inb, w⟩ : View.Piece (Elt F) S e) :: L), y ∈ p.1.set :=
  ⟨_, List.mem_cons.mpr (Or.inl rfl), View.mem_set_unit_zero h inb y⟩

/-- So a buffer whose last store went through the whole-shape rectangle reads as that store's payload, whatever it
    held and whatever was stored before. -/
private theorem read_writes_whole {κ : Kind} {sp : Space} {S : Shape} {e : EltTy} (v : View sig κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ (cover_whole h inb w L)).trans (View.canon_cons_unit_zero h inb w L)

/-- The zero offsets of a rank-two rectangle, as the constant function. -/
private theorem hz : (![0, 0] : Fin 2 → Nat) = fun _ => 0 := funext fun a => by fin_cases a <;> rfl

set_option maxHeartbeats 1000000 in
/-- j = k = 0: the scratch is cleared and takes the first product; the output block is cleared. -/
theorem run1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : cond1_0 i) (hc1 : cond1_1 i) (hc2 : ¬cond1_2 i)
    (x0 x1 x2 : Vec F S1024x1024 .bf16)  (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare (k1_pay3 (F := F)) ∗ owns (c : Thread nD τ) arg7 fullShare (k1_pay2 (k1_pay1 (F := F)) x0 x1)) -∗ K ⟨⟩))
      ⊢ wp frame (wpE (defs₀ (F := F)) Variants.none c none) E (cc1__neg_error_kernel i arg3 harg3 arg4 harg4 arg5 harg5 arg6 harg6 arg7 harg7) K := by
  simp only [cc1__neg_error_kernel_eq_skeleton]; unfold cc1__neg_error_kernel_skel
  unfold owns
  iintro ⟨⟨%f0, %hf0, H0⟩, ⟨%f1, %hf1, H1⟩, ⟨%f2, %hf2, H2⟩, ⟨%d3, %f3, -, H3⟩, ⟨%ds, %fs, -, HS⟩, Hk⟩
  obtain rfl := harg3.eq_unread hf0; obtain rfl := harg4.eq_unread hf1; obtain rfl := harg5.eq_unread hf2
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    exact read_writes_whole (S := S1024x1) _ _ hz _ _ _
  iexists _; isplitr; swap; · iexact HS
  ipureintro
  sl_unfold_words
  refine (read_writes_whole (S := S1024x1024) _ _ hz _ _ _).trans ?_
  rw [View.readCov_unit_zero (S := S1024x1024) _ hz]
  simp only [View.readAt_eq_ld, harg3.read_unread, harg4.read_unread, View.ld_unit_zero (S := S1024x1024) hz]

set_option maxHeartbeats 1000000 in
/-- k = 0, j > 0: the scratch is cleared and takes the first product; the output block is not touched. -/
theorem run1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : cond1_0 i) (hc1 : ¬cond1_1 i) (hc2 : ¬cond1_2 i)
    (x0 x1 x2 : Vec F S1024x1024 .bf16) (xi : Vec F S1024x1 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k1_pay2 (k1_pay1 (F := F)) x0 x1)) -∗ K ⟨⟩))
      ⊢ wp frame (wpE (defs₀ (F := F)) Variants.none c none) E (cc1__neg_error_kernel i arg3 harg3 arg4 harg4 arg5 harg5 arg6 harg6 arg7 harg7) K := by
  simp only [cc1__neg_error_kernel_eq_skeleton]; unfold cc1__neg_error_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2
  obtain rfl := harg6.eq_unread hf3
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr; swap; · iexact HS
  ipureintro
  sl_unfold_words
  refine (read_writes_whole (S := S1024x1024) _ _ hz _ _ _).trans ?_
  rw [View.readCov_unit_zero (S := S1024x1024) _ hz]
  simp only [View.readAt_eq_ld, harg3.read_unread, harg4.read_unread, View.ld_unit_zero (S := S1024x1024) hz]

set_option maxHeartbeats 1000000 in
/-- k = 1 or 2: the product is added into the scratch; the output block is not touched. -/
theorem run1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : ¬cond1_0 i) (hc1 : ¬cond1_1 i) (hc2 : ¬cond1_2 i)
    (x0 x1 x2 : Vec F S1024x1024 .bf16) (xi : Vec F S1024x1 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare xi ∗ owns (c : Thread nD τ) arg7 fullShare (k1_pay2 xs x0 x1)) -∗ K ⟨⟩))
      ⊢ wp frame (wpE (defs₀ (F := F)) Variants.none c none) E (cc1__neg_error_kernel i arg3 harg3 arg4 harg4 arg5 harg5 arg6 harg6 arg7 harg7) K := by
  simp only [cc1__neg_error_kernel_eq_skeleton]; unfold cc1__neg_error_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  iexists _; isplitr; swap; · iexact HS
  ipureintro
  refine (read_writes_whole (S := S1024x1024) _ _ hz _ _ _).trans ?_
  simp only [View.readAt_eq_ld, harg3.read_unread, harg4.read_unread, harg7.read_unread, View.ld_unit_zero (S := S1024x1024) hz]

set_option maxHeartbeats 1000000 in
/-- k = 3: the product is added into the scratch, and the masked row sums of its exponential into the output block. -/
theorem run1_D (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole)
    (hc0 : ¬cond1_0 i) (hc1 : ¬cond1_1 i) (hc2 : cond1_2 i)
    (x0 x1 x2 : Vec F S1024x1024 .bf16) (xo : Vec F S1024x1 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2 ∗ owns (c : Thread nD τ) arg6 fullShare (k1_pay4 (k1_pay2 xs x0 x1) x2 xo) ∗ owns (c : Thread nD τ) arg7 fullShare (k1_pay2 xs x0 x1)) -∗ K ⟨⟩))
      ⊢ wp frame (wpE (defs₀ (F := F)) Variants.none c none) E (cc1__neg_error_kernel i arg3 harg3 arg4 harg4 arg5 harg5 arg6 harg6 arg7 harg7) K := by
  simp only [cc1__neg_error_kernel_eq_skeleton]; unfold cc1__neg_error_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2
  obtain rfl := harg6.eq_unread hf3; obtain rfl := harg7.eq_unread hfs
  sl_exec (disch := first | exact hc0 | exact hc1 | exact hc2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; swap; · iexact H3
    ipureintro
    sl_unfold_words
    refine (read_writes_whole (S := S1024x1) _ _ hz _ _ _).trans ?_
    rw [View.readCov_unit_zero (S := S1024x1024) _ hz]
    simp only [View.readAt_eq_ld, harg3.read_unread, harg4.read_unread, harg5.read_unread, harg6.read_unread, harg7.read_unread,
      View.ld_unit_zero (S := S1024x1024) hz, View.ld_unit_zero (S := S1024x1) hz]
  iexists _; isplitr; swap; · iexact HS
  ipureintro
  sl_unfold_words
  refine (read_writes_whole (S := S1024x1024) _ _ hz _ _ _).trans ?_
  simp only [View.readAt_eq_ld, harg3.read_unread, harg4.read_unread, harg7.read_unread, View.ld_unit_zero (S := S1024x1024) hz]

end Cert.KernelIdeal.Hand

end
-- ==== Proof.KI.Body1.lean ====
/-
  The body obligation of the second kernel region's pipeline, and the invariant's entry and exit.

  At every grid point t = (i*4 + j)*4 + k the three input windows' staging buffers hold their blocks (the two row
  windows are fetched at every point; the mask window only where k = 0, but its block index does not move with k).
  The output window's buffer holds anything where t % 16 = 0 (the first point, or the point after a write-back)
  and otherwise what the point before left in it, which the contents function carries unchanged through the points
  that do not store into it. The scratch accumulator is handed over by the invariant: at anything where k = 0 (the
  body clears it first), at what the point before left elsewhere. The four ways the body's conditionals fall
  (j = k = 0; k = 0 < j; k = 1 or 2; k = 3) are the four runs of the body; each is applied at the point's memrefs
  and blocks, and what it returns is what the proof data state for the point.
-/
import proofs.«120869_j30030411333999_1_alg».proof.Proof.KI.Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The staging memrefs at a point, and where the windows are idle -/

/-- Each window's current staging memref at point `t`, as the pipeline passes it to the body, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output window is idle exactly where the body neither clears its block nor adds to it. -/
theorem idleAt1_3 : ∀ t : Fin cfg1.N, cfg1.idle 3 (grid1.coords t) = true ↔ (t.val % 16 ≠ 0 ∧ t.val % 4 ≠ 3) :=
  (by decide +kernel : ∀ t : Fin grid1.N, cfg1.idle 3 (grid1.coords t) = true ↔ (t.val % 16 ≠ 0 ∧ t.val % 4 ≠ 3))
theorem idleAt1_3_of (t : Fin cfg1.N) (h1 : t.val % 16 ≠ 0) (h2 : t.val % 4 ≠ 3) : cfg1.idle 3 (grid1.coords t) = true :=
  (idleAt1_3 t).mpr ⟨h1, h2⟩
theorem liveAt1_3_of (t : Fin cfg1.N) (h : t.val % 16 = 0 ∨ t.val % 4 = 3) : cfg1.idle 3 (grid1.coords t) = false :=
  Bool.eq_false_iff.mpr fun hi => by have := (idleAt1_3 t).mp hi; omega
/-- The output block is not written back at a point that is not the last of its i. -/
theorem noFlush1_3_of (t : Fin cfg1.N) (h : t.val % 16 ≠ 15) : (cfg1.win 3).flush t = false :=
  Bool.eq_false_iff.mpr fun hf => h ((flush1_3 t).mp hf)

/-! ## The contents functions at a point -/

/-- Where k = 0 the accumulator restarts from zero. -/
theorem accAt1_reset (c : Dev nD) (t : Fin cfg1.N) (h : t.val % 4 = 0) :
    accAt1 V c t.val t.isLt = k1_pay2 (k1_pay1 (F := F)) (zi1 V c t) (zj1 V c t) := by
  obtain ⟨n, hn⟩ := t
  cases n with
  | zero => rfl
  | succ n => exact congrArg (fun x => k1_pay2 x (zi1 V c ⟨n + 1, hn⟩) (zj1 V c ⟨n + 1, hn⟩)) (if_pos h)

/-- Elsewhere it adds to what the point before left. -/
theorem accAt1_step (c : Dev nD) (t : Fin cfg1.N) (h : t.val % 4 ≠ 0) :
    accAt1 V c t.val t.isLt = k1_pay2 (accAt1 V c (t.val - 1) (Nat.lt_of_le_of_lt (Nat.sub_le _ _) t.isLt)) (zi1 V c t) (zj1 V c t) := by
  obtain ⟨n, hn⟩ := t
  cases n with
  | zero => exact absurd (Nat.zero_mod _) h
  | succ n => exact congrArg (fun x => k1_pay2 x (zi1 V c ⟨n + 1, hn⟩) (zj1 V c ⟨n + 1, hn⟩)) (if_neg h)

/-- At the first point of each i the output block is zero. -/
theorem outAt1_zero (c : Dev nD) (t : Fin cfg1.N) (h : t.val % 16 = 0) : outAt1 V c t.val t.isLt = k1_pay3 (F := F) := by
  obtain ⟨n, hn⟩ := t
  cases n with
  | zero => rfl
  | succ n => exact if_pos h

/-- Where k = 3 the masked row sums are added to what the point before left. -/
theorem outAt1_add (c : Dev nD) (t : Fin cfg1.N) (h1 : t.val % 16 ≠ 0) (h2 : t.val % 4 = 3) :
    outAt1 V c t.val t.isLt = k1_pay4 (accAt1 V c t.val t.isLt) (mk1 V c t) (outAt1 V c (t.val - 1) (Nat.lt_of_le_of_lt (Nat.sub_le _ _) t.isLt)) := by
  obtain ⟨n, hn⟩ := t
  cases n with
  | zero => exact absurd (Nat.zero_mod _) h1
  | succ n => exact (if_neg h1).trans (if_pos h2)

/-- Elsewhere the block is as the point before left it. -/
theorem outAt1_keep (c : Dev nD) (t : Fin cfg1.N) (h1 : t.val % 16 ≠ 0) (h2 : t.val % 4 ≠ 3) :
    outAt1 V c t.val t.isLt = outAt1 V c (t.val - 1) (Nat.lt_of_le_of_lt (Nat.sub_le _ _) t.isLt) := by
  obtain ⟨n, hn⟩ := t
  cases n with
  | zero => exact absurd (Nat.zero_mod _) h1
  | succ n => exact (if_neg h1).trans (if_neg h2)

/-! ## What the body finds in the staging buffers -/

/-- Each input's current staging buffer holds its block at every point, fetched there or not: unfetched, the block
    index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-- What the body left in the output's buffer at a point live for it, as the next point finds it: all of it (the
    window is uncut). -/
theorem kept1_3 (c : Dev nD) (t : Fin cfg1.N) (d) : (dat1 V c).kept 3 t d = outAt1 V c t.val t.isLt := by
  unfold Dat.kept
  rw [Pipeline.fill_of_clip_none 3 _ (fun _ => rfl) d ((dat1 V c).after 3 t), Window.fill_cut, after1_3]

/-- At a point other than the first of an i the output's current staging buffer holds what the contents function
    says of the point before: the buffer is not written back between, and through the points that do not store into
    it both the buffer and the contents function stand still. By induction on the point. -/
theorem before1_3_aux (c : Dev nD) (d) : ∀ (n : ℕ) (hn : n < cfg1.N), (n + 1) % 16 ≠ 0 → ∀ hn' : n + 1 < cfg1.N,
    (dat1 V c).before 3 ⟨n + 1, hn'⟩ d = outAt1 V c n hn := by
  intro n
  induction n with
  | zero =>
    intro hn h16 hn'
    rw [Dat.before_of_pos _ 3 ⟨0 + 1, hn'⟩ (Nat.succ_ne_zero _) ((cfg1.win 3).fetch_out rfl _) d]
    rw [noFlush1_3_of ⟨0 + 1 - 1, _⟩ (by dsimp only; omega), if_neg Bool.false_ne_true]
    unfold Dat.left
    rw [liveAt1_3_of ⟨0 + 1 - 1, _⟩ (Or.inl (by dsimp only))]
    exact kept1_3 V c _ d
  | succ n ih =>
    intro hn h16 hn'
    rw [Dat.before_of_pos _ 3 ⟨n + 1 + 1, hn'⟩ (Nat.succ_ne_zero _) ((cfg1.win 3).fetch_out rfl _) d]
    rw [noFlush1_3_of ⟨n + 1 + 1 - 1, _⟩ (by dsimp only; omega), if_neg Bool.false_ne_true]
    unfold Dat.left
    by_cases hl : (n + 1) % 16 = 0 ∨ (n + 1) % 4 = 3
    · rw [liveAt1_3_of ⟨n + 1 + 1 - 1, _⟩ (by dsimp only; omega)]
      exact kept1_3 V c _ d
    · rw [idleAt1_3_of ⟨n + 1 + 1 - 1, _⟩ (by dsimp only; omega) (by dsimp only; omega)]
      have h := ih (Nat.lt_of_succ_lt hn) (by omega) hn
      exact h.trans (outAt1_keep V c ⟨n + 1, hn⟩ (by dsimp only; omega) (by dsimp only; omega)).symm

theorem before1_3_kept (c : Dev nD) (t : Fin cfg1.N) (h : t.val % 16 ≠ 0) (d) :
    (dat1 V c).before 3 t d = outAt1 V c (t.val - 1) (Nat.lt_of_le_of_lt (Nat.sub_le _ _) t.isLt) := by
  obtain ⟨n, hn⟩ := t
  cases n with
  | zero => exact absurd (Nat.zero_mod _) h
  | succ n => exact before1_3_aux V c d n (Nat.lt_of_succ_lt hn) h hn

/-! ## The invariant with the scratch's contents forgotten -/

/-- Before any position the invariant gives the scratch at some contents, the other scoped buffers and the generator
    register: before the first point that is the class invariant itself; afterwards the named contents are forgotten. -/
theorem PhiS1_forget (c : Dev nD) (n : ℕ) (h : n ≤ cfg1.N) :
    PhiS1 V c n h ⊢ (iprop(iprop((∃ d, owns (c : Thread nD τ) scM1_0 fullShare d) ∗ restScoped1 (F := F) c) ∗ (∃ r, prngReg c r)) : sProp 𝕄) := by
  cases n with
  | zero => exact PhiA1_split c
  | succ n =>
    rw [PhiS1_succ]
    iintro ⟨⟨HS, HR⟩, Hg⟩
    isplitl [HS HR]
    · isplitl [HS]
      · iexists _; iexact HS
      iexact HR
    iexact Hg

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms of the conditions say which of the
    four runs applies. Where t % 16 = 0 the output's buffer is handed over at anything and comes back cleared; where
    k = 0 < j or k is 1 or 2 it is handed over as found and comes back so (the window is idle there); where k = 3 it
    holds what the point before left and comes back with the masked row sums added. The invariant hands over the
    scratch (at anything where k = 0, else at what the point before left) and takes it back at this point's
    contents; the other scoped buffers, the generator register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ, PhiS1_castSucc V c t]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  have hN : t.val < 64 := lt_of_lt_of_eq t.isLt (show cfg1.N = 64 from N_1)
  by_cases h0 : t.val % 4 = 0
  · by_cases h1 : t.val % 16 = 0
    · -- j = k = 0
      have h2 : ¬t.val % 4 = 3 := by omega
      rw [show (dat1 V c).leavesExact 3 t = owns (c : Thread nD τ) (ms1_3 t) fullShare ((dat1 V c).after 3 t) from by
        unfold Dat.leavesExact; rw [liveAt1_3_of t (Or.inl h1)], after1_3, outAt1_zero V c t h1, accAt1_reset V c t h0]
      iintro ⟨HΦ, Ho, ⟨%d0, H0⟩, ⟨%d1, H1⟩, ⟨%d2, H2⟩, ⟨%d3, H3⟩⟩
      ihave ⟨⟨HS, HR⟩, Hg⟩ := (PhiS1_forget V c t.val (Nat.le_of_lt t.isLt)) $$ HΦ
      iapply (run1_A c (grid1.coords t) (ms1_0 t) (hs1_0 t) (ms1_1 t) (hs1_1 t) (ms1_2 t) (hs1_2 t) (ms1_3 t) (hs1_3 t) scM1_0 (Memref.isWhole_whole _)
        ((hcond1_0 t).mpr h0) ((hcond1_1 t).mpr h1) (fun h => h2 ((hcond1_2 t).mp h)) (iblk1 V c 0 t) (iblk1 V c 1 t) (iblk1 V c 2 t) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- k = 0 < j
      have h2 : ¬t.val % 4 = 3 := by omega
      rw [Dat.leavesExact_idle (dat1 V c) 3 t (idleAt1_3_of t h1 h2) (noFlush1_3_of t (by omega)), accAt1_reset V c t h0]
      iintro ⟨HΦ, Ho, ⟨%d0, H0⟩, ⟨%d1, H1⟩, ⟨%d2, H2⟩, ⟨%d3, H3⟩⟩
      ihave ⟨⟨HS, HR⟩, Hg⟩ := (PhiS1_forget V c t.val (Nat.le_of_lt t.isLt)) $$ HΦ
      iapply (run1_B c (grid1.coords t) (ms1_0 t) (hs1_0 t) (ms1_1 t) (hs1_1 t) (ms1_2 t) (hs1_2 t) (ms1_3 t) (hs1_3 t) scM1_0 (Memref.isWhole_whole _)
        ((hcond1_0 t).mpr h0) (fun h => h1 ((hcond1_1 t).mp h)) (fun h => h2 ((hcond1_2 t).mp h)) (iblk1 V c 0 t) (iblk1 V c 1 t) (iblk1 V c 2 t) ((dat1 V c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have h1 : ¬t.val % 16 = 0 := by omega
    rw [PhiS1_pos V c _ _ hz, accAt1_step V c t h0]
    by_cases h2 : t.val % 4 = 3
    · -- k = 3
      rw [show (dat1 V c).leavesExact 3 t = owns (c : Thread nD τ) (ms1_3 t) fullShare ((dat1 V c).after 3 t) from by
        unfold Dat.leavesExact; rw [liveAt1_3_of t (Or.inr h2)], after1_3, outAt1_add V c t h1 h2, accAt1_step V c t h0]
      simp only [before1_3_kept V c t h1]
      iintro ⟨⟨⟨HS, HR⟩, Hg⟩, Ho, ⟨%d0, H0⟩, ⟨%d1, H1⟩, ⟨%d2, H2⟩, ⟨%d3, H3⟩⟩
      iapply (run1_D c (grid1.coords t) (ms1_0 t) (hs1_0 t) (ms1_1 t) (hs1_1 t) (ms1_2 t) (hs1_2 t) (ms1_3 t) (hs1_3 t) scM1_0 (Memref.isWhole_whole _)
        (fun h => h0 ((hcond1_0 t).mp h)) (fun h => h1 ((hcond1_1 t).mp h)) ((hcond1_2 t).mpr h2) (iblk1 V c 0 t) (iblk1 V c 1 t) (iblk1 V c 2 t)
        (outAt1 V c (t.val - 1) (Nat.lt_of_le_of_lt (Nat.sub_le _ _) t.isLt)) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- k = 1 or 2
      rw [Dat.leavesExact_idle (dat1 V c) 3 t (idleAt1_3_of t h1 h2) (noFlush1_3_of t (by omega))]
      iintro ⟨⟨⟨HS, HR⟩, Hg⟩, Ho, ⟨%d0, H0⟩, ⟨%d1, H1⟩, ⟨%d2, H2⟩, ⟨%d3, H3⟩⟩
      iapply (run1_C c (grid1.coords t) (ms1_0 t) (hs1_0 t) (ms1_1 t) (hs1_1 t) (ms1_2 t) (hs1_2 t) (ms1_3 t) (hs1_3 t) scM1_0 (Memref.isWhole_whole _)
        (fun h => h0 ((hcond1_0 t).mp h)) (fun h => h1 ((hcond1_1 t).mp h)) (fun h => h2 ((hcond1_2 t).mp h)) (iblk1 V c 0 t) (iblk1 V c 1 t) (iblk1 V c 2 t)
        ((dat1 V c).before 3 t d3) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's entry and exit -/

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the invariant gives the class invariant back: the scratch's named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl]
  exact (PhiS1_forget V c _ _).trans (PhiA1_join c)

end Cert.KernelIdeal.Hand

end
-- ==== Proof.KI.Frames.lean ====
/-
  The program's run with both kernel regions in place: each region's record at the proof data's body obligation and
  the buffer contents of the chain before and after it, handed to the launch.
-/
import proofs.«120869_j30030411333999_1_alg».proof.Proof.Gen.KernelIdeal.Launch
import proofs.«120869_j30030411333999_1_alg».proof.Proof.Gen.KernelIdeal.Skeleton
import proofs.«120869_j30030411333999_1_alg».proof.Proof.Gen.KernelIdeal.Points
import proofs.«120869_j30030411333999_1_alg».proof.Proof.Gen.KernelIdeal.Regions
import proofs.«120869_j30030411333999_1_alg».proof.Proof.KI.Launch
import proofs.«120869_j30030411333999_1_alg».proof.Proof.KI.Seg0
import proofs.«120869_j30030411333999_1_alg».proof.Proof.KI.Seg1
import proofs.«120869_j30030411333999_1_alg».proof.Proof.KI.Body0
import proofs.«120869_j30030411333999_1_alg».proof.Proof.KI.Body1
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first region leaves every buffer but its result array as it found it, and that one at its result. -/
theorem keep0 (c : Dev nD) (b : DevRef τ sig) (hb : b ≠ Proc.devRef .tc main_v32) : V5 m (outs m) c b = V4 m c b :=
  Function.update_of_ne hb _ _
theorem at0 (c : Dev nD) : V5 m (outs m) c main_v32 = res0 m c := by
  unfold V5; rw [Function.update_self]; exact outs_5 m c
/-- The second region likewise; it is entered from the contents the first region's result made. -/
theorem keep1 (c : Dev nD) (b : DevRef τ sig) (hb : b ≠ Proc.devRef .tc main_v34) : V7 m (outs m) c b = V6 m (outs m) c b :=
  Function.update_of_ne hb _ _
theorem at1 (c : Dev nD) : V7 m (outs m) c main_v34 = res1 m c := by
  unfold V7; rw [Function.update_self]; exact outs_7 m c
theorem in1 (c : Dev nD) (b : Ref sig .tc) : V6 m (outs m) c b = Vin1 m c b :=
  congrFun (V6_outs m c) _

/-- The first region's record, -/
abbrev R0 : RegionSeg (pcfgs (F := F)) adm (pdats m) () defs₀ Variants.none L lv 0 :=
  reg0 m (body_obligation0 (Vin0 m)) (hin0 (Vin0 m)) (hout0 (Vin0 m)) (V4 m) (V5 m (outs m)) (fun _ _ => rfl) (keep0 m) (at0 m)
/-- and the second's. -/
abbrev R1 : RegionSeg (pcfgs (F := F)) adm (pdats m) () defs₀ Variants.none L lv 1 :=
  reg1 m (body_obligation1 (Vin1 m)) (hin1 (Vin1 m)) (hout1 (Vin1 m)) (V6 m (outs m)) (V7 m (outs m)) (in1 m) (keep1 m) (at1 m)

/-- THE RUN: every weakly fair execution terminates, and the final memory holds every unscoped buffer at the chain's
    last contents. -/
theorem run_all :
    θ_run defs (onTc (τ := τ) (main (F := F))) ⟨m, fun _ => 0, ρ⟩ (fun r => ∀ c : Dev nD,
      ∀ b ∈ Pipeline.ucRefs τ sig, r.2.mem ((c : Thread nD τ).1, b) = V12 m (outs m) c b) :=
  run_of_regions m ρ (R0 m) (reg0_pre m _ _ _ _ _ _ _ _) (reg0_post m _ _ _ _ _ _ _ _) (R1 m) (reg1_pre m _ _ _ _ _ _ _ _) (reg1_post m _ _ _ _ _ _ _ _)

/-- THE FRAME: the arguments end as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_regions m ρ (R0 m) (reg0_pre m _ _ _ _ _ _ _ _) (reg0_post m _ _ _ _ _ _ _ _) (R1 m) (reg1_pre m _ _ _ _ _ _ _ _) (reg1_post m _ _ _ _ _ _ _ _)

end Cert.KernelIdeal.Hand

end
-- ==== Proof.KI.HostK.lean ====
/-
  The host operations of the kernel's program around its two regions, read as functions of the arguments.

  Before the first region the program normalises the rows of the two float inputs, takes the positive-pair term from
  their row-wise dot products, and builds the pair mask and its count from the labels — operation for operation what
  the reference program computes, so each of these buffers holds the reference's stage function of the same argument —
  and then rounds the normalised rows and the mask to the narrow float format for the kernel. After the regions it sums
  each region's result column, divides by the count where the count is positive, and adds the three terms.
-/
import proofs.«120869_j30030411333999_1_alg».proof.Proof.Gen.KernelIdeal.Launch
import proofs.«120869_j30030411333999_1_alg».proof.Proof.Gen.KernelIdeal.Skeleton
import proofs.«120869_j30030411333999_1_alg».proof.Proof.Gen.KernelIdeal.Points
import proofs.«120869_j30030411333999_1_alg».proof.Proof.Gen.KernelIdeal.Regions
import proofs.«120869_j30030411333999_1_alg».proof.Proof.KI.SegDefs
import proofs.«120869_j30030411333999_1_alg».proof.Proof.RefRead
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

open Idealize.ShloMosaic.StableHlo

variable (m : (ℓ : Loc nD τ sig) → Buf (Elt F) ℓ) (c : Dev nD)

set_option maxHeartbeats 1000000

/-- The normalised rows of the first input. -/
theorem hk_v2 : V4 m c main_v2 = Cert.ReferenceIdeal.ReadP.val_main_v2 (F := F) (m ((c : Thread nD τ).loc main_arg0)) := by
  dsimp only [V4, V3, V2, V1, V0, hostOps0_3, hostOps0_2, hostOps0_1, hostOps0]
  after_results_simp
  try simp only [TRef.ofBuf, TRef.toBuf, cast_eq]
  try rfl

/-- The normalised rows of the second input. -/
theorem hk_v5 : V4 m c main_v5 = Cert.ReferenceIdeal.ReadP.val_main_v5 (F := F) (m ((c : Thread nD τ).loc main_arg1)) := by
  dsimp only [V4, V3, V2, V1, V0, hostOps0_3, hostOps0_2, hostOps0_1, hostOps0]
  after_results_simp
  try simp only [TRef.ofBuf, TRef.toBuf, cast_eq]
  try rfl

/-- The positive-pair term. -/
theorem hk_v14 : V4 m c main_v14 = Cert.ReferenceIdeal.ReadP.val_main_v14 (F := F) (m ((c : Thread nD τ).loc main_arg0)) (m ((c : Thread nD τ).loc main_arg1)) := by
  dsimp only [V4, V3, V2, V1, V0, hostOps0_3, hostOps0_2, hostOps0_1, hostOps0]
  after_results_simp
  try simp only [TRef.ofBuf, TRef.toBuf, cast_eq]
  try rfl

/-- The pair mask. -/
theorem hk_v26 : V4 m c main_v26 = Cert.ReferenceIdeal.ReadP.val_main_v26 (F := F) (m ((c : Thread nD τ).loc main_arg2)) := by
  dsimp only [V4, V3, V2, V1, V0, hostOps0_3, hostOps0_2, hostOps0_1, hostOps0]
  after_results_simp
  try simp only [TRef.ofBuf, TRef.toBuf, cast_eq]
  try rfl

/-- The number of masked pairs. -/
theorem hk_v28 : V4 m c main_v28 = Cert.ReferenceIdeal.ReadP.val_main_v28 (F := F) (m ((c : Thread nD τ).loc main_arg2)) := by
  dsimp only [V4, V3, V2, V1, V0, hostOps0_3, hostOps0_2, hostOps0_1, hostOps0]
  after_results_simp
  try simp only [TRef.ofBuf, TRef.toBuf, cast_eq]
  try rfl

/-- The rows the first region reads: the normalised rows of the first input in the narrow format. -/
theorem hk_v30 : V4 m c main_v30 = truncf .bf16 (Cert.ReferenceIdeal.ReadP.val_main_v2 (F := F) (m ((c : Thread nD τ).loc main_arg0))) bitsLt_bf16_f32 := by
  dsimp only [V4, V3, V2, V1, V0, hostOps0_3, hostOps0_2, hostOps0_1, hostOps0]
  after_results_simp
  try simp only [TRef.ofBuf, TRef.toBuf, cast_eq]
  try rfl

/-- The rows the second region reads. -/
theorem hk_v31 : V4 m c main_v31 = truncf .bf16 (Cert.ReferenceIdeal.ReadP.val_main_v5 (F := F) (m ((c : Thread nD τ).loc main_arg1))) bitsLt_bf16_f32 := by
  dsimp only [V4, V3, V2, V1, V0, hostOps0_3, hostOps0_2, hostOps0_1, hostOps0]
  after_results_simp
  try simp only [TRef.ofBuf, TRef.toBuf, cast_eq]
  try rfl

/-- The mask both regions read: the pair mask as floats of the narrow format. -/
theorem hk_v29 : V4 m c main_v29 = uitofp .bf16 (Cert.ReferenceIdeal.ReadP.val_main_v26 (F := F) (m ((c : Thread nD τ).loc main_arg2))) := by
  dsimp only [V4, V3, V2, V1, V0, hostOps0_3, hostOps0_2, hostOps0_1, hostOps0]
  after_results_simp
  try simp only [TRef.ofBuf, TRef.toBuf, cast_eq]
  try rfl

/-- After the second region its result array holds what the region left. -/
theorem V7_v34 : V7 m (outs m) c main_v34 = res1 m c := by
  unfold V7; rw [Function.update_self]; exact outs_7 m c
/-- The first region's result array after the region. -/
theorem V5_v32 : V5 m (outs m) c main_v32 = res0 m c := by
  unfold V5; rw [Function.update_self]; exact outs_5 m c
/-- The sum of the first region's result column, taken between the regions. -/
theorem V7_v33 : V7 m (outs m) c main_v33 = (Host.reduceAdd (res0 m c) (constant S_ .f32 0x00000000#32) reducesTo_S4096x1_S_d0_1 h_S_) := by
  rw [V7_of m (outs m) c main_v33 (by decide)]
  dsimp only [V6, hostOps1]
  after_results_simp
  rw [V5_v32]
/-- The count and the positive-pair term pass the regions unchanged. -/
theorem V7_v28 : V7 m (outs m) c main_v28 = V4 m c main_v28 :=
  (V7_of m (outs m) c main_v28 (by decide)).trans ((V6_of m (outs m) c main_v28 (by decide)).trans (V5_of m (outs m) c main_v28 (by decide)))
theorem V7_v14 : V7 m (outs m) c main_v14 = V4 m c main_v14 :=
  (V7_of m (outs m) c main_v14 (by decide)).trans ((V6_of m (outs m) c main_v14 (by decide)).trans (V5_of m (outs m) c main_v14 (by decide)))

/-- The closing host operations over any contents `W` of the buffers before them: the positive-pair term plus the two
    regions' column sums, each divided by the count where the count is positive and replaced by zero otherwise. -/
theorem tail_of (W : Valuation τ sig (Elt F)) :
    StableHlo.after hostOps2_4 (StableHlo.after hostOps2_3 (StableHlo.after hostOps2_2 (StableHlo.after hostOps2_1 (StableHlo.after hostOps2 W)))) (Proc.devRef .tc main_v46)
      = addf (W (Proc.devRef .tc main_v14)) (mulf (constant S_ .f32 0x3F800000#32) (addf (select (cmpi .sgt (W (Proc.devRef .tc main_v28)) (constantI S_ 32 0#32)) (Host.divf (W (Proc.devRef .tc main_v33)) (sitofp .f32 (maxsi (W (Proc.devRef .tc main_v28)) (constantI S_ 32 1#32)))) (id (constant S_ .f32 0x00000000#32))) (select (cmpi .sgt (W (Proc.devRef .tc main_v28)) (constantI S_ 32 0#32)) (Host.divf (Host.reduceAdd (W (Proc.devRef .tc main_v34)) (constant S_ .f32 0x00000000#32) reducesTo_S4096x1_S_d0_1 h_S_) (sitofp .f32 (maxsi (W (Proc.devRef .tc main_v28)) (constantI S_ 32 1#32)))) (id (constant S_ .f32 0x00000000#32))))) := by
  dsimp only [hostOps2_4, hostOps2_3, hostOps2_2, hostOps2_1, hostOps2]
  after_results_simp
  try simp only [TRef.ofBuf, TRef.toBuf, cast_eq]

/-- THE RESULT of the kernel's program from what its regions leave. -/
theorem hk_v46 : V12 m (outs m) c main_v46 = addf (V4 m c main_v14) (mulf (constant S_ .f32 0x3F800000#32) (addf (select (cmpi .sgt (V4 m c main_v28) (constantI S_ 32 0#32)) (Host.divf (Host.reduceAdd (res0 m c) (constant S_ .f32 0x00000000#32) reducesTo_S4096x1_S_d0_1 h_S_) (sitofp .f32 (maxsi (V4 m c main_v28) (constantI S_ 32 1#32)))) (id (constant S_ .f32 0x00000000#32))) (select (cmpi .sgt (V4 m c main_v28) (constantI S_ 32 0#32)) (Host.divf (Host.reduceAdd (res1 m c) (constant S_ .f32 0x00000000#32) reducesTo_S4096x1_S_d0_1 h_S_) (sitofp .f32 (maxsi (V4 m c main_v28) (constantI S_ 32 1#32)))) (id (constant S_ .f32 0x00000000#32))))) := by
  show StableHlo.after hostOps2_4 (StableHlo.after hostOps2_3 (StableHlo.after hostOps2_2 (StableHlo.after hostOps2_1 (StableHlo.after hostOps2 (V7 m (outs m) c))))) (Proc.devRef .tc main_v46) = _
  rw [tail_of]
  have e34 : V7 m (outs m) c (Proc.devRef .tc main_v34) = res1 m c := V7_v34 m c
  have e33 : V7 m (outs m) c (Proc.devRef .tc main_v33) = (Host.reduceAdd (res0 m c) (constant S_ .f32 0x00000000#32) reducesTo_S4096x1_S_d0_1 h_S_) := V7_v33 m c
  have e28 : V7 m (outs m) c (Proc.devRef .tc main_v28) = V4 m c main_v28 := V7_v28 m c
  have e14 : V7 m (outs m) c (Proc.devRef .tc main_v14) = V4 m c main_v14 := V7_v14 m c
  rw [e34, e33, e28, e14]

end Cert.KernelIdeal.Hand

end
-- ==== Proof.Spec.lean ====
/-
  What both programs compute for one normalised input, stated once over the extended reals.

  For a 4096 x 4096 array z of rows and a 4096 x 4096 pair mask mk, the kernel region produces, for every row r,
  the sum over the other rows s of exp((z_r . z_s) * c) * mk(r, s), with the dot product taken over four blocks of
  1024 columns and the rows s visited in four blocks of 1024 (`rowNeg`); the reference takes the same sum over all
  pairs (r, s) at once, the dot product over all 4096 columns, and divides by d where the kernel multiplies by c
  (`negAll`). Addition and multiplication on the extended reals are commutative and associative, so regrouping
  the sums changes nothing; and dividing by a nonzero real d is multiplying by 1/d on every extended real.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Spec

open Idealize.ShloMosaic Idealize.ShloMosaic.ValueIdx

/-- The 4096 x 4096 index set and the 4096 x 1 one. -/
abbrev Sq : Shape := ⟨2, ![4096, 4096]⟩
abbrev Col : Shape := ⟨2, ![4096, 1]⟩

/-- Position `p` of block `a` on an axis of 4096 cut into four blocks of 1024. -/
def bi (a : Fin 4) (p : Fin 1024) : Fin 4096 := ⟨a.val * 1024 + p.val, by omega⟩

/-- The dot product of rows `r` and `s`, the columns taken block by block. -/
def simBlk (z : Sq.Idx → EReal) (r s : Fin 4096) : EReal :=
  ∑ kb : Fin 4, ∑ p : Fin 1024, z (ix2 r (bi kb p)) * z (ix2 s (bi kb p))

/-- What the kernel region leaves at row `r`: the masked exponentials of the scaled dot products, the other rows
    taken block by block. -/
def rowNeg (cc : EReal) (z mk : Sq.Idx → EReal) (r : Fin 4096) : EReal :=
  ∑ jb : Fin 4, ∑ q : Fin 1024, Ideal.exp (simBlk z r (bi jb q) * cc) * mk (ix2 r (bi jb q))

/-- The dot product of rows `r` and `s` over all columns at once. -/
def simAll (z : Sq.Idx → EReal) (r s : Fin 4096) : EReal := ∑ p : Fin 4096, z (ix2 r p) * z (ix2 s p)

/-- The reference's sum over all pairs of rows, the dot products divided by `d`. -/
def negAll (d : EReal) (z mk : Sq.Idx → EReal) : EReal :=
  ∑ r : Fin 4096, ∑ s : Fin 4096, Ideal.exp (Ideal.div (simAll z r s) d) * mk (ix2 r s)

/-- The reciprocal of the reference's divisor, the f32 word 0x3DCCCCCD = 13421773/134217728. -/
abbrev cInv : EReal := ((134217728 / 13421773 : ℝ) : EReal)
abbrev dTau : EReal := ((13421773 / 134217728 : ℝ) : EReal)

/-- Four blocks of 1024 positions are the 4096 positions: position `p` of block `a` is `1024 a + p`, and the pairs
    `(a, p)` run through the 4096 positions once each, so a sum over the blocks and then over each block's positions
    is the sum over all positions (in any commutative additive monoid). -/
theorem sum_blocks {M : Type*} [AddCommMonoid M] (f : Fin 4096 → M) :
    (∑ a : Fin 4, ∑ p : Fin 1024, f (bi a p)) = ∑ s : Fin 4096, f s := by
  rw [← Equiv.sum_comp (finProdFinEquiv (m := 4) (n := 1024)) f, Fintype.sum_prod_type]
  refine Finset.sum_congr rfl fun a _ => Finset.sum_congr rfl fun p _ => congrArg f (Fin.ext ?_)
  simp [finProdFinEquiv, bi, Nat.add_comm, Nat.mul_comm]

/-- The dot product taken block by block is the dot product over all columns. -/
theorem simBlk_eq_simAll (z : Sq.Idx → EReal) (r s : Fin 4096) : simBlk z r s = simAll z r s :=
  sum_blocks fun p => z (ix2 r p) * z (ix2 s p)

/-- Dividing by the nonzero real `d = 13421773/134217728` is multiplying by its reciprocal `134217728/13421773`,
    on every extended real. -/
theorem div_dTau (x : EReal) : Ideal.div x dTau = x * cInv := by
  have h : (13421773 / 134217728 : ℝ) ≠ 0 := by norm_num
  rw [Ideal.div_coe h x]
  congr 2
  norm_num

/-- THE LAW. Summed over the rows, the kernel's blocked form is the reference's flat form. -/
theorem sum_rowNeg_eq_negAll (z mk : Sq.Idx → EReal) :
    (∑ r : Fin 4096, rowNeg cInv z mk r) = negAll dTau z mk := by
  unfold negAll rowNeg
  refine Finset.sum_congr rfl fun r _ => ?_
  rw [← sum_blocks fun s => Ideal.exp (Ideal.div (simAll z r s) dTau) * mk (ix2 r s)]
  refine Finset.sum_congr rfl fun jb _ => Finset.sum_congr rfl fun q _ => ?_
  rw [simBlk_eq_simAll, div_dTau]

end Cert.Spec

end
-- ==== Proof.KI.Value0.lean ====
/-
  The value the first kernel region leaves in its result array, at the ideal instance: row `r` of the 4096 x 1
  result is the sum over all rows `s` of exp((z_r . z_s) * c) * mask(r, s), the dot product and the rows `s`
  taken in blocks of 1024 (`Cert.Spec.rowNeg`), where z is the array both row windows read and c the value the
  certificate's table gives the kernel's scale constant.

  The road: the body's four stored values read at an index (the cleared scratch and output block are zero; the product
  step adds to the scratch at (a, b) the dot product of row a of the first row block with row b of the second; the
  row-sum step adds to the output block at row a the sum over the columns q of exp(scratch(a, q) * c) * mask(a, q));
  the three input blocks at point (i, j, k) as blocks (i, k), (j, k) of the row array and (i, j) of the mask; by
  induction on the point, the scratch after point (i, j, k) is the dot products over the column blocks 0..k and the
  output block the masked exponential sums over the row blocks completed so far; the last point of each i therefore
  writes back rows 1024 i .. 1024 i + 1023 of the whole result, and these four blocks cover the result array.
-/
import proofs.«120869_j30030411333999_1_alg».proof.Proof.Gen.KernelIdeal.Launch
import proofs.«120869_j30030411333999_1_alg».proof.Proof.Gen.KernelIdeal.Skeleton
import proofs.«120869_j30030411333999_1_alg».proof.Proof.Gen.KernelIdeal.Points
import proofs.«120869_j30030411333999_1_alg».proof.Proof.KI.Defs0
import proofs.«120869_j30030411333999_1_alg».proof.Proof.Spec
import Idealize.ShloMosaic.Lib.Pipeline.Value
import Idealize.ShloMosaic.Lib.ValueIdx
import Idealize.ShloMosaic.PureOps.Ideal.Laws
import Idealize.ShloMosaic.PureOps.IdealRules
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## The body's four values read at an index, at the ideal instance -/

/-- The product's left operand index: its row is the result's row, -/
theorem lhsRow0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- its column the contraction position; -/
theorem lhsCol0 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- the right operand's row is the result's column, -/
theorem rhsRow0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- its column the contraction position. -/
theorem rhsCol0 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into the zero accumulator at (a, b): the dot product of row a of the left block and row b of the
    right block. -/
theorem mmApply0 (x y : FVec Ideal S1024x1024 .bf16) (a b : Fin 1024) :
    matmul (F := Ideal) dot_S1024x1024_S1024x1024_S1024x1024_1_1_0_0_n_n none x y (constant S1024x1024 .f32 0x00000000#32) (ix2 a b)
      = ∑ p : Fin 1024, x (ix2 a p) * y (ix2 b p) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 a b) ((contrEquiv1 dot_S1024x1024_S1024x1024_S1024x1024_1_1_0_0_n_n 1024 rfl rfl).symm k) = ix2 a k := funext fun d => Fin.ext (by
    match d with
    | ⟨0, _⟩ => exact lhsRow0 _ _
    | ⟨1, _⟩ => exact (lhsCol0 _ _).trans hk)
  have er : dot_S1024x1024_S1024x1024_S1024x1024_1_1_0_0_n_n.rhsIdx (ix2 a b) ((contrEquiv1 dot_S1024x1024_S1024x1024_S1024x1024_1_1_0_0_n_n 1024 rfl rfl).symm k) = ix2 b k := funext fun d => Fin.ext (by
    match d with
    | ⟨0, _⟩ => exact rhsRow0 _ _
    | ⟨1, _⟩ => exact (rhsCol0 _ _).trans hk)
  rw [el, er]

/-- The cleared scratch is zero everywhere. -/
theorem pay1Apply0 (i : S1024x1024.Idx) : k0_pay1 (F := Ideal) i = 0 := by
  unfold k0_pay1
  rw [shapeCast_self]
  exact Ideal.ofBits_zero_f32

/-- The cleared output block is zero everywhere. -/
theorem pay3Apply0 (i : S1024x1.Idx) : k0_pay3 (F := Ideal) i = 0 := by
  unfold k0_pay3
  exact Ideal.ofBits_zero_f32

/-- The scratch after the product step at (a, b): what it held plus the dot product of row a of the first block and row b
    of the second. -/
theorem pay2Apply0 (v3 : Vec Ideal S1024x1024 .f32) (v4 v6 : Vec Ideal S1024x1024 .bf16) (a b : Fin 1024) :
    k0_pay2 (F := Ideal) v3 v4 v6 (ix2 a b) = v3 (ix2 a b) + ∑ p : Fin 1024, v4 (ix2 a p) * v6 (ix2 b p) := by
  unfold k0_pay2
  rw [shapeCast_self, shapeCast_self, shapeCast_self]
  exact congrArg (v3 (ix2 a b) + ·) (mmApply0 v4 v6 a b)

/-- The scale constant is the table's value. -/
theorem namedInvTau0 : Named.named (F := Ideal) κ "inv_tau" (φ := .f32) 0x41200000#32 = Cert.Spec.cInv :=
  IdealRules.named_const.ideal_named_scalar _ _ _ _ rfl

/-- The lane sum of a block, made a column, at row a: the sum of row a. -/
theorem rowsumApply0 (x : FVec Ideal S1024x1024 .f32) (a : Fin 1024) :
    shapeCast S1024x1 (multiReduction (F := Ideal) .add [1] S1024 x 0x00000000#32 reduces_S1024x1024_S1024 (.inl rfl) rfl) shapeCasts_S1024_S1024x1 (ix2 a (0 : Fin 1))
      = ∑ q : Fin 1024, x (ix2 a q) := by
  refine (shapeCast_apply _ _ (ix2 a (0 : Fin 1)) (ix1 a) (by
    rw [Shape.rowMajor_val_one, Shape.rowMajor_val_two]; show a.val = a.val * 1 + 0; omega)).trans ?_
  refine (Ideal.multiReduction_add_single x _ reduces_S1024x1024_S1024 _ _ (ix1 a)).trans ?_
  show ∑ q : Fin 1024, x (reduces_S1024x1024_S1024.lift (ix1 a) q) = _
  refine Finset.sum_congr rfl fun q _ => congrArg x ?_
  funext d
  apply Fin.ext
  match d with
  | ⟨0, _⟩ => rfl
  | ⟨1, _⟩ => rfl

/-- The output block after the row-sum step at row a: what it held plus the sum over the columns q of
    exp(scratch(a, q) * c) * mask(a, q). -/
theorem pay4Apply0 (v21 : Vec Ideal S1024x1024 .f32) (v25 : Vec Ideal S1024x1024 .bf16) (v29 : Vec Ideal S1024x1 .f32) (a : Fin 1024) :
    k0_pay4 (F := Ideal) v21 v25 v29 (ix2 a (0 : Fin 1))
      = v29 (ix2 a (0 : Fin 1)) + ∑ q : Fin 1024, Ideal.exp (v21 (ix2 a q) * Cert.Spec.cInv) * v25 (ix2 a q) := by
  unfold k0_pay4
  rw [shapeCast_self, shapeCast_self]
  refine congrArg (v29 (ix2 a (0 : Fin 1)) + ·) ?_
  refine (rowsumApply0 _ a).trans ?_
  refine Finset.sum_congr rfl fun q _ => ?_
  show Ideal.exp (v21 (ix2 a q) * Named.named (F := Ideal) κ "inv_tau" (φ := .f32) 0x41200000#32) * v25 (ix2 a q) = _
  rw [namedInvTau0]

/-! ## The blocks read at an index -/

/-- Position p of block n (counted mod 4) on an axis of 4096 cut into four blocks of 1024. -/
def bn0 (n : ℕ) (p : Fin 1024) : Fin 4096 :=
  ⟨n % 4 * 1024 + p.val, by have := Nat.mod_lt n (by decide : 0 < 4); have := p.isLt; omega⟩

theorem bnVal0 (a : Fin 4) (p : Fin 1024) : bn0 a.val p = Cert.Spec.bi a p :=
  Fin.ext (by show a.val % 4 * 1024 + p.val = a.val * 1024 + p.val; have := a.isLt; omega)

/-- The windows' block indices at point t = (i*4 + j)*4 + k: (i, k), (j, k), (i, j), (i, 0). -/
theorem idxFacts0 : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4
    ∧ win0_3.index t (0 : Fin 2) = t.val / 16 ∧ win0_3.index t (1 : Fin 2) = 0 :=
  (by decide +kernel : ∀ t : Fin grid0.N, _)

variable (V : (c : Dev nD) → (b : Ref sig .tc) → Buf (Elt Ideal) ((c : Thread nD τ).loc b))

/-- The row array and the mask array as the region finds them, at their literal type. -/
abbrev zarr0 (c : Dev nD) : Vec Ideal S4096x4096 .bf16 := V c main_v30
abbrev marr0 (c : Dev nD) : Vec Ideal S4096x4096 .bf16 := V c main_v29

/-- The first row block at point t is block (i, k) of the row array. -/
theorem ziApply0 (c : Dev nD) (n : ℕ) (h : n < cfg0.N) (a p : Fin 1024) :
    zi0 V c ⟨n, h⟩ (ix2 a p) = zarr0 V c (ix2 (bn0 (n / 16) a) (bn0 (n % 4) p)) := by
  generalize ht' : (⟨n, h⟩ : Fin cfg0.N) = t
  obtain rfl : n = t.val := congrArg Fin.val ht'
  obtain ⟨ea, eb, -⟩ := idxFacts0 t
  have hN : cfg0.N = 64 := N_0
  have ht := t.isLt
  show V c main_v30 (((cfg0.win 0).blk t).view.emb (ix2 a p)) = V c main_v30 _
  refine congrArg (V c main_v30) ?_
  funext d
  apply Fin.ext
  match d with
  | ⟨0, _⟩ => show win0_0.index t (0 : Fin 2) * 1024 + 1 * a.val = t.val / 16 % 4 * 1024 + a.val; rw [ea]; omega
  | ⟨1, _⟩ => show win0_0.index t (1 : Fin 2) * 1024 + 1 * p.val = t.val % 4 % 4 * 1024 + p.val; rw [eb]; omega

/-- The second row block at point t is block (j, k) of the row array. -/
theorem zjApply0 (c : Dev nD) (n : ℕ) (h : n < cfg0.N) (b p : Fin 1024) :
    zj0 V c ⟨n, h⟩ (ix2 b p) = zarr0 V c (ix2 (bn0 (n / 4 % 4) b) (bn0 (n % 4) p)) := by
  generalize ht' : (⟨n, h⟩ : Fin cfg0.N) = t
  obtain rfl : n = t.val := congrArg Fin.val ht'
  obtain ⟨-, -, ea, eb, -⟩ := idxFacts0 t
  show V c main_v30 (((cfg0.win 1).blk t).view.emb (ix2 b p)) = V c main_v30 _
  refine congrArg (V c main_v30) ?_
  funext d
  apply Fin.ext
  match d with
  | ⟨0, _⟩ => show win0_1.index t (0 : Fin 2) * 1024 + 1 * b.val = t.val / 4 % 4 % 4 * 1024 + b.val; rw [ea]; omega
  | ⟨1, _⟩ => show win0_1.index t (1 : Fin 2) * 1024 + 1 * p.val = t.val % 4 % 4 * 1024 + p.val; rw [eb]; omega

/-- The mask block at point t is block (i, j) of the mask array. -/
theorem mkApply0 (c : Dev nD) (n : ℕ) (h : n < cfg0.N) (a q : Fin 1024) :
    mk0 V c ⟨n, h⟩ (ix2 a q) = marr0 V c (ix2 (bn0 (n / 16) a) (bn0 (n / 4 % 4) q)) := by
  generalize ht' : (⟨n, h⟩ : Fin cfg0.N) = t
  obtain rfl : n = t.val := congrArg Fin.val ht'
  obtain ⟨-, -, -, -, ea, eb, -⟩ := idxFacts0 t
  have hN : cfg0.N = 64 := N_0
  have ht := t.isLt
  show V c main_v29 (((cfg0.win 2).blk t).view.emb (ix2 a q)) = V c main_v29 _
  refine congrArg (V c main_v29) ?_
  funext d
  apply Fin.ext
  match d with
  | ⟨0, _⟩ => show win0_2.index t (0 : Fin 2) * 1024 + 1 * a.val = t.val / 16 % 4 * 1024 + a.val; rw [ea]; omega
  | ⟨1, _⟩ => show win0_2.index t (1 : Fin 2) * 1024 + 1 * q.val = t.val / 4 % 4 % 4 * 1024 + q.val; rw [eb]; omega

/-! ## The scratch and the output block after every point, in closed form -/

/-- The dot product of row a of row block i with row b of row block j over column block s. -/
def dotBlk0 (z : Cert.Spec.Sq.Idx → EReal) (i j s : ℕ) (a b : Fin 1024) : EReal :=
  ∑ p : Fin 1024, z (ix2 (bn0 i a) (bn0 s p)) * z (ix2 (bn0 j b) (bn0 s p))

/-- The masked exponentials of the scaled dot products of row a of row block i with the rows of row block jb, summed. -/
def expBlk0 (z mk : Cert.Spec.Sq.Idx → EReal) (i jb : ℕ) (a : Fin 1024) : EReal :=
  ∑ q : Fin 1024, Ideal.exp ((∑ s ∈ Finset.range 4, dotBlk0 z i jb s a q) * Cert.Spec.cInv) * mk (ix2 (bn0 i a) (bn0 jb q))

/-- One step of the scratch at an index: cleared first where k = 0, then the point's block product added. -/
theorem accStep0 (c : Dev nD) (n : ℕ) (h : n + 1 < cfg0.N) (a b : Fin 1024) :
    accAt0 V c (n + 1) h (ix2 a b)
      = (if (n + 1) % 4 = 0 then 0 else accAt0 V c n (Nat.lt_of_succ_lt h) (ix2 a b))
        + dotBlk0 (zarr0 V c) ((n + 1) / 16) ((n + 1) / 4 % 4) ((n + 1) % 4) a b := by
  refine (pay2Apply0 (if (n + 1) % 4 = 0 then k0_pay1 (F := Ideal) else accAt0 V c n (Nat.lt_of_succ_lt h)) (zi0 V c ⟨n + 1, h⟩) (zj0 V c ⟨n + 1, h⟩) a b).trans ?_
  congr 1
  · by_cases h4 : (n + 1) % 4 = 0
    · rw [if_pos h4, if_pos h4]; exact pay1Apply0 _
    · rw [if_neg h4, if_neg h4]
  · exact Finset.sum_congr rfl fun p _ => by rw [ziApply0, zjApply0]

/-- After the point (i, j, k) the scratch holds, at (a, b), the dot product of row a of row block i with row b of row
    block j over the column blocks 0..k. -/
theorem accClosed0 (c : Dev nD) : ∀ (n : ℕ) (h : n < cfg0.N) (a b : Fin 1024),
    accAt0 V c n h (ix2 a b) = ∑ s ∈ Finset.range (n % 4 + 1), dotBlk0 (zarr0 V c) (n / 16) (n / 4 % 4) s a b
  | 0, h, a, b => by
    refine (pay2Apply0 (k0_pay1 (F := Ideal)) (zi0 V c ⟨0, h⟩) (zj0 V c ⟨0, h⟩) a b).trans ?_
    show _ = ∑ s ∈ Finset.range 1, dotBlk0 (zarr0 V c) 0 0 s a b
    rw [pay1Apply0, zero_add, Finset.sum_range_one]
    exact Finset.sum_congr rfl fun p _ => by rw [ziApply0, zjApply0]
  | n + 1, h, a, b => by
    rw [accStep0]
    by_cases h4 : (n + 1) % 4 = 0
    · rw [if_pos h4, zero_add, h4, Nat.zero_add, Finset.sum_range_one]
    · rw [if_neg h4, accClosed0 c n (Nat.lt_of_succ_lt h) a b]
      have eb : (n + 1) / 16 = n / 16 := by omega
      have ec : (n + 1) / 4 % 4 = n / 4 % 4 := by omega
      have ed : (n + 1) % 4 = n % 4 + 1 := by omega
      rw [eb, ec, ed, Finset.sum_range_succ _ (n % 4 + 1)]

/-- After the point (i, j, k) the output block holds, at row a, the masked exponential row sums against the row blocks
    0..j-1, and against row block j too once k = 3. -/
theorem outClosed0 (c : Dev nD) : ∀ (n : ℕ) (h : n < cfg0.N) (a : Fin 1024),
    outAt0 V c n h (ix2 a (0 : Fin 1))
      = ∑ jb ∈ Finset.range ((n % 16 + 1) / 4), expBlk0 (zarr0 V c) (marr0 V c) (n / 16) jb a
  | 0, h, a => by
    show k0_pay3 (F := Ideal) (ix2 a (0 : Fin 1)) = ∑ jb ∈ Finset.range 0, expBlk0 (zarr0 V c) (marr0 V c) 0 jb a
    rw [pay3Apply0, Finset.sum_range_zero]
  | n + 1, h, a => by
    have hstep : outAt0 V c (n + 1) h
        = if (n + 1) % 16 = 0 then k0_pay3 (F := Ideal)
          else if (n + 1) % 4 = 3 then k0_pay4 (accAt0 V c (n + 1) h) (mk0 V c ⟨n + 1, h⟩) (outAt0 V c n (Nat.lt_of_succ_lt h))
          else outAt0 V c n (Nat.lt_of_succ_lt h) := rfl
    rw [hstep]
    by_cases h16 : (n + 1) % 16 = 0
    · rw [if_pos h16, pay3Apply0, h16]
      show (0 : EReal) = ∑ jb ∈ Finset.range 0, _
      rw [Finset.sum_range_zero]
    · rw [if_neg h16]
      have eb : (n + 1) / 16 = n / 16 := by omega
      by_cases h3 : (n + 1) % 4 = 3
      · rw [if_pos h3]
        refine (pay4Apply0 (accAt0 V c (n + 1) h) (mk0 V c ⟨n + 1, h⟩) (outAt0 V c n (Nat.lt_of_succ_lt h)) a).trans ?_
        rw [outClosed0 c n (Nat.lt_of_succ_lt h) a]
        have ec : ((n + 1) % 16 + 1) / 4 = (n % 16 + 1) / 4 + 1 := by omega
        have ed : (n + 1) / 4 % 4 = (n % 16 + 1) / 4 := by omega
        have ee : (n + 1) % 4 + 1 = 4 := by omega
        rw [ec, Finset.sum_range_succ, eb]
        congr 1
        unfold expBlk0
        refine Finset.sum_congr rfl fun q _ => ?_
        rw [accClosed0 V c (n + 1) h a q, mkApply0, eb, ed, ee]
      · rw [if_neg h3, outClosed0 c n (Nat.lt_of_succ_lt h) a]
        have ec : ((n + 1) % 16 + 1) / 4 = (n % 16 + 1) / 4 := by omega
        rw [eb, ec]

/-! ## From the blocks to the result array -/

/-- The four row blocks' sums at row a of row block i are the whole row sum at that row of the array. -/
theorem rowNegBlocks0 (z mk : Cert.Spec.Sq.Idx → EReal) (i : ℕ) (a : Fin 1024) :
    ∑ jb ∈ Finset.range 4, expBlk0 z mk i jb a = Cert.Spec.rowNeg Cert.Spec.cInv z mk (bn0 i a) := by
  unfold Cert.Spec.rowNeg expBlk0
  rw [Finset.sum_range]
  refine Finset.sum_congr rfl fun jb _ => Finset.sum_congr rfl fun q _ => ?_
  rw [bnVal0, Finset.sum_range]
  unfold Cert.Spec.simBlk dotBlk0
  simp only [bnVal0]

/-- What the result array ends holding: at row r, the sum over all rows s of exp((z_r . z_s) * c) * mask(r, s). -/
abbrev G0 (c : Dev nD) : Vec Ideal S4096x1 .f32 :=
  fun i => Cert.Spec.rowNeg Cert.Spec.cInv (zarr0 V c) (marr0 V c) (i 0)

/-- The output block at any index of its shape whose row is a. -/
theorem outRow0 (c : Dev nD) (n : ℕ) (h : n < cfg0.N) (y : S1024x1.Idx) (a : Fin 1024) (ha : (y 0).val = a.val) :
    outAt0 V c n h y = ∑ jb ∈ Finset.range ((n % 16 + 1) / 4), expBlk0 (zarr0 V c) (marr0 V c) (n / 16) jb a := by
  obtain ⟨a', u, rfl⟩ : ∃ (a' : Fin 1024) (u : Fin 1), y = ix2 a' u := ⟨y 0, y 1, eq_ix2 y⟩
  obtain rfl : u = 0 := Subsingleton.elim _ _
  obtain rfl : a' = a := Fin.ext ha
  exact outClosed0 V c n h a'

/-- What the last point of each i writes back is its block of the whole result. -/
theorem flushedEq0 (c : Dev nD) (t : Fin cfg0.N) (hf : (cfg0.win 3).flush t = true) :
    (dat0 V c).flushed 3 t = ((cfg0.win 3).blk t).view.read (Elt Ideal) (G0 V c) := by
  have h15 : t.val % 16 = 15 := (flush0_3 t).mp hf
  obtain ⟨-, -, -, -, -, -, ea, eb⟩ := idxFacts0 t
  have hN : cfg0.N = 64 := N_0
  have ht := t.isLt
  show (cfg0.win 3).cut (grid0.coords t) ((dat0 V c).after 3 t) = _
  rw [after0_3]
  funext y
  have hy : (y 0).val < 1024 := (y 0).isLt
  show outAt0 V c t.val t.isLt ((cfg0.win 3).xinj (grid0.coords t) y) = G0 V c (((cfg0.win 3).blk t).view.emb y)
  refine (outRow0 V c t.val t.isLt _ ⟨(y 0).val, hy⟩ rfl).trans ?_
  have ee : (t.val % 16 + 1) / 4 = 4 := by omega
  rw [ee, rowNegBlocks0]
  show Cert.Spec.rowNeg Cert.Spec.cInv (zarr0 V c) (marr0 V c) _ = Cert.Spec.rowNeg Cert.Spec.cInv (zarr0 V c) (marr0 V c) _
  refine congrArg _ (Fin.ext ?_)
  show t.val / 16 % 4 * 1024 + (y 0).val = win0_3.index t (0 : Fin 2) * 1024 + 1 * (y 0).val
  rw [ea]; omega

/-- An index of the result array is in point t's block iff each coordinate is in the block's range on its axis. -/
theorem memBlk0 (t : Fin cfg0.N) (i : S4096x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v32).slice (win0_3.rect t)).set ↔ _
  rw [View.set_slice_whole, Rect.mem_set_unit]
  exact Iff.rfl

/-- Row r of the result is written back by the last point of i = r / 1024. -/
theorem cover0 (i : S4096x1.Idx) :
    ∃ t : Fin cfg0.N, (cfg0.win 3).flush t = true ∧ i ∈ ((cfg0.win 3).blk t).view.set := by
  have hN : cfg0.N = 64 := N_0
  have hia : (i 0).val < 4096 := (i 0).isLt
  have hib : (i 1).val < 1 := (i 1).isLt
  let t : Fin cfg0.N := ⟨(i 0).val / 1024 * 16 + 15, by rw [hN]; omega⟩
  have htv : t.val = (i 0).val / 1024 * 16 + 15 := rfl
  obtain ⟨-, -, -, -, -, -, ea, eb⟩ := idxFacts0 t
  refine ⟨t, (flush0_3 t).mpr (by rw [htv]; omega), ?_⟩
  rw [memBlk0]
  intro a
  match a with
  | ⟨0, _⟩ =>
    show win0_3.index t (0 : Fin 2) * 1024 ≤ (i 0).val ∧ (i 0).val < win0_3.index t (0 : Fin 2) * 1024 + 1024
    rw [ea, htv]; omega
  | ⟨1, _⟩ =>
    show win0_3.index t (1 : Fin 2) * 1 ≤ (i 1).val ∧ (i 1).val < win0_3.index t (1 : Fin 2) * 1 + 1
    rw [eb]; omega

/-- After the region, row `r` of its result array holds `rowNeg` of the row array and the mask as the region found
    them. -/
theorem kval0 (c : Dev nD) (r : Fin 4096) :
    (dat0 (F := Ideal) V c).arrAt 3 cfg0.N (ix2 r (0 : Fin 1))
      = Cert.Spec.rowNeg Cert.Spec.cInv (V c main_v30) (V c main_v29) r :=
  congrFun ((dat0 (F := Ideal) V c).arrAt_eq_of_cover 3 (G0 V c) (flushedEq0 V c) cover0) (ix2 r (0 : Fin 1))

end Cert.KernelIdeal.Hand

end
-- ==== Proof.KI.Value1.lean ====
/-
  The value the second kernel region leaves in its result array, at the ideal instance: row `r` of the 4096 x 1
  result is the sum over all rows `s` of exp((z_r . z_s) * c) * mask(r, s), the dot product and the rows `s`
  taken in blocks of 1024 (`Cert.Spec.rowNeg`), where z is the array both row windows read and c the value the
  certificate's table gives the kernel's scale constant.

  The road: the body's four stored values read at an index (the cleared scratch and output block are zero; the product
  step adds to the scratch at (a, b) the dot product of row a of the first row block with row b of the second; the
  row-sum step adds to the output block at row a the sum over the columns q of exp(scratch(a, q) * c) * mask(a, q));
  the three input blocks at point (i, j, k) as blocks (i, k), (j, k) of the row array and (i, j) of the mask; by
  induction on the point, the scratch after point (i, j, k) is the dot products over the column blocks 0..k and the
  output block the masked exponential sums over the row blocks completed so far; the last point of each i therefore
  writes back rows 1024 i .. 1024 i + 1023 of the whole result, and these four blocks cover the result array.
-/
import proofs.«120869_j30030411333999_1_alg».proof.Proof.Gen.KernelIdeal.Launch
import proofs.«120869_j30030411333999_1_alg».proof.Proof.Gen.KernelIdeal.Skeleton
import proofs.«120869_j30030411333999_1_alg».proof.Proof.Gen.KernelIdeal.Points
import proofs.«120869_j30030411333999_1_alg».proof.Proof.KI.Defs1
import proofs.«120869_j30030411333999_1_alg».proof.Proof.Spec
import Idealize.ShloMosaic.Lib.Pipeline.Value
import Idealize.ShloMosaic.Lib.ValueIdx
import Idealize.ShloMosaic.PureOps.Ideal.Laws
import Idealize.ShloMosaic.PureOps.IdealRules
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-! ## The body's four values read at an index, at the ideal instance -/

/-- The product's left operand index: its row is the result's row, -/
theorem lhsRow1 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- its column the contraction position; -/
theorem lhsCol1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- the right operand's row is the result's column, -/
theorem rhsRow1 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- its column the contraction position. -/
theorem rhsCol1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into the zero accumulator at (a, b): the dot product of row a of the left block and row b of the
    right block. -/
theorem mmApply1 (x y : FVec Ideal S1024x1024 .bf16) (a b : Fin 1024) :
    matmul (F := Ideal) dot_S1024x1024_S1024x1024_S1024x1024_1_1_0_0_n_n none x y (constant S1024x1024 .f32 0x00000000#32) (ix2 a b)
      = ∑ p : Fin 1024, x (ix2 a p) * y (ix2 b p) := by
  simp only [matmul]
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 a b) ((contrEquiv1 dot_S1024x1024_S1024x1024_S1024x1024_1_1_0_0_n_n 1024 rfl rfl).symm k) = ix2 a k := funext fun d => Fin.ext (by
    match d with
    | ⟨0, _⟩ => exact lhsRow1 _ _
    | ⟨1, _⟩ => exact (lhsCol1 _ _).trans hk)
  have er : dot_S1024x1024_S1024x1024_S1024x1024_1_1_0_0_n_n.rhsIdx (ix2 a b) ((contrEquiv1 dot_S1024x1024_S1024x1024_S1024x1024_1_1_0_0_n_n 1024 rfl rfl).symm k) = ix2 b k := funext fun d => Fin.ext (by
    match d with
    | ⟨0, _⟩ => exact rhsRow1 _ _
    | ⟨1, _⟩ => exact (rhsCol1 _ _).trans hk)
  rw [el, er]

/-- The cleared scratch is zero everywhere. -/
theorem pay1Apply1 (i : S1024x1024.Idx) : k1_pay1 (F := Ideal) i = 0 := by
  unfold k1_pay1
  rw [shapeCast_self]
  exact Ideal.ofBits_zero_f32

/-- The cleared output block is zero everywhere. -/
theorem pay3Apply1 (i : S1024x1.Idx) : k1_pay3 (F := Ideal) i = 0 := by
  unfold k1_pay3
  exact Ideal.ofBits_zero_f32

/-- The scratch after the product step at (a, b): what it held plus the dot product of row a of the first block and row b
    of the second. -/
theorem pay2Apply1 (v3 : Vec Ideal S1024x1024 .f32) (v4 v6 : Vec Ideal S1024x1024 .bf16) (a b : Fin 1024) :
    k1_pay2 (F := Ideal) v3 v4 v6 (ix2 a b) = v3 (ix2 a b) + ∑ p : Fin 1024, v4 (ix2 a p) * v6 (ix2 b p) := by
  unfold k1_pay2
  rw [shapeCast_self, shapeCast_self, shapeCast_self]
  exact congrArg (v3 (ix2 a b) + ·) (mmApply1 v4 v6 a b)

/-- The scale constant is the table's value. -/
theorem namedInvTau1 : Named.named (F := Ideal) κ "inv_tau" (φ := .f32) 0x41200000#32 = Cert.Spec.cInv :=
  IdealRules.named_const.ideal_named_scalar _ _ _ _ rfl

/-- The lane sum of a block, made a column, at row a: the sum of row a. -/
theorem rowsumApply1 (x : FVec Ideal S1024x1024 .f32) (a : Fin 1024) :
    shapeCast S1024x1 (multiReduction (F := Ideal) .add [1] S1024 x 0x00000000#32 reduces_S1024x1024_S1024 (.inl rfl) rfl) shapeCasts_S1024_S1024x1 (ix2 a (0 : Fin 1))
      = ∑ q : Fin 1024, x (ix2 a q) := by
  refine (shapeCast_apply _ _ (ix2 a (0 : Fin 1)) (ix1 a) (by
    rw [Shape.rowMajor_val_one, Shape.rowMajor_val_two]; show a.val = a.val * 1 + 0; omega)).trans ?_
  refine (Ideal.multiReduction_add_single x _ reduces_S1024x1024_S1024 _ _ (ix1 a)).trans ?_
  show ∑ q : Fin 1024, x (reduces_S1024x1024_S1024.lift (ix1 a) q) = _
  refine Finset.sum_congr rfl fun q _ => congrArg x ?_
  funext d
  apply Fin.ext
  match d with
  | ⟨0, _⟩ => rfl
  | ⟨1, _⟩ => rfl

/-- The output block after the row-sum step at row a: what it held plus the sum over the columns q of
    exp(scratch(a, q) * c) * mask(a, q). -/
theorem pay4Apply1 (v21 : Vec Ideal S1024x1024 .f32) (v25 : Vec Ideal S1024x1024 .bf16) (v29 : Vec Ideal S1024x1 .f32) (a : Fin 1024) :
    k1_pay4 (F := Ideal) v21 v25 v29 (ix2 a (0 : Fin 1))
      = v29 (ix2 a (0 : Fin 1)) + ∑ q : Fin 1024, Ideal.exp (v21 (ix2 a q) * Cert.Spec.cInv) * v25 (ix2 a q) := by
  unfold k1_pay4
  rw [shapeCast_self, shapeCast_self]
  refine congrArg (v29 (ix2 a (0 : Fin 1)) + ·) ?_
  refine (rowsumApply1 _ a).trans ?_
  refine Finset.sum_congr rfl fun q _ => ?_
  show Ideal.exp (v21 (ix2 a q) * Named.named (F := Ideal) κ "inv_tau" (φ := .f32) 0x41200000#32) * v25 (ix2 a q) = _
  rw [namedInvTau1]

/-! ## The blocks read at an index -/

/-- Position p of block n (counted mod 4) on an axis of 4096 cut into four blocks of 1024. -/
def bn1 (n : ℕ) (p : Fin 1024) : Fin 4096 :=
  ⟨n % 4 * 1024 + p.val, by have := Nat.mod_lt n (by decide : 0 < 4); have := p.isLt; omega⟩

theorem bnVal1 (a : Fin 4) (p : Fin 1024) : bn1 a.val p = Cert.Spec.bi a p :=
  Fin.ext (by show a.val % 4 * 1024 + p.val = a.val * 1024 + p.val; have := a.isLt; omega)

/-- The windows' block indices at point t = (i*4 + j)*4 + k: (i, k), (j, k), (i, j), (i, 0). -/
theorem idxFacts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = t.val / 16 ∧ win1_2.index t (1 : Fin 2) = t.val / 4 % 4
    ∧ win1_3.index t (0 : Fin 2) = t.val / 16 ∧ win1_3.index t (1 : Fin 2) = 0 :=
  (by decide +kernel : ∀ t : Fin grid1.N, _)

variable (V : (c : Dev nD) → (b : Ref sig .tc) → Buf (Elt Ideal) ((c : Thread nD τ).loc b))

/-- The row array and the mask array as the region finds them, at their literal type. -/
abbrev zarr1 (c : Dev nD) : Vec Ideal S4096x4096 .bf16 := V c main_v31
abbrev marr1 (c : Dev nD) : Vec Ideal S4096x4096 .bf16 := V c main_v29

/-- The first row block at point t is block (i, k) of the row array. -/
theorem ziApply1 (c : Dev nD) (n : ℕ) (h : n < cfg1.N) (a p : Fin 1024) :
    zi1 V c ⟨n, h⟩ (ix2 a p) = zarr1 V c (ix2 (bn1 (n / 16) a) (bn1 (n % 4) p)) := by
  generalize ht' : (⟨n, h⟩ : Fin cfg1.N) = t
  obtain rfl : n = t.val := congrArg Fin.val ht'
  obtain ⟨ea, eb, -⟩ := idxFacts1 t
  have hN : cfg1.N = 64 := N_1
  have ht := t.isLt
  show V c main_v31 (((cfg1.win 0).blk t).view.emb (ix2 a p)) = V c main_v31 _
  refine congrArg (V c main_v31) ?_
  funext d
  apply Fin.ext
  match d with
  | ⟨0, _⟩ => show win1_0.index t (0 : Fin 2) * 1024 + 1 * a.val = t.val / 16 % 4 * 1024 + a.val; rw [ea]; omega
  | ⟨1, _⟩ => show win1_0.index t (1 : Fin 2) * 1024 + 1 * p.val = t.val % 4 % 4 * 1024 + p.val; rw [eb]; omega

/-- The second row block at point t is block (j, k) of the row array. -/
theorem zjApply1 (c : Dev nD) (n : ℕ) (h : n < cfg1.N) (b p : Fin 1024) :
    zj1 V c ⟨n, h⟩ (ix2 b p) = zarr1 V c (ix2 (bn1 (n / 4 % 4) b) (bn1 (n % 4) p)) := by
  generalize ht' : (⟨n, h⟩ : Fin cfg1.N) = t
  obtain rfl : n = t.val := congrArg Fin.val ht'
  obtain ⟨-, -, ea, eb, -⟩ := idxFacts1 t
  show V c main_v31 (((cfg1.win 1).blk t).view.emb (ix2 b p)) = V c main_v31 _
  refine congrArg (V c main_v31) ?_
  funext d
  apply Fin.ext
  match d with
  | ⟨0, _⟩ => show win1_1.index t (0 : Fin 2) * 1024 + 1 * b.val = t.val / 4 % 4 % 4 * 1024 + b.val; rw [ea]; omega
  | ⟨1, _⟩ => show win1_1.index t (1 : Fin 2) * 1024 + 1 * p.val = t.val % 4 % 4 * 1024 + p.val; rw [eb]; omega

/-- The mask block at point t is block (i, j) of the mask array. -/
theorem mkApply1 (c : Dev nD) (n : ℕ) (h : n < cfg1.N) (a q : Fin 1024) :
    mk1 V c ⟨n, h⟩ (ix2 a q) = marr1 V c (ix2 (bn1 (n / 16) a) (bn1 (n / 4 % 4) q)) := by
  generalize ht' : (⟨n, h⟩ : Fin cfg1.N) = t
  obtain rfl : n = t.val := congrArg Fin.val ht'
  obtain ⟨-, -, -, -, ea, eb, -⟩ := idxFacts1 t
  have hN : cfg1.N = 64 := N_1
  have ht := t.isLt
  show V c main_v29 (((cfg1.win 2).blk t).view.emb (ix2 a q)) = V c main_v29 _
  refine congrArg (V c main_v29) ?_
  funext d
  apply Fin.ext
  match d with
  | ⟨0, _⟩ => show win1_2.index t (0 : Fin 2) * 1024 + 1 * a.val = t.val / 16 % 4 * 1024 + a.val; rw [ea]; omega
  | ⟨1, _⟩ => show win1_2.index t (1 : Fin 2) * 1024 + 1 * q.val = t.val / 4 % 4 % 4 * 1024 + q.val; rw [eb]; omega

/-! ## The scratch and the output block after every point, in closed form -/

/-- The dot product of row a of row block i with row b of row block j over column block s. -/
def dotBlk1 (z : Cert.Spec.Sq.Idx → EReal) (i j s : ℕ) (a b : Fin 1024) : EReal :=
  ∑ p : Fin 1024, z (ix2 (bn1 i a) (bn1 s p)) * z (ix2 (bn1 j b) (bn1 s p))

/-- The masked exponentials of the scaled dot products of row a of row block i with the rows of row block jb, summed. -/
def expBlk1 (z mk : Cert.Spec.Sq.Idx → EReal) (i jb : ℕ) (a : Fin 1024) : EReal :=
  ∑ q : Fin 1024, Ideal.exp ((∑ s ∈ Finset.range 4, dotBlk1 z i jb s a q) * Cert.Spec.cInv) * mk (ix2 (bn1 i a) (bn1 jb q))

/-- One step of the scratch at an index: cleared first where k = 0, then the point's block product added. -/
theorem accStep1 (c : Dev nD) (n : ℕ) (h : n + 1 < cfg1.N) (a b : Fin 1024) :
    accAt1 V c (n + 1) h (ix2 a b)
      = (if (n + 1) % 4 = 0 then 0 else accAt1 V c n (Nat.lt_of_succ_lt h) (ix2 a b))
        + dotBlk1 (zarr1 V c) ((n + 1) / 16) ((n + 1) / 4 % 4) ((n + 1) % 4) a b := by
  refine (pay2Apply1 (if (n + 1) % 4 = 0 then k1_pay1 (F := Ideal) else accAt1 V c n (Nat.lt_of_succ_lt h)) (zi1 V c ⟨n + 1, h⟩) (zj1 V c ⟨n + 1, h⟩) a b).trans ?_
  congr 1
  · by_cases h4 : (n + 1) % 4 = 0
    · rw [if_pos h4, if_pos h4]; exact pay1Apply1 _
    · rw [if_neg h4, if_neg h4]
  · exact Finset.sum_congr rfl fun p _ => by rw [ziApply1, zjApply1]

/-- After the point (i, j, k) the scratch holds, at (a, b), the dot product of row a of row block i with row b of row
    block j over the column blocks 0..k. -/
theorem accClosed1 (c : Dev nD) : ∀ (n : ℕ) (h : n < cfg1.N) (a b : Fin 1024),
    accAt1 V c n h (ix2 a b) = ∑ s ∈ Finset.range (n % 4 + 1), dotBlk1 (zarr1 V c) (n / 16) (n / 4 % 4) s a b
  | 0, h, a, b => by
    refine (pay2Apply1 (k1_pay1 (F := Ideal)) (zi1 V c ⟨0, h⟩) (zj1 V c ⟨0, h⟩) a b).trans ?_
    show _ = ∑ s ∈ Finset.range 1, dotBlk1 (zarr1 V c) 0 0 s a b
    rw [pay1Apply1, zero_add, Finset.sum_range_one]
    exact Finset.sum_congr rfl fun p _ => by rw [ziApply1, zjApply1]
  | n + 1, h, a, b => by
    rw [accStep1]
    by_cases h4 : (n + 1) % 4 = 0
    · rw [if_pos h4, zero_add, h4, Nat.zero_add, Finset.sum_range_one]
    · rw [if_neg h4, accClosed1 c n (Nat.lt_of_succ_lt h) a b]
      have eb : (n + 1) / 16 = n / 16 := by omega
      have ec : (n + 1) / 4 % 4 = n / 4 % 4 := by omega
      have ed : (n + 1) % 4 = n % 4 + 1 := by omega
      rw [eb, ec, ed, Finset.sum_range_succ _ (n % 4 + 1)]

/-- After the point (i, j, k) the output block holds, at row a, the masked exponential row sums against the row blocks
    0..j-1, and against row block j too once k = 3. -/
theorem outClosed1 (c : Dev nD) : ∀ (n : ℕ) (h : n < cfg1.N) (a : Fin 1024),
    outAt1 V c n h (ix2 a (0 : Fin 1))
      = ∑ jb ∈ Finset.range ((n % 16 + 1) / 4), expBlk1 (zarr1 V c) (marr1 V c) (n / 16) jb a
  | 0, h, a => by
    show k1_pay3 (F := Ideal) (ix2 a (0 : Fin 1)) = ∑ jb ∈ Finset.range 0, expBlk1 (zarr1 V c) (marr1 V c) 0 jb a
    rw [pay3Apply1, Finset.sum_range_zero]
  | n + 1, h, a => by
    have hstep : outAt1 V c (n + 1) h
        = if (n + 1) % 16 = 0 then k1_pay3 (F := Ideal)
          else if (n + 1) % 4 = 3 then k1_pay4 (accAt1 V c (n + 1) h) (mk1 V c ⟨n + 1, h⟩) (outAt1 V c n (Nat.lt_of_succ_lt h))
          else outAt1 V c n (Nat.lt_of_succ_lt h) := rfl
    rw [hstep]
    by_cases h16 : (n + 1) % 16 = 0
    · rw [if_pos h16, pay3Apply1, h16]
      show (0 : EReal) = ∑ jb ∈ Finset.range 0, _
      rw [Finset.sum_range_zero]
    · rw [if_neg h16]
      have eb : (n + 1) / 16 = n / 16 := by omega
      by_cases h3 : (n + 1) % 4 = 3
      · rw [if_pos h3]
        refine (pay4Apply1 (accAt1 V c (n + 1) h) (mk1 V c ⟨n + 1, h⟩) (outAt1 V c n (Nat.lt_of_succ_lt h)) a).trans ?_
        rw [outClosed1 c n (Nat.lt_of_succ_lt h) a]
        have ec : ((n + 1) % 16 + 1) / 4 = (n % 16 + 1) / 4 + 1 := by omega
        have ed : (n + 1) / 4 % 4 = (n % 16 + 1) / 4 := by omega
        have ee : (n + 1) % 4 + 1 = 4 := by omega
        rw [ec, Finset.sum_range_succ, eb]
        congr 1
        unfold expBlk1
        refine Finset.sum_congr rfl fun q _ => ?_
        rw [accClosed1 V c (n + 1) h a q, mkApply1, eb, ed, ee]
      · rw [if_neg h3, outClosed1 c n (Nat.lt_of_succ_lt h) a]
        have ec : ((n + 1) % 16 + 1) / 4 = (n % 16 + 1) / 4 := by omega
        rw [eb, ec]

/-! ## From the blocks to the result array -/

/-- The four row blocks' sums at row a of row block i are the whole row sum at that row of the array. -/
theorem rowNegBlocks1 (z mk : Cert.Spec.Sq.Idx → EReal) (i : ℕ) (a : Fin 1024) :
    ∑ jb ∈ Finset.range 4, expBlk1 z mk i jb a = Cert.Spec.rowNeg Cert.Spec.cInv z mk (bn1 i a) := by
  unfold Cert.Spec.rowNeg expBlk1
  rw [Finset.sum_range]
  refine Finset.sum_congr rfl fun jb _ => Finset.sum_congr rfl fun q _ => ?_
  rw [bnVal1, Finset.sum_range]
  unfold Cert.Spec.simBlk dotBlk1
  simp only [bnVal1]

/-- What the result array ends holding: at row r, the sum over all rows s of exp((z_r . z_s) * c) * mask(r, s). -/
abbrev G1 (c : Dev nD) : Vec Ideal S4096x1 .f32 :=
  fun i => Cert.Spec.rowNeg Cert.Spec.cInv (zarr1 V c) (marr1 V c) (i 0)

/-- The output block at any index of its shape whose row is a. -/
theorem outRow1 (c : Dev nD) (n : ℕ) (h : n < cfg1.N) (y : S1024x1.Idx) (a : Fin 1024) (ha : (y 0).val = a.val) :
    outAt1 V c n h y = ∑ jb ∈ Finset.range ((n % 16 + 1) / 4), expBlk1 (zarr1 V c) (marr1 V c) (n / 16) jb a := by
  obtain ⟨a', u, rfl⟩ : ∃ (a' : Fin 1024) (u : Fin 1), y = ix2 a' u := ⟨y 0, y 1, eq_ix2 y⟩
  obtain rfl : u = 0 := Subsingleton.elim _ _
  obtain rfl : a' = a := Fin.ext ha
  exact outClosed1 V c n h a'

/-- What the last point of each i writes back is its block of the whole result. -/
theorem flushedEq1 (c : Dev nD) (t : Fin cfg1.N) (hf : (cfg1.win 3).flush t = true) :
    (dat1 V c).flushed 3 t = ((cfg1.win 3).blk t).view.read (Elt Ideal) (G1 V c) := by
  have h15 : t.val % 16 = 15 := (flush1_3 t).mp hf
  obtain ⟨-, -, -, -, -, -, ea, eb⟩ := idxFacts1 t
  have hN : cfg1.N = 64 := N_1
  have ht := t.isLt
  show (cfg1.win 3).cut (grid1.coords t) ((dat1 V c).after 3 t) = _
  rw [after1_3]
  funext y
  have hy : (y 0).val < 1024 := (y 0).isLt
  show outAt1 V c t.val t.isLt ((cfg1.win 3).xinj (grid1.coords t) y) = G1 V c (((cfg1.win 3).blk t).view.emb y)
  refine (outRow1 V c t.val t.isLt _ ⟨(y 0).val, hy⟩ rfl).trans ?_
  have ee : (t.val % 16 + 1) / 4 = 4 := by omega
  rw [ee, rowNegBlocks1]
  show Cert.Spec.rowNeg Cert.Spec.cInv (zarr1 V c) (marr1 V c) _ = Cert.Spec.rowNeg Cert.Spec.cInv (zarr1 V c) (marr1 V c) _
  refine congrArg _ (Fin.ext ?_)
  show t.val / 16 % 4 * 1024 + (y 0).val = win1_3.index t (0 : Fin 2) * 1024 + 1 * (y 0).val
  rw [ea]; omega

/-- An index of the result array is in point t's block iff each coordinate is in the block's range on its axis. -/
theorem memBlk1 (t : Fin cfg1.N) (i : S4096x1.Idx) :
    i ∈ ((cfg1.win 3).blk t).view.set ↔ ∀ a : Fin 2, win1_3.index t a * S1024x1.size a ≤ (i a).val ∧ (i a).val < win1_3.index t a * S1024x1.size a + S1024x1.size a := by
  show i ∈ ((View.whole main_v34).slice (win1_3.rect t)).set ↔ _
  rw [View.set_slice_whole, Rect.mem_set_unit]
  exact Iff.rfl

/-- Row r of the result is written back by the last point of i = r / 1024. -/
theorem cover1 (i : S4096x1.Idx) :
    ∃ t : Fin cfg1.N, (cfg1.win 3).flush t = true ∧ i ∈ ((cfg1.win 3).blk t).view.set := by
  have hN : cfg1.N = 64 := N_1
  have hia : (i 0).val < 4096 := (i 0).isLt
  have hib : (i 1).val < 1 := (i 1).isLt
  let t : Fin cfg1.N := ⟨(i 0).val / 1024 * 16 + 15, by rw [hN]; omega⟩
  have htv : t.val = (i 0).val / 1024 * 16 + 15 := rfl
  obtain ⟨-, -, -, -, -, -, ea, eb⟩ := idxFacts1 t
  refine ⟨t, (flush1_3 t).mpr (by rw [htv]; omega), ?_⟩
  rw [memBlk1]
  intro a
  match a with
  | ⟨0, _⟩ =>
    show win1_3.index t (0 : Fin 2) * 1024 ≤ (i 0).val ∧ (i 0).val < win1_3.index t (0 : Fin 2) * 1024 + 1024
    rw [ea, htv]; omega
  | ⟨1, _⟩ =>
    show win1_3.index t (1 : Fin 2) * 1 ≤ (i 1).val ∧ (i 1).val < win1_3.index t (1 : Fin 2) * 1 + 1
    rw [eb]; omega

/-- After the region, row `r` of its result array holds `rowNeg` of the row array and the mask as the region found
    them. -/
theorem kval1 (c : Dev nD) (r : Fin 4096) :
    (dat1 (F := Ideal) V c).arrAt 3 cfg1.N (ix2 r (0 : Fin 1))
      = Cert.Spec.rowNeg Cert.Spec.cInv (V c main_v31) (V c main_v29) r :=
  congrFun ((dat1 (F := Ideal) V c).arrAt_eq_of_cover 3 (G1 V c) (flushedEq1 V c) cover1) (ix2 r (0 : Fin 1))

end Cert.KernelIdeal.Hand

end
-- ==== Proof.RefNegGen.lean ====
/-
  The reference's masked sum of exponentials, for any array of rows and any pair mask.

  For a 4096 x 4096 array z and a one-bit mask of the same shape, the reference's operations are: the product of z
  with its transpose (entry (r, s) is the dot product of rows r and s over all 4096 columns), the quotient by the
  splat of the f32 word 0x3DCCCCCD, the exponential, the product with the mask read as 0 or 1, and the sum over
  both axes from the zero word. Read at an index each is one step on the extended reals, and the sum over every
  index of the square array is the double sum over its two coordinates.
-/
import proofs.«120869_j30030411333999_1_alg».proof.Proof.Gen.ReferenceIdeal
import proofs.«120869_j30030411333999_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The f32 word 0x3DCCCCCD has sign 0, exponent field 123 and fraction 5033165, so it denotes
    (2^23 + 5033165) * 2^(123 - 127 - 23) = 13421773 / 2^27 = 13421773/134217728. -/
theorem ofBits_tau : Ideal.ofBits .f32 0x3DCCCCCD#32 = Cert.Spec.dTau := by
  simp [Ideal.ofBits, Ideal.ieee, -EReal.coe_mul]; norm_num

/-! ## The product with the transpose, read at (r, s) -/

/-- The transpose read at (a, b) is the array at (b, a). -/
theorem transpose_at (z : S4096x4096.Idx → EReal) (a b : Fin 4096) :
    transpose S4096x4096 [1, 0] z transposes_S4096x4096_S4096x4096_1_0 (ix2 a b) = z (ix2 b a) :=
  transpose_apply [1, 0] z transposes_S4096x4096_S4096x4096_1_0 (ix2 a b) (ix2 b a) (fun c => match c with
    | ⟨0, _⟩ => rfl
    | ⟨1, _⟩ => rfl)

/-- The left operand's row is the output's row … -/
theorem lhs_row (i : S4096x4096.Idx) (q : dot_S4096x4096_S4096x4096_S4096x4096_1_0_0_1_n_n.contr.Idx) :
    (dot_S4096x4096_S4096x4096_S4096x4096_1_0_0_1_n_n.lhsIdx i q 0).val = (i 0).val := by
  unfold DotDims.lhsIdx
  rw [dif_neg (show ¬(0 : Fin S4096x4096.rank) ∈ dot_S4096x4096_S4096x4096_S4096x4096_1_0_0_1_n_n.lhsBatch by decide),
    dif_pos (show (0 : Fin S4096x4096.rank) ∈ dot_S4096x4096_S4096x4096_S4096x4096_1_0_0_1_n_n.lhsNonContracting by decide)]
  rfl
/-- … and its column the contraction index; -/
theorem lhs_col (i : S4096x4096.Idx) (q : dot_S4096x4096_S4096x4096_S4096x4096_1_0_0_1_n_n.contr.Idx) :
    (dot_S4096x4096_S4096x4096_S4096x4096_1_0_0_1_n_n.lhsIdx i q 1).val = (q ⟨0, by decide⟩).val :=
  dot_S4096x4096_S4096x4096_S4096x4096_1_0_0_1_n_n.lhsIdx_val_of_single rfl i q
/-- the right operand's row is the contraction index … -/
theorem rhs_row (i : S4096x4096.Idx) (q : dot_S4096x4096_S4096x4096_S4096x4096_1_0_0_1_n_n.contr.Idx) :
    (dot_S4096x4096_S4096x4096_S4096x4096_1_0_0_1_n_n.rhsIdx i q 0).val = (q ⟨0, by decide⟩).val :=
  dot_S4096x4096_S4096x4096_S4096x4096_1_0_0_1_n_n.rhsIdx_val_of_single rfl i q
/-- … and its column the output's column. -/
theorem rhs_col (i : S4096x4096.Idx) (q : dot_S4096x4096_S4096x4096_S4096x4096_1_0_0_1_n_n.contr.Idx) :
    (dot_S4096x4096_S4096x4096_S4096x4096_1_0_0_1_n_n.rhsIdx i q 1).val = (i 1).val := by
  unfold DotDims.rhsIdx
  rw [dif_neg (show ¬(1 : Fin S4096x4096.rank) ∈ dot_S4096x4096_S4096x4096_S4096x4096_1_0_0_1_n_n.rhsBatch by decide),
    dif_pos (show (1 : Fin S4096x4096.rank) ∈ dot_S4096x4096_S4096x4096_S4096x4096_1_0_0_1_n_n.rhsNonContracting by decide)]
  rfl

/-- The product of two square arrays at (r, s): the sum over the column p of the left at (r, p) times the right
    at (p, s). -/
theorem dot_at (x y : FVec Ideal S4096x4096 .f32) (r s : Fin 4096) :
    Host.dotGeneral (F := Ideal) dot_S4096x4096_S4096x4096_S4096x4096_1_0_0_1_n_n none x y (ix2 r s)
      = ∑ p : Fin 4096, x (ix2 r p) * y (ix2 p s) := by
  simp only [Host.dotGeneral]
  rw [Ideal.dotGeneral_apply,
    ← Equiv.sum_comp (contrEquiv1 dot_S4096x4096_S4096x4096_S4096x4096_1_0_0_1_n_n 4096 rfl rfl).symm]
  refine Finset.sum_congr rfl fun p _ => ?_
  have hp := contrEquiv1_symm_val dot_S4096x4096_S4096x4096_S4096x4096_1_0_0_1_n_n 4096 rfl rfl p
  have el : dot_S4096x4096_S4096x4096_S4096x4096_1_0_0_1_n_n.lhsIdx (ix2 r s)
      ((contrEquiv1 dot_S4096x4096_S4096x4096_S4096x4096_1_0_0_1_n_n 4096 rfl rfl).symm p) = ix2 r p :=
    funext fun a => Fin.ext (by
      match a with
      | ⟨0, _⟩ => exact lhs_row _ _
      | ⟨1, _⟩ => exact (lhs_col _ _).trans hp)
  have er : dot_S4096x4096_S4096x4096_S4096x4096_1_0_0_1_n_n.rhsIdx (ix2 r s)
      ((contrEquiv1 dot_S4096x4096_S4096x4096_S4096x4096_1_0_0_1_n_n 4096 rfl rfl).symm p) = ix2 p s :=
    funext fun a => Fin.ext (by
      match a with
      | ⟨0, _⟩ => exact (rhs_row _ _).trans hp
      | ⟨1, _⟩ => exact rhs_col _ _)
  rw [el, er]

/-- So the product of z with its transpose at (r, s) is the dot product of rows r and s. -/
theorem sim_at (z : FVec Ideal S4096x4096 .f32) (r s : Fin 4096) :
    Host.dotGeneral (F := Ideal) dot_S4096x4096_S4096x4096_S4096x4096_1_0_0_1_n_n none z
        (transpose S4096x4096 [1, 0] z transposes_S4096x4096_S4096x4096_1_0) (ix2 r s)
      = Cert.Spec.simAll z r s := by
  rw [dot_at]
  unfold Cert.Spec.simAll
  exact Finset.sum_congr rfl fun p _ => by rw [transpose_at]

/-! ## The divisor -/

/-- The splat of the word 0x3DCCCCCD over the square array reads 13421773/134217728 everywhere. -/
theorem tau_at (i : S4096x4096.Idx) :
    broadcastInDim S4096x4096 ![] bcast_S_S4096x4096 (constant (F := Ideal) S_ .f32 0x3DCCCCCD#32) i = Cert.Spec.dTau := by
  rw [broadcastInDim_apply _ bcast_S_S4096x4096 (constant (F := Ideal) S_ .f32 0x3DCCCCCD#32) i (fun a => a.elim0)
    (fun a => a.elim0)]
  exact ofBits_tau

/-! ## One summand, and the sum -/

/-- The summand at the pair (r, s): the exponential of the scaled dot product of rows r and s, times the mask
    bit there as 0 or 1. -/
theorem term_at (z : FVec Ideal S4096x4096 .f32) (mask : IVec S4096x4096 1) (r s : Fin 4096) :
    mulf (Host.exp (Host.divf
          (Host.dotGeneral (F := Ideal) dot_S4096x4096_S4096x4096_S4096x4096_1_0_0_1_n_n none z
            (transpose S4096x4096 [1, 0] z transposes_S4096x4096_S4096x4096_1_0))
          (broadcastInDim S4096x4096 ![] bcast_S_S4096x4096 (constant (F := Ideal) S_ .f32 0x3DCCCCCD#32))))
        (uitofp .f32 mask) (ix2 r s)
      = Ideal.exp (Ideal.div (Cert.Spec.simAll z r s) Cert.Spec.dTau) * (((mask (ix2 r s)).toNat : ℝ) : EReal) := by
  show Ideal.exp (Ideal.div
      (Host.dotGeneral (F := Ideal) dot_S4096x4096_S4096x4096_S4096x4096_1_0_0_1_n_n none z
        (transpose S4096x4096 [1, 0] z transposes_S4096x4096_S4096x4096_1_0) (ix2 r s))
      (broadcastInDim S4096x4096 ![] bcast_S_S4096x4096 (constant (F := Ideal) S_ .f32 0x3DCCCCCD#32) (ix2 r s)))
    * (((mask (ix2 r s)).toNat : ℝ) : EReal) = _
  rw [sim_at, tau_at]

/-- The sum over both axes from the zero word is the double sum over the coordinates. -/
theorem sum_all (y : FVec Ideal S4096x4096 .f32) (i : S_.Idx) :
    Host.reduceAdd y (constant (F := Ideal) S_ .f32 0x00000000#32) reducesTo_S4096x4096_S_d0_1 h_S_ i
      = ∑ r : Fin 4096, ∑ s : Fin 4096, y (ix2 r s) := by
  simp only [Host.reduceAdd, Ideal.hostReduceAdd_def]
  rw [Ideal.hostReduceAdd_total reducesTo_S4096x4096_S_d0_1 (fun b => b.elim0) y _ i, sum_idx2]
  show Ideal.ofBits .f32 0x00000000#32 + _ = _
  rw [Ideal.ofBits_zero_f32, zero_add]

/-- The reference's operations on any array of rows z and any pair mask: the sum over all pairs of rows (r, s) of
    exp((z_r . z_s) / (13421773/134217728)) times the mask at (r, s). -/
theorem ref_neg_gen (xn : (⟨S4096x4096, .f32⟩ : BufTy).Contents (Elt Ideal))
    (mask : (⟨S4096x4096, .i1⟩ : BufTy).Contents (Elt Ideal)) :
    Host.reduceAdd (F := Ideal)
        (mulf (Host.exp (Host.divf
            (Host.dotGeneral (F := Ideal) (φ₁ := .f32) (φ₂ := .f32) dot_S4096x4096_S4096x4096_S4096x4096_1_0_0_1_n_n none xn
              (transpose S4096x4096 [1, 0] xn transposes_S4096x4096_S4096x4096_1_0))
            (broadcastInDim S4096x4096 ![] bcast_S_S4096x4096 (constant S_ .f32 0x3DCCCCCD#32))))
          (uitofp .f32 mask))
        (constant S_ .f32 0x00000000#32) reducesTo_S4096x4096_S_d0_1 h_S_
      = fun _ => Cert.Spec.negAll Cert.Spec.dTau xn (fun i => (((mask i).toNat : ℝ) : EReal)) := by
  funext i
  rw [sum_all]
  unfold Cert.Spec.negAll
  exact Finset.sum_congr rfl fun r _ => Finset.sum_congr rfl fun s _ => term_at xn mask r s

end Cert.ReferenceIdeal.RefValue

end
-- ==== Proof.RefValue.lean ====
/-
  The reference program's result, read off its run one operation at a time.

  For one normalised input z (4096 rows of 4096 columns) the reference forms every pairwise dot product
  z_r . z_s, divides it by the constant 13421773/134217728, exponentiates, multiplies by the pair mask read as
  0 or 1, and sums over all pairs (r, s). Read at an index, each operation is one arithmetic step on the
  extended reals; the sum over all indices of the 4096 x 4096 array is the double sum over its two coordinates.
-/
import proofs.«120869_j30030411333999_1_alg».proof.Defs
import proofs.«120869_j30030411333999_1_alg».proof.Proof.RefRun
import proofs.«120869_j30030411333999_1_alg».proof.Proof.RefRead
import proofs.«120869_j30030411333999_1_alg».proof.Proof.Spec
import proofs.«120869_j30030411333999_1_alg».proof.Proof.RefNegGen

noncomputable section

open scoped BigOperators

namespace Cert.ReferenceIdeal.RefValue

open Cert.ReferenceIdeal Cert.ReferenceIdeal.ReadP Idealize.ShloMosaic Idealize.ShloMosaic.ValueIdx

/-- the pair mask as extended reals (0 or 1) -/
def maskE (x2 : (⟨S4096x64, .i32⟩ : BufTy).Contents (Elt Ideal)) : Cert.Spec.Sq.Idx → EReal :=
  fun i => (((val_main_v26 (F := Ideal) x2 i).toNat : ℝ) : EReal)

/-- The left operand of the pairwise product at output (r, s) and column p is z at (r, p). -/
theorem lidx30 (r s p : Fin 4096) : lidx_main_v30 (ix2 r s) p = ix2 r p :=
  funext fun a => Fin.ext (by match a with | ⟨0, _⟩ => rfl | ⟨1, _⟩ => rfl)

/-- The right operand is the transpose, so at output (r, s) and column p it is z at (s, p). -/
theorem ridx30 (r s p : Fin 4096) : idx_main_v29 (ridx_main_v30 (ix2 r s) p) = ix2 s p :=
  funext fun a => Fin.ext (by match a with | ⟨0, _⟩ => rfl | ⟨1, _⟩ => rfl)

theorem lidx43 (r s p : Fin 4096) : lidx_main_v43 (ix2 r s) p = ix2 r p :=
  funext fun a => Fin.ext (by match a with | ⟨0, _⟩ => rfl | ⟨1, _⟩ => rfl)

theorem ridx43 (r s p : Fin 4096) : idx_main_v42 (ridx_main_v43 (ix2 r s) p) = ix2 s p :=
  funext fun a => Fin.ext (by match a with | ⟨0, _⟩ => rfl | ⟨1, _⟩ => rfl)

/-- The pairwise product of the first input at (r, s) is the dot product of rows r and s. -/
theorem sim_x (x0 : (⟨S4096x4096, .f32⟩ : BufTy).Contents (Elt Ideal)) (r s : Fin 4096) :
    val_main_v30 (F := Ideal) x0 (ix2 r s) = Cert.Spec.simAll (val_main_v2 (F := Ideal) x0) r s := by
  rw [val_main_v30_apply]
  unfold Cert.Spec.simAll
  refine Finset.sum_congr rfl fun p _ => ?_
  rw [val_main_v29_apply, lidx30, ridx30]

/-- The same for the second input. -/
theorem sim_y (x1 : (⟨S4096x4096, .f32⟩ : BufTy).Contents (Elt Ideal)) (r s : Fin 4096) :
    val_main_v43 (F := Ideal) x1 (ix2 r s) = Cert.Spec.simAll (val_main_v5 (F := Ideal) x1) r s := by
  rw [val_main_v43_apply]
  unfold Cert.Spec.simAll
  refine Finset.sum_congr rfl fun p _ => ?_
  rw [val_main_v42_apply, lidx43, ridx43]

/-- The summand of the first input at the pair (r, s): the exponential of the scaled dot product, masked. -/
theorem term_x (x0 : (⟨S4096x4096, .f32⟩ : BufTy).Contents (Elt Ideal)) (x2 : (⟨S4096x64, .i32⟩ : BufTy).Contents (Elt Ideal))
    (r s : Fin 4096) :
    val_main_v35 (F := Ideal) x0 x2 (ix2 r s)
      = Ideal.exp (Ideal.div (Cert.Spec.simAll (val_main_v2 (F := Ideal) x0) r s) Cert.Spec.dTau) * maskE x2 (ix2 r s) := by
  rw [val_main_v35_apply, val_main_v33_apply, val_main_v32_apply, sim_x, val_main_v31_apply, val_main_cst_7_apply,
    val_main_v34_apply]
  simp only [Ideal.mulf_def, Ideal.hostUnary_exp_def, Ideal.hostDivf_def, Ideal.ofBits_def, ofBits_tau]
  rfl

/-- The same for the second input. -/
theorem term_y (x1 : (⟨S4096x4096, .f32⟩ : BufTy).Contents (Elt Ideal)) (x2 : (⟨S4096x64, .i32⟩ : BufTy).Contents (Elt Ideal))
    (r s : Fin 4096) :
    val_main_v48 (F := Ideal) x1 x2 (ix2 r s)
      = Ideal.exp (Ideal.div (Cert.Spec.simAll (val_main_v5 (F := Ideal) x1) r s) Cert.Spec.dTau) * maskE x2 (ix2 r s) := by
  rw [val_main_v48_apply, val_main_v46_apply, val_main_v45_apply, sim_y, val_main_v44_apply, val_main_cst_12_apply,
    val_main_v47_apply]
  simp only [Ideal.mulf_def, Ideal.hostUnary_exp_def, Ideal.hostDivf_def, Ideal.ofBits_def, ofBits_tau]
  rfl

/-- The reference's masked sum for the first input is the sum over all pairs of rows. -/
theorem ref_negx (x0 : (⟨S4096x4096, .f32⟩ : BufTy).Contents (Elt Ideal)) (x2 : (⟨S4096x64, .i32⟩ : BufTy).Contents (Elt Ideal)) :
    val_main_v36 (F := Ideal) x0 x2
      = fun _ => Cert.Spec.negAll Cert.Spec.dTau (val_main_v2 (F := Ideal) x0) (maskE x2) := by
  funext i
  rw [val_main_v36_apply, val_main_cst_8_apply, Ideal.ofBits_def, Ideal.ofBits_zero_f32, zero_add, sum_idx2]
  unfold Cert.Spec.negAll
  exact Finset.sum_congr rfl fun r _ => Finset.sum_congr rfl fun s _ => term_x x0 x2 r s

/-- The same for the second input. -/
theorem ref_negy (x1 : (⟨S4096x4096, .f32⟩ : BufTy).Contents (Elt Ideal)) (x2 : (⟨S4096x64, .i32⟩ : BufTy).Contents (Elt Ideal)) :
    val_main_v49 (F := Ideal) x1 x2
      = fun _ => Cert.Spec.negAll Cert.Spec.dTau (val_main_v5 (F := Ideal) x1) (maskE x2) := by
  funext i
  rw [val_main_v49_apply, val_main_cst_13_apply, Ideal.ofBits_def, Ideal.ofBits_zero_f32, zero_add, sum_idx2]
  unfold Cert.Spec.negAll
  exact Finset.sum_congr rfl fun r _ => Finset.sum_congr rfl fun s _ => term_y x1 x2 r s

end Cert.ReferenceIdeal.RefValue

end
-- ==== Proof.KI.Bridge.lean ====
/-
  The kernel's program and the reference compute one result, at the ideal instance.

  Each kernel region leaves in its result column, at row r, the sum over the rows s of exp((z_r . z_s) * c) times the
  mask at (r, s), the sums taken block by block; the program then adds the column up. The reference adds the same
  terms over all pairs (r, s) at once, with the quotient by d = 1/c in place of the product. Sums on the extended
  reals may be regrouped freely, and dividing by the nonzero real d is multiplying by c (`Cert.Spec`). The rows z are
  the normalised input rounded to the narrow float format, which changes nothing at the ideal instance, and the mask
  is the pair mask read as 0 or 1 in either format. Everything else — the normalisation, the positive-pair term, the
  count, the closing division and sum — is the same host arithmetic in both programs.
-/
import proofs.«120869_j30030411333999_1_alg».proof.Proof.Gen.KernelIdeal.Launch
import proofs.«120869_j30030411333999_1_alg».proof.Proof.Gen.KernelIdeal.Skeleton
import proofs.«120869_j30030411333999_1_alg».proof.Proof.Gen.KernelIdeal.Points
import proofs.«120869_j30030411333999_1_alg».proof.Proof.Gen.KernelIdeal.Regions
import proofs.«120869_j30030411333999_1_alg».proof.Proof.KI.HostK
import proofs.«120869_j30030411333999_1_alg».proof.Proof.KI.Value0
import proofs.«120869_j30030411333999_1_alg».proof.Proof.KI.Value1
import proofs.«120869_j30030411333999_1_alg».proof.Proof.RefValue
import Mathlib.Algebra.BigOperators.Fin
import Idealize.ShloMosaic.PureOps.Ideal.Laws
import Idealize.ShloMosaic.Lib.ValueIdx
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

open Idealize.ShloMosaic.ValueIdx
open scoped BigOperators

variable (m : (ℓ : Loc nD τ sig) → Buf (Elt Ideal) ℓ) (c : Dev nD)

/-- The sum of a 4096 x 1 column over both axes from the zero word is the sum of its entries. -/
theorem col_sum (res : FVec Ideal S4096x1 .f32) (i : S_.Idx) :
    Host.reduceAdd res (constant (F := Ideal) S_ .f32 0x00000000#32) reducesTo_S4096x1_S_d0_1 h_S_ i
      = ∑ r : Fin 4096, res (ix2 r (0 : Fin 1)) := by
  simp only [Host.reduceAdd, Ideal.hostReduceAdd_def]
  rw [Ideal.hostReduceAdd_total reducesTo_S4096x1_S_d0_1 (fun b => b.elim0) res _ i, sum_idx2]
  show Ideal.ofBits .f32 0x00000000#32 + _ = _
  rw [Ideal.ofBits_zero_f32, zero_add]
  exact Finset.sum_congr rfl fun r _ => Fin.sum_univ_one _

/-- The rows the first region reads are the reference's normalised rows: rounding to the narrow format is the
    identity on the extended reals. -/
theorem rows0_eq : (Vin0 m c main_v30 : Cert.Spec.Sq.Idx → EReal) = Cert.ReferenceIdeal.ReadP.val_main_v2 (F := Ideal) (m ((c : Thread nD τ).loc main_arg0)) := by
  show V4 m c main_v30 = _
  rw [hk_v30]; rfl
theorem rows1_eq : (Vin1 m c main_v31 : Cert.Spec.Sq.Idx → EReal) = Cert.ReferenceIdeal.ReadP.val_main_v5 (F := Ideal) (m ((c : Thread nD τ).loc main_arg1)) := by
  show V6 m (outsA m) c main_v31 = _
  rw [V6_of m (outsA m) c main_v31 (by decide), V5_of m (outsA m) c main_v31 (by decide), hk_v31]; rfl
/-- The mask both regions read is the reference's pair mask as 0 or 1. -/
theorem mask0_eq : (Vin0 m c main_v29 : Cert.Spec.Sq.Idx → EReal) = Cert.ReferenceIdeal.RefValue.maskE (m ((c : Thread nD τ).loc main_arg2)) := by
  show V4 m c main_v29 = _
  rw [hk_v29]; rfl
theorem mask1_eq : (Vin1 m c main_v29 : Cert.Spec.Sq.Idx → EReal) = Cert.ReferenceIdeal.RefValue.maskE (m ((c : Thread nD τ).loc main_arg2)) := by
  show V6 m (outsA m) c main_v29 = _
  rw [V6_of m (outsA m) c main_v29 (by decide), V5_of m (outsA m) c main_v29 (by decide), hk_v29]; rfl

/-- The first region's result column, at its literal type. -/
def colv0 : FVec Ideal S4096x1 .f32 := res0 m c

/-- The first region's column, summed, is the reference's masked sum for the first input. -/
theorem negx_eq :
    Host.reduceAdd (res0 m c) (constant (F := Ideal) S_ .f32 0x00000000#32) reducesTo_S4096x1_S_d0_1 h_S_
      = Cert.ReferenceIdeal.ReadP.val_main_v36 (F := Ideal) (m ((c : Thread nD τ).loc main_arg0)) (m ((c : Thread nD τ).loc main_arg2)) := by
  show Host.reduceAdd (colv0 m c) (constant (F := Ideal) S_ .f32 0x00000000#32) reducesTo_S4096x1_S_d0_1 h_S_ = _
  rw [Cert.ReferenceIdeal.RefValue.ref_negx]
  funext i
  rw [col_sum]
  have h2 : (∑ r : Fin 4096, colv0 m c (ix2 r (0 : Fin 1)))
      = ∑ r : Fin 4096, Cert.Spec.rowNeg Cert.Spec.cInv (Vin0 m c main_v30) (Vin0 m c main_v29) r :=
    Finset.sum_congr rfl fun r _ => kval0 (Vin0 m) c r
  rw [h2, Cert.Spec.sum_rowNeg_eq_negAll, rows0_eq, mask0_eq]
/-- The second region's result column, at its literal type. -/
def colv1 : FVec Ideal S4096x1 .f32 := res1 m c

/-- The second region's column, summed, is the reference's masked sum for the second input. -/
theorem negy_eq :
    Host.reduceAdd (res1 m c) (constant (F := Ideal) S_ .f32 0x00000000#32) reducesTo_S4096x1_S_d0_1 h_S_
      = Cert.ReferenceIdeal.ReadP.val_main_v49 (F := Ideal) (m ((c : Thread nD τ).loc main_arg1)) (m ((c : Thread nD τ).loc main_arg2)) := by
  show Host.reduceAdd (colv1 m c) (constant (F := Ideal) S_ .f32 0x00000000#32) reducesTo_S4096x1_S_d0_1 h_S_ = _
  rw [Cert.ReferenceIdeal.RefValue.ref_negy]
  funext i
  rw [col_sum]
  have h2 : (∑ r : Fin 4096, colv1 m c (ix2 r (0 : Fin 1)))
      = ∑ r : Fin 4096, Cert.Spec.rowNeg Cert.Spec.cInv (Vin1 m c main_v31) (Vin1 m c main_v29) r :=
    Finset.sum_congr rfl fun r _ => kval1 (Vin1 m) c r
  rw [h2, Cert.Spec.sum_rowNeg_eq_negAll, rows1_eq, mask1_eq]

/-- THE KERNEL'S RESULT IS THE REFERENCE'S: what the kernel's program leaves in its result buffer is the reference's
    last stage of the same arguments. -/
theorem kfinal : V12 m (outs m) c main_v46 = Cert.ReferenceIdeal.ReadP.val_main_v57 (F := Ideal) (m ((c : Thread nD τ).loc main_arg0)) (m ((c : Thread nD τ).loc main_arg1)) (m ((c : Thread nD τ).loc main_arg2)) := by
  rw [hk_v46, hk_v14, hk_v28, negx_eq, negy_eq]
  rfl

end Cert.KernelIdeal.Hand

end
-- ==== Proof.RefFold.lean ====
/-
  The reference's fold, evaluated stretch by stretch.

  The reference program is a straight line of 88 tensor operations, and its run states the result buffer at the fold of
  these operations over the launch contents. This module evaluates that fold. The list is cut into ten consecutive
  stretches, at places where few buffers are live. Each stretch is evaluated from ARBITRARY buffer contents `W`, so
  that whatever the earlier stretches computed stays an atom `W b` and every term stays the size of one stretch: if `W`
  holds the stage functions' values in the buffers the stretch reads, then after the stretch the buffers read later
  hold their stage functions' values, and the buffers the stretch does not write are unchanged. Chaining the ten
  stretches through the buffers live at each cut gives `ref_fold`: the result buffer holds the last stage function,
  `val_main_v57`, of the three arguments' launch contents.
-/
import proofs.«120869_j30030411333999_1_alg».proof.Proof.RefRead

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

/-! ## The operation list, cut

The reference's 88 operations in ten consecutive stretches, cut where few buffers are live: after each stretch only the
buffers named in its heading (and the three arguments) are read again. -/

/-- Operations 1 to 7: the first operand divided by its row norms (`main_v2`). -/
def P1 : List (HloOp τ sig (Elt F)) :=
  [ TRef.binary (TRef.of (T := ⟨S4096x4096, .f32⟩) main_arg0) (TRef.of (T := ⟨S4096x4096, .f32⟩) main_arg0) (TRef.of (T := ⟨S4096x4096, .f32⟩) main_call0_v0) mulf,
    TRef.nullary (TRef.of (T := ⟨S_, .f32⟩) main_call0_cst) (constant S_ .f32 0x00000000#32),
    TRef.binary (TRef.of (T := ⟨S4096x4096, .f32⟩) main_call0_v0) (TRef.of (T := ⟨S_, .f32⟩) main_call0_cst) (TRef.of (T := ⟨S4096, .f32⟩) main_call0_v1) (fun x v => Host.reduceAdd x v reducesTo_S4096x4096_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    unary main_v0 main_v1 (broadcastInDim S4096x4096 ![0, 1] bcast_S4096x1_S4096x4096_0_1 : (⟨S4096x1, .f32⟩ : BufTy).Contents (Elt F) → (⟨S4096x4096, .f32⟩ : BufTy).Contents (Elt F)),
    binary main_arg0 main_v1 main_v2 (Host.divf : (⟨S4096x4096, .f32⟩ : BufTy).Contents (Elt F) → (⟨S4096x4096, .f32⟩ : BufTy).Contents (Elt F) → (⟨S4096x4096, .f32⟩ : BufTy).Contents (Elt F)) ]

/-- Operations 8 to 14: the second operand divided by its row norms (`main_v5`). -/
def P2 : List (HloOp τ sig (Elt F)) :=
  [ TRef.binary (TRef.of (T := ⟨S4096x4096, .f32⟩) main_arg1) (TRef.of (T := ⟨S4096x4096, .f32⟩) main_arg1) (TRef.of (T := ⟨S4096x4096, .f32⟩) main_call1_v0) mulf,
    TRef.nullary (TRef.of (T := ⟨S_, .f32⟩) main_call1_cst) (constant S_ .f32 0x00000000#32),
    TRef.binary (TRef.of (T := ⟨S4096x4096, .f32⟩) main_call1_v0) (TRef.of (T := ⟨S_, .f32⟩) main_call1_cst) (TRef.of (T := ⟨S4096, .f32⟩) main_call1_v1) (fun x v => Host.reduceAdd x v reducesTo_S4096x4096_S4096_d1 h_S_),
    TRef.unary (TRef.of (T := ⟨S4096, .f32⟩) main_call1_v1) (TRef.of (T := ⟨S4096x1, .f32⟩) main_call1_v2) (broadcastInDim S4096x1 ![0] bcast_S4096_S4096x1_0),
    TRef.unary (TRef.of (T := ⟨S4096x1, .f32⟩) main_call1_v2) (TRef.of (T := ⟨S4096x1, .f32⟩) main_v3) Host.sqrt,
    unary main_v3 main_v4 (broadcastInDim S4096x4096 ![0, 1] bcast_S4096x1_S4096x4096_0_1 : (⟨S4096x1, .f32⟩ : BufTy).Contents (Elt F) → (⟨S4096x4096, .f32⟩ : BufTy).Contents (Elt F)),
    binary main_arg1 main_v4 main_v5 (Host.divf : (⟨S4096x4096, .f32⟩ : BufTy).Contents (Elt F) → (⟨S4096x4096, .f32⟩ : BufTy).Contents (Elt F) → (⟨S4096x4096, .f32⟩ : BufTy).Contents (Elt F)) ]

/-- Operations 15 to 28: the row-wise products summed, `exp ((1 - ·) / 0.1)`, and its mean over the rows (`main_v14`). -/
def P3 : List (HloOp τ sig (Elt F)) :=
  [ binary main_v2 main_v5 main_v6 (mulf : (⟨S4096x4096, .f32⟩ : BufTy).Contents (Elt F) → (⟨S4096x4096, .f32⟩ : BufTy).Contents (Elt F) → (⟨S4096x4096, .f32⟩ : BufTy).Contents (Elt F)),
    nullary main_cst (constant S_ .f32 0x00000000#32),
    binary main_v6 main_cst main_v7 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_0 (constant S_ .f32 0x3F800000#32),
    unary main_cst_0 main_v8 (broadcastInDim S4096 ![] bcast_S_S4096 : (⟨S_, .f32⟩ : BufTy).Contents (Elt F) → (⟨S4096, .f32⟩ : BufTy).Contents (Elt F)),
    binary main_v8 main_v7 main_v9 (subf : (⟨S4096, .f32⟩ : BufTy).Contents (Elt F) → (⟨S4096, .f32⟩ : BufTy).Contents (Elt F) → (⟨S4096, .f32⟩ : BufTy).Contents (Elt F)),
    nullary main_cst_1 (constant S_ .f32 0x3DCCCCCD#32),
    unary main_cst_1 main_v10 (broadcastInDim S4096 ![] bcast_S_S4096 : (⟨S_, .f32⟩ : BufTy).Contents (Elt F) → (⟨S4096, .f32⟩ : BufTy).Contents (Elt F)),
    binary main_v9 main_v10 main_v11 (Host.divf : (⟨S4096, .f32⟩ : BufTy).Contents (Elt F) → (⟨S4096, .f32⟩ : BufTy).Contents (Elt F) → (⟨S4096, .f32⟩ : BufTy).Contents (Elt F)),
    unary main_v11 main_v12 (Host.exp : (⟨S4096, .f32⟩ : BufTy).Contents (Elt F) → (⟨S4096, .f32⟩ : BufTy).Contents (Elt F)),
    nullary main_cst_2 (constant S_ .f32 0x00000000#32),
    binary main_v12 main_cst_2 main_v13 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_3 (constant S_ .f32 0x45800000#32),
    binary main_v13 main_cst_3 main_v14 (Host.divf : (⟨S_, .f32⟩ : BufTy).Contents (Elt F) → (⟨S_, .f32⟩ : BufTy).Contents (Elt F) → (⟨S_, .f32⟩ : BufTy).Contents (Elt F)) ]

/-- Operations 29 to 37: per row, whether more than 32 of its labels are zero (`main_v20`). -/
def P4 : List (HloOp τ sig (Elt F)) :=
  [ nullary main_c (constantI S_ 32 0#32),
    unary main_c main_v15 (broadcastInDim S4096x64 ![] bcast_S_S4096x64 : (⟨S_, .i32⟩ : BufTy).Contents (Elt F) → (⟨S4096x64, .i32⟩ : BufTy).Contents (Elt F)),
    binary main_arg2 main_v15 main_v16 (cmpi .eq : (⟨S4096x64, .i32⟩ : BufTy).Contents (Elt F) → (⟨S4096x64, .i32⟩ : BufTy).Contents (Elt F) → (⟨S4096x64, .i1⟩ : BufTy).Contents (Elt F)),
    unary main_v16 main_v17 ((extui 32 · natLt_1_32) : (⟨S4096x64, .i1⟩ : BufTy).Contents (Elt F) → (⟨S4096x64, .i32⟩ : BufTy).Contents (Elt F)),
    nullary main_c_4 (constantI S_ 32 0#32),
    binary main_v17 main_c_4 main_v18 ((fun x v => Host.reduce IntOp.addi x v reducesTo_S4096x64_S4096_d1 h_S_) : (⟨S4096x64, .i32⟩ : BufTy).Contents (Elt F) → (⟨S_, .i32⟩ : BufTy).Contents (Elt F) → (⟨S4096, .i32⟩ : BufTy).Contents (Elt F)),
    nullary main_c_5 (constantI S_ 32 32#32),
    unary main_c_5 main_v19 (broadcastInDim S4096 ![] bcast_S_S4096 : (⟨S_, .i32⟩ : BufTy).Contents (Elt F) → (⟨S4096, .i32⟩ : BufTy).Contents (Elt F)),
    binary main_v18 main_v19 main_v20 (cmpi .sgt : (⟨S4096, .i32⟩ : BufTy).Contents (Elt F) → (⟨S4096, .i32⟩ : BufTy).Contents (Elt F) → (⟨S4096, .i1⟩ : BufTy).Contents (Elt F)) ]

/-- Operations 38 to 46: the pair mask `main_v26` (row flagged and column not flagged) and the number of its set entries (`main_v28`). -/
def P5 : List (HloOp τ sig (Elt F)) :=
  [ unary main_v20 main_v21 (broadcastInDim S4096x1 ![0] bcast_S4096_S4096x1_0 : (⟨S4096, .i1⟩ : BufTy).Contents (Elt F) → (⟨S4096x1, .i1⟩ : BufTy).Contents (Elt F)),
    unary main_v20 main_v22 (noti : (⟨S4096, .i1⟩ : BufTy).Contents (Elt F) → (⟨S4096, .i1⟩ : BufTy).Contents (Elt F)),
    unary main_v22 main_v23 (broadcastInDim S1x4096 ![1] bcast_S4096_S1x4096_1 : (⟨S4096, .i1⟩ : BufTy).Contents (Elt F) → (⟨S1x4096, .i1⟩ : BufTy).Contents (Elt F)),
    unary main_v21 main_v24 (broadcastInDim S4096x4096 ![0, 1] bcast_S4096x1_S4096x4096_0_1 : (⟨S4096x1, .i1⟩ : BufTy).Contents (Elt F) → (⟨S4096x4096, .i1⟩ : BufTy).Contents (Elt F)),
    unary main_v23 main_v25 (broadcastInDim S4096x4096 ![0, 1] bcast_S1x4096_S4096x4096_0_1 : (⟨S1x4096, .i1⟩ : BufTy).Contents (Elt F) → (⟨S4096x4096, .i1⟩ : BufTy).Contents (Elt F)),
    binary main_v24 main_v25 main_v26 (andi : (⟨S4096x4096, .i1⟩ : BufTy).Contents (Elt F) → (⟨S4096x4096, .i1⟩ : BufTy).Contents (Elt F) → (⟨S4096x4096, .i1⟩ : BufTy).Contents (Elt F)),
    unary main_v26 main_v27 ((extui 32 · natLt_1_32) : (⟨S4096x4096, .i1⟩ : BufTy).Contents (Elt F) → (⟨S4096x4096, .i32⟩ : BufTy).Contents (Elt F)),
    nullary main_c_6 (constantI S_ 32 0#32),
    binary main_v27 main_c_6 main_v28 ((fun x v => Host.reduce IntOp.addi x v reducesTo_S4096x4096_S_d0_1 h_S_) : (⟨S4096x4096, .i32⟩ : BufTy).Contents (Elt F) → (⟨S_, .i32⟩ : BufTy).Contents (Elt F) → (⟨S_, .i32⟩ : BufTy).Contents (Elt F)) ]

/-- Operations 47 to 56: the first operand's Gram matrix, `exp (· / 0.1)`, masked, summed over all entries (`main_v36`). -/
def P6 : List (HloOp τ sig (Elt F)) :=
  [ unary main_v2 main_v29 ((transpose S4096x4096 [1, 0] · transposes_S4096x4096_S4096x4096_1_0) : (⟨S4096x4096, .f32⟩ : BufTy).Contents (Elt F) → (⟨S4096x4096, .f32⟩ : BufTy).Contents (Elt F)),
    binary main_v2 main_v29 main_v30 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    nullary main_cst_7 (constant S_ .f32 0x3DCCCCCD#32),
    unary main_cst_7 main_v31 (broadcastInDim S4096x4096 ![] bcast_S_S4096x4096 : (⟨S_, .f32⟩ : BufTy).Contents (Elt F) → (⟨S4096x4096, .f32⟩ : BufTy).Contents (Elt F)),
    binary main_v30 main_v31 main_v32 (Host.divf : (⟨S4096x4096, .f32⟩ : BufTy).Contents (Elt F) → (⟨S4096x4096, .f32⟩ : BufTy).Contents (Elt F) → (⟨S4096x4096, .f32⟩ : BufTy).Contents (Elt F)),
    unary main_v32 main_v33 (Host.exp : (⟨S4096x4096, .f32⟩ : BufTy).Contents (Elt F) → (⟨S4096x4096, .f32⟩ : BufTy).Contents (Elt F)),
    unary main_v26 main_v34 (uitofp .f32 : (⟨S4096x4096, .i1⟩ : BufTy).Contents (Elt F) → (⟨S4096x4096, .f32⟩ : BufTy).Contents (Elt F)),
    binary main_v33 main_v34 main_v35 (mulf : (⟨S4096x4096, .f32⟩ : BufTy).Contents (Elt F) → (⟨S4096x4096, .f32⟩ : BufTy).Contents (Elt F) → (⟨S4096x4096, .f32⟩ : BufTy).Contents (Elt F)),
    nullary main_cst_8 (constant S_ .f32 0x00000000#32),
    binary main_v35 main_cst_8 main_v36 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)) ]

/-- Operations 57 to 65: that sum divided by `max count 1`, or zero when the count is not positive (`main_v41`). -/
def P7 : List (HloOp τ sig (Elt F)) :=
  [ nullary main_c_9 (constantI S_ 32 0#32),
    binary main_v28 main_c_9 main_v37 (cmpi .sgt : (⟨S_, .i32⟩ : BufTy).Contents (Elt F) → (⟨S_, .i32⟩ : BufTy).Contents (Elt F) → (⟨S_, .i1⟩ : BufTy).Contents (Elt F)),
    nullary main_c_10 (constantI S_ 32 1#32),
    binary main_v28 main_c_10 main_v38 (maxsi : (⟨S_, .i32⟩ : BufTy).Contents (Elt F) → (⟨S_, .i32⟩ : BufTy).Contents (Elt F) → (⟨S_, .i32⟩ : BufTy).Contents (Elt F)),
    unary main_v38 main_v39 (sitofp .f32 : (⟨S_, .i32⟩ : BufTy).Contents (Elt F) → (⟨S_, .f32⟩ : BufTy).Contents (Elt F)),
    binary main_v36 main_v39 main_v40 (Host.divf : (⟨S_, .f32⟩ : BufTy).Contents (Elt F) → (⟨S_, .f32⟩ : BufTy).Contents (Elt F) → (⟨S_, .f32⟩ : BufTy).Contents (Elt F)),
    nullary main_cst_11 (constant S_ .f32 0x00000000#32),
    TRef.unary (TRef.of (T := ⟨S_, .f32⟩) main_cst_11) (TRef.of (T := ⟨S_, .f32⟩) main_call2_v0) id,
    TRef.ternary (TRef.of (T := ⟨S_, .i1⟩) main_v37) (TRef.of (T := ⟨S_, .f32⟩) main_v40) (TRef.of (T := ⟨S_, .f32⟩) main_call2_v0) (TRef.of (T := ⟨S_, .f32⟩) main_v41) select ]

/-- Operations 66 to 75: the second operand's Gram matrix, `exp (· / 0.1)`, masked, summed over all entries (`main_v49`). -/
def P8 : List (HloOp τ sig (Elt F)) :=
  [ unary main_v5 main_v42 ((transpose S4096x4096 [1, 0] · transposes_S4096x4096_S4096x4096_1_0) : (⟨S4096x4096, .f32⟩ : BufTy).Contents (Elt F) → (⟨S4096x4096, .f32⟩ : BufTy).Contents (Elt F)),
    binary main_v5 main_v42 main_v43 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    nullary main_cst_12 (constant S_ .f32 0x3DCCCCCD#32),
    unary main_cst_12 main_v44 (broadcastInDim S4096x4096 ![] bcast_S_S4096x4096 : (⟨S_, .f32⟩ : BufTy).Contents (Elt F) → (⟨S4096x4096, .f32⟩ : BufTy).Contents (Elt F)),
    binary main_v43 main_v44 main_v45 (Host.divf : (⟨S4096x4096, .f32⟩ : BufTy).Contents (Elt F) → (⟨S4096x4096, .f32⟩ : BufTy).Contents (Elt F) → (⟨S4096x4096, .f32⟩ : BufTy).Contents (Elt F)),
    unary main_v45 main_v46 (Host.exp : (⟨S4096x4096, .f32⟩ : BufTy).Contents (Elt F) → (⟨S4096x4096, .f32⟩ : BufTy).Contents (Elt F)),
    unary main_v26 main_v47 (uitofp .f32 : (⟨S4096x4096, .i1⟩ : BufTy).Contents (Elt F) → (⟨S4096x4096, .f32⟩ : BufTy).Contents (Elt F)),
    binary main_v46 main_v47 main_v48 (mulf : (⟨S4096x4096, .f32⟩ : BufTy).Contents (Elt F) → (⟨S4096x4096, .f32⟩ : BufTy).Contents (Elt F) → (⟨S4096x4096, .f32⟩ : BufTy).Contents (Elt F)),
    nullary main_cst_13 (constant S_ .f32 0x00000000#32),
    binary main_v48 main_cst_13 main_v49 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)) ]

/-- Operations 76 to 84: that sum divided by `max count 1`, or zero when the count is not positive (`main_v54`). -/
def P9 : List (HloOp τ sig (Elt F)) :=
  [ nullary main_c_14 (constantI S_ 32 0#32),
    binary main_v28 main_c_14 main_v50 (cmpi .sgt : (⟨S_, .i32⟩ : BufTy).Contents (Elt F) → (⟨S_, .i32⟩ : BufTy).Contents (Elt F) → (⟨S_, .i1⟩ : BufTy).Contents (Elt F)),
    nullary main_c_15 (constantI S_ 32 1#32),
    binary main_v28 main_c_15 main_v51 (maxsi : (⟨S_, .i32⟩ : BufTy).Contents (Elt F) → (⟨S_, .i32⟩ : BufTy).Contents (Elt F) → (⟨S_, .i32⟩ : BufTy).Contents (Elt F)),
    unary main_v51 main_v52 (sitofp .f32 : (⟨S_, .i32⟩ : BufTy).Contents (Elt F) → (⟨S_, .f32⟩ : BufTy).Contents (Elt F)),
    binary main_v49 main_v52 main_v53 (Host.divf : (⟨S_, .f32⟩ : BufTy).Contents (Elt F) → (⟨S_, .f32⟩ : BufTy).Contents (Elt F) → (⟨S_, .f32⟩ : BufTy).Contents (Elt F)),
    nullary main_cst_16 (constant S_ .f32 0x00000000#32),
    TRef.unary (TRef.of (T := ⟨S_, .f32⟩) main_cst_16) (TRef.of (T := ⟨S_, .f32⟩) main_call3_v0) id,
    TRef.ternary (TRef.of (T := ⟨S_, .i1⟩) main_v50) (TRef.of (T := ⟨S_, .f32⟩) main_v53) (TRef.of (T := ⟨S_, .f32⟩) main_call3_v0) (TRef.of (T := ⟨S_, .f32⟩) main_v54) select ]

/-- Operations 85 to 88: the two masked means added, times one, plus the positive term (`main_v57`). -/
def P10 : List (HloOp τ sig (Elt F)) :=
  [ binary main_v41 main_v54 main_v55 (addf : (⟨S_, .f32⟩ : BufTy).Contents (Elt F) → (⟨S_, .f32⟩ : BufTy).Contents (Elt F) → (⟨S_, .f32⟩ : BufTy).Contents (Elt F)),
    nullary main_cst_17 (constant S_ .f32 0x3F800000#32),
    binary main_cst_17 main_v55 main_v56 (mulf : (⟨S_, .f32⟩ : BufTy).Contents (Elt F) → (⟨S_, .f32⟩ : BufTy).Contents (Elt F) → (⟨S_, .f32⟩ : BufTy).Contents (Elt F)),
    binary main_v14 main_v56 main_v57 (addf : (⟨S_, .f32⟩ : BufTy).Contents (Elt F) → (⟨S_, .f32⟩ : BufTy).Contents (Elt F) → (⟨S_, .f32⟩ : BufTy).Contents (Elt F)) ]

/-- The stretches in order are the whole list. -/
theorem ops_eq : ValueP.ops (F := F) = P1 ++ (P2 ++ (P3 ++ (P4 ++ (P5 ++ (P6 ++ (P7 ++ (P8 ++ (P9 ++ P10)))))))) := rfl

/-! ## One stretch from arbitrary contents

For contents `W` of the device's buffers whatever they are: what a stretch leaves in the buffers read after it, as the
stage function of the arguments once `W` holds the stage functions' values in the buffers the stretch reads; and the
buffers it does not write keep what `W` holds. -/

theorem P1_v2 (W : Valuation τ sig (Elt F)) (x0 : (⟨S4096x4096, .f32⟩ : BufTy).Contents (Elt F)) (h0 : W (Proc.devRef .tc main_arg0) = x0) :
    StableHlo.after (P1 (F := F)) W (Proc.devRef .tc main_v2) = ReadP.val_main_v2 (F := F) x0 := by
  subst h0
  unfold P1
  after_results_simp
  try simp only [TRef.ofBuf, TRef.toBuf, cast_eq]
  rfl

theorem P1_keep (W : Valuation τ sig (Elt F)) :
    StableHlo.after (P1 (F := F)) W (Proc.devRef .tc main_arg1) = W (Proc.devRef .tc main_arg1)
    ∧ StableHlo.after (P1 (F := F)) W (Proc.devRef .tc main_arg2) = W (Proc.devRef .tc main_arg2) := by
  unfold P1
  refine ⟨?_, ?_⟩ <;> after_results_simp

theorem P2_v5 (W : Valuation τ sig (Elt F)) (x1 : (⟨S4096x4096, .f32⟩ : BufTy).Contents (Elt F)) (h1 : W (Proc.devRef .tc main_arg1) = x1) :
    StableHlo.after (P2 (F := F)) W (Proc.devRef .tc main_v5) = ReadP.val_main_v5 (F := F) x1 := by
  subst h1
  unfold P2
  after_results_simp
  try simp only [TRef.ofBuf, TRef.toBuf, cast_eq]
  rfl

theorem P2_keep (W : Valuation τ sig (Elt F)) :
    StableHlo.after (P2 (F := F)) W (Proc.devRef .tc main_v2) = W (Proc.devRef .tc main_v2)
    ∧ StableHlo.after (P2 (F := F)) W (Proc.devRef .tc main_arg2) = W (Proc.devRef .tc main_arg2) := by
  unfold P2
  refine ⟨?_, ?_⟩ <;> after_results_simp

theorem P3_v14 (W : Valuation τ sig (Elt F)) (x0 x1 : (⟨S4096x4096, .f32⟩ : BufTy).Contents (Elt F))
    (h2 : W (Proc.devRef .tc main_v2) = ReadP.val_main_v2 (F := F) x0) (h5 : W (Proc.devRef .tc main_v5) = ReadP.val_main_v5 (F := F) x1) :
    StableHlo.after (P3 (F := F)) W (Proc.devRef .tc main_v14) = ReadP.val_main_v14 (F := F) x0 x1 := by
  unfold P3
  after_results_simp
  try simp only [TRef.ofBuf, TRef.toBuf, cast_eq]
  rw [h2, h5]
  rfl

theorem P3_keep (W : Valuation τ sig (Elt F)) :
    StableHlo.after (P3 (F := F)) W (Proc.devRef .tc main_v2) = W (Proc.devRef .tc main_v2)
    ∧ StableHlo.after (P3 (F := F)) W (Proc.devRef .tc main_v5) = W (Proc.devRef .tc main_v5)
    ∧ StableHlo.after (P3 (F := F)) W (Proc.devRef .tc main_arg2) = W (Proc.devRef .tc main_arg2) := by
  unfold P3
  refine ⟨?_, ?_, ?_⟩ <;> after_results_simp

theorem P4_v20 (W : Valuation τ sig (Elt F)) (x2 : (⟨S4096x64, .i32⟩ : BufTy).Contents (Elt F)) (ha : W (Proc.devRef .tc main_arg2) = x2) :
    StableHlo.after (P4 (F := F)) W (Proc.devRef .tc main_v20) = ReadP.val_main_v20 (F := F) x2 := by
  subst ha
  unfold P4
  after_results_simp
  try simp only [TRef.ofBuf, TRef.toBuf, cast_eq]
  rfl

theorem P4_keep (W : Valuation τ sig (Elt F)) :
    StableHlo.after (P4 (F := F)) W (Proc.devRef .tc main_v2) = W (Proc.devRef .tc main_v2)
    ∧ StableHlo.after (P4 (F := F)) W (Proc.devRef .tc main_v5) = W (Proc.devRef .tc main_v5)
    ∧ StableHlo.after (P4 (F := F)) W (Proc.devRef .tc main_v14) = W (Proc.devRef .tc main_v14) := by
  unfold P4
  refine ⟨?_, ?_, ?_⟩ <;> after_results_simp

theorem P5_v26 (W : Valuation τ sig (Elt F)) (x2 : (⟨S4096x64, .i32⟩ : BufTy).Contents (Elt F))
    (h20 : W (Proc.devRef .tc main_v20) = ReadP.val_main_v20 (F := F) x2) :
    StableHlo.after (P5 (F := F)) W (Proc.devRef .tc main_v26) = ReadP.val_main_v26 (F := F) x2 := by
  unfold P5
  after_results_simp
  try simp only [TRef.ofBuf, TRef.toBuf, cast_eq]
  rw [h20]
  rfl

theorem P5_v28 (W : Valuation τ sig (Elt F)) (x2 : (⟨S4096x64, .i32⟩ : BufTy).Contents (Elt F))
    (h20 : W (Proc.devRef .tc main_v20) = ReadP.val_main_v20 (F := F) x2) :
    StableHlo.after (P5 (F := F)) W (Proc.devRef .tc main_v28) = ReadP.val_main_v28 (F := F) x2 := by
  unfold P5
  after_results_simp
  try simp only [TRef.ofBuf, TRef.toBuf, cast_eq]
  rw [h20]
  rfl

theorem P5_keep (W : Valuation τ sig (Elt F)) :
    StableHlo.after (P5 (F := F)) W (Proc.devRef .tc main_v2) = W (Proc.devRef .tc main_v2)
    ∧ StableHlo.after (P5 (F := F)) W (Proc.devRef .tc main_v5) = W (Proc.devRef .tc main_v5)
    ∧ StableHlo.after (P5 (F := F)) W (Proc.devRef .tc main_v14) = W (Proc.devRef .tc main_v14) := by
  unfold P5
  refine ⟨?_, ?_, ?_⟩ <;> after_results_simp

theorem P6_v36 (W : Valuation τ sig (Elt F)) (x0 : (⟨S4096x4096, .f32⟩ : BufTy).Contents (Elt F)) (x2 : (⟨S4096x64, .i32⟩ : BufTy).Contents (Elt F))
    (h2 : W (Proc.devRef .tc main_v2) = ReadP.val_main_v2 (F := F) x0) (h26 : W (Proc.devRef .tc main_v26) = ReadP.val_main_v26 (F := F) x2) :
    StableHlo.after (P6 (F := F)) W (Proc.devRef .tc main_v36) = ReadP.val_main_v36 (F := F) x0 x2 := by
  unfold P6
  after_results_simp
  try simp only [TRef.ofBuf, TRef.toBuf, cast_eq]
  rw [h2, h26]
  rfl

theorem P6_keep (W : Valuation τ sig (Elt F)) :
    StableHlo.after (P6 (F := F)) W (Proc.devRef .tc main_v5) = W (Proc.devRef .tc main_v5)
    ∧ StableHlo.after (P6 (F := F)) W (Proc.devRef .tc main_v14) = W (Proc.devRef .tc main_v14)
    ∧ StableHlo.after (P6 (F := F)) W (Proc.devRef .tc main_v26) = W (Proc.devRef .tc main_v26)
    ∧ StableHlo.after (P6 (F := F)) W (Proc.devRef .tc main_v28) = W (Proc.devRef .tc main_v28) := by
  unfold P6
  refine ⟨?_, ?_, ?_, ?_⟩ <;> after_results_simp

theorem P7_v41 (W : Valuation τ sig (Elt F)) (x0 : (⟨S4096x4096, .f32⟩ : BufTy).Contents (Elt F)) (x2 : (⟨S4096x64, .i32⟩ : BufTy).Contents (Elt F))
    (h28 : W (Proc.devRef .tc main_v28) = ReadP.val_main_v28 (F := F) x2) (h36 : W (Proc.devRef .tc main_v36) = ReadP.val_main_v36 (F := F) x0 x2) :
    StableHlo.after (P7 (F := F)) W (Proc.devRef .tc main_v41) = ReadP.val_main_v41 (F := F) x0 x2 := by
  unfold P7
  after_results_simp
  try simp only [TRef.ofBuf, TRef.toBuf, cast_eq]
  rw [h28, h36]
  rfl

theorem P7_keep (W : Valuation τ sig (Elt F)) :
    StableHlo.after (P7 (F := F)) W (Proc.devRef .tc main_v5) = W (Proc.devRef .tc main_v5)
    ∧ StableHlo.after (P7 (F := F)) W (Proc.devRef .tc main_v14) = W (Proc.devRef .tc main_v14)
    ∧ StableHlo.after (P7 (F := F)) W (Proc.devRef .tc main_v26) = W (Proc.devRef .tc main_v26)
    ∧ StableHlo.after (P7 (F := F)) W (Proc.devRef .tc main_v28) = W (Proc.devRef .tc main_v28) := by
  unfold P7
  refine ⟨?_, ?_, ?_, ?_⟩ <;> after_results_simp

theorem P8_v49 (W : Valuation τ sig (Elt F)) (x1 : (⟨S4096x4096, .f32⟩ : BufTy).Contents (Elt F)) (x2 : (⟨S4096x64, .i32⟩ : BufTy).Contents (Elt F))
    (h5 : W (Proc.devRef .tc main_v5) = ReadP.val_main_v5 (F := F) x1) (h26 : W (Proc.devRef .tc main_v26) = ReadP.val_main_v26 (F := F) x2) :
    StableHlo.after (P8 (F := F)) W (Proc.devRef .tc main_v49) = ReadP.val_main_v49 (F := F) x1 x2 := by
  unfold P8
  after_results_simp
  try simp only [TRef.ofBuf, TRef.toBuf, cast_eq]
  rw [h5, h26]
  rfl

theorem P8_keep (W : Valuation τ sig (Elt F)) :
    StableHlo.after (P8 (F := F)) W (Proc.devRef .tc main_v14) = W (Proc.devRef .tc main_v14)
    ∧ StableHlo.after (P8 (F := F)) W (Proc.devRef .tc main_v28) = W (Proc.devRef .tc main_v28)
    ∧ StableHlo.after (P8 (F := F)) W (Proc.devRef .tc main_v41) = W (Proc.devRef .tc main_v41) := by
  unfold P8
  refine ⟨?_, ?_, ?_⟩ <;> after_results_simp

theorem P9_v54 (W : Valuation τ sig (Elt F)) (x1 : (⟨S4096x4096, .f32⟩ : BufTy).Contents (Elt F)) (x2 : (⟨S4096x64, .i32⟩ : BufTy).Contents (Elt F))
    (h28 : W (Proc.devRef .tc main_v28) = ReadP.val_main_v28 (F := F) x2) (h49 : W (Proc.devRef .tc main_v49) = ReadP.val_main_v49 (F := F) x1 x2) :
    StableHlo.after (P9 (F := F)) W (Proc.devRef .tc main_v54) = ReadP.val_main_v54 (F := F) x1 x2 := by
  unfold P9
  after_results_simp
  try simp only [TRef.ofBuf, TRef.toBuf, cast_eq]
  rw [h28, h49]
  rfl

theorem P9_keep (W : Valuation τ sig (Elt F)) :
    StableHlo.after (P9 (F := F)) W (Proc.devRef .tc main_v14) = W (Proc.devRef .tc main_v14)
    ∧ StableHlo.after (P9 (F := F)) W (Proc.devRef .tc main_v41) = W (Proc.devRef .tc main_v41) := by
  unfold P9
  refine ⟨?_, ?_⟩ <;> after_results_simp

theorem P10_v57 (W : Valuation τ sig (Elt F)) (x0 x1 : (⟨S4096x4096, .f32⟩ : BufTy).Contents (Elt F)) (x2 : (⟨S4096x64, .i32⟩ : BufTy).Contents (Elt F))
    (h14 : W (Proc.devRef .tc main_v14) = ReadP.val_main_v14 (F := F) x0 x1) (h41 : W (Proc.devRef .tc main_v41) = ReadP.val_main_v41 (F := F) x0 x2)
    (h54 : W (Proc.devRef .tc main_v54) = ReadP.val_main_v54 (F := F) x1 x2) :
    StableHlo.after (P10 (F := F)) W (Proc.devRef .tc main_v57) = ReadP.val_main_v57 (F := F) x0 x1 x2 := by
  unfold P10
  after_results_simp
  try simp only [TRef.ofBuf, TRef.toBuf, cast_eq]
  rw [h14, h41, h54]
  rfl

/-! ## The stretches in a row

`V j` is what the buffers hold after the first `j` stretches from the launch contents; `S j` says that every buffer
read after stretch `j` holds its stage function of the three arguments' launch contents. -/

/-- The arguments' launch contents on device `c`. -/
abbrev A0 (m : (ℓ : Loc nD τ sig) → Buf (Elt F) ℓ) (c : Dev nD) : (⟨S4096x4096, .f32⟩ : BufTy).Contents (Elt F) := m ((c.tc : Thread nD τ).loc main_arg0)
@[inherit_doc A0] abbrev A1 (m : (ℓ : Loc nD τ sig) → Buf (Elt F) ℓ) (c : Dev nD) : (⟨S4096x4096, .f32⟩ : BufTy).Contents (Elt F) := m ((c.tc : Thread nD τ).loc main_arg1)
@[inherit_doc A0] abbrev A2 (m : (ℓ : Loc nD τ sig) → Buf (Elt F) ℓ) (c : Dev nD) : (⟨S4096x64, .i32⟩ : BufTy).Contents (Elt F) := m ((c.tc : Thread nD τ).loc main_arg2)

/-- The buffers after the first stretch. -/
def V1 (m : (ℓ : Loc nD τ sig) → Buf (Elt F) ℓ) (c : Dev nD) : Valuation τ sig (Elt F) := StableHlo.after P1 (launchContents m c)
/-- The buffers after the first 2 stretches. -/
def V2 (m : (ℓ : Loc nD τ sig) → Buf (Elt F) ℓ) (c : Dev nD) : Valuation τ sig (Elt F) := StableHlo.after P2 (V1 m c)
/-- The buffers after the first 3 stretches. -/
def V3 (m : (ℓ : Loc nD τ sig) → Buf (Elt F) ℓ) (c : Dev nD) : Valuation τ sig (Elt F) := StableHlo.after P3 (V2 m c)
/-- The buffers after the first 4 stretches. -/
def V4 (m : (ℓ : Loc nD τ sig) → Buf (Elt F) ℓ) (c : Dev nD) : Valuation τ sig (Elt F) := StableHlo.after P4 (V3 m c)
/-- The buffers after the first 5 stretches. -/
def V5 (m : (ℓ : Loc nD τ sig) → Buf (Elt F) ℓ) (c : Dev nD) : Valuation τ sig (Elt F) := StableHlo.after P5 (V4 m c)
/-- The buffers after the first 6 stretches. -/
def V6 (m : (ℓ : Loc nD τ sig) → Buf (Elt F) ℓ) (c : Dev nD) : Valuation τ sig (Elt F) := StableHlo.after P6 (V5 m c)
/-- The buffers after the first 7 stretches. -/
def V7 (m : (ℓ : Loc nD τ sig) → Buf (Elt F) ℓ) (c : Dev nD) : Valuation τ sig (Elt F) := StableHlo.after P7 (V6 m c)
/-- The buffers after the first 8 stretches. -/
def V8 (m : (ℓ : Loc nD τ sig) → Buf (Elt F) ℓ) (c : Dev nD) : Valuation τ sig (Elt F) := StableHlo.after P8 (V7 m c)
/-- The buffers after the first 9 stretches. -/
def V9 (m : (ℓ : Loc nD τ sig) → Buf (Elt F) ℓ) (c : Dev nD) : Valuation τ sig (Elt F) := StableHlo.after P9 (V8 m c)
/-- The buffers after the first 10 stretches. -/
def V10 (m : (ℓ : Loc nD τ sig) → Buf (Elt F) ℓ) (c : Dev nD) : Valuation τ sig (Elt F) := StableHlo.after P10 (V9 m c)

/-- The whole list's fold is the last of these. -/
theorem after_ops (m : (ℓ : Loc nD τ sig) → Buf (Elt F) ℓ) (c : Dev nD) : StableHlo.after (ValueP.ops (F := F)) (launchContents m c) = V10 m c := by
  rw [ops_eq]
  simp only [StableHlo.after_append]
  rfl

theorem S1 (m : (ℓ : Loc nD τ sig) → Buf (Elt F) ℓ) (c : Dev nD) :
    V1 m c (Proc.devRef .tc main_v2) = ReadP.val_main_v2 (F := F) (A0 m c)
    ∧ V1 m c (Proc.devRef .tc main_arg1) = A1 m c
    ∧ V1 m c (Proc.devRef .tc main_arg2) = A2 m c := by
  obtain ⟨k1, k2⟩ := P1_keep (F := F) (launchContents m c)
  exact ⟨P1_v2 _ _ rfl, k1, k2⟩

theorem S2 (m : (ℓ : Loc nD τ sig) → Buf (Elt F) ℓ) (c : Dev nD) :
    V2 m c (Proc.devRef .tc main_v2) = ReadP.val_main_v2 (F := F) (A0 m c)
    ∧ V2 m c (Proc.devRef .tc main_v5) = ReadP.val_main_v5 (F := F) (A1 m c)
    ∧ V2 m c (Proc.devRef .tc main_arg2) = A2 m c := by
  obtain ⟨h2, ha1, ha2⟩ := S1 (F := F) m c
  obtain ⟨k2, ka2⟩ := P2_keep (F := F) (V1 m c)
  exact ⟨k2.trans h2, P2_v5 _ _ ha1, ka2.trans ha2⟩

theorem S3 (m : (ℓ : Loc nD τ sig) → Buf (Elt F) ℓ) (c : Dev nD) :
    V3 m c (Proc.devRef .tc main_v2) = ReadP.val_main_v2 (F := F) (A0 m c)
    ∧ V3 m c (Proc.devRef .tc main_v5) = ReadP.val_main_v5 (F := F) (A1 m c)
    ∧ V3 m c (Proc.devRef .tc main_v14) = ReadP.val_main_v14 (F := F) (A0 m c) (A1 m c)
    ∧ V3 m c (Proc.devRef .tc main_arg2) = A2 m c := by
  obtain ⟨h2, h5, ha2⟩ := S2 (F := F) m c
  obtain ⟨k2, k5, ka2⟩ := P3_keep (F := F) (V2 m c)
  exact ⟨k2.trans h2, k5.trans h5, P3_v14 _ _ _ h2 h5, ka2.trans ha2⟩

theorem S4 (m : (ℓ : Loc nD τ sig) → Buf (Elt F) ℓ) (c : Dev nD) :
    V4 m c (Proc.devRef .tc main_v2) = ReadP.val_main_v2 (F := F) (A0 m c)
    ∧ V4 m c (Proc.devRef .tc main_v5) = ReadP.val_main_v5 (F := F) (A1 m c)
    ∧ V4 m c (Proc.devRef .tc main_v14) = ReadP.val_main_v14 (F := F) (A0 m c) (A1 m c)
    ∧ V4 m c (Proc.devRef .tc main_v20) = ReadP.val_main_v20 (F := F) (A2 m c) := by
  obtain ⟨h2, h5, h14, ha2⟩ := S3 (F := F) m c
  obtain ⟨k2, k5, k14⟩ := P4_keep (F := F) (V3 m c)
  exact ⟨k2.trans h2, k5.trans h5, k14.trans h14, P4_v20 _ _ ha2⟩

theorem S5 (m : (ℓ : Loc nD τ sig) → Buf (Elt F) ℓ) (c : Dev nD) :
    V5 m c (Proc.devRef .tc main_v2) = ReadP.val_main_v2 (F := F) (A0 m c)
    ∧ V5 m c (Proc.devRef .tc main_v5) = ReadP.val_main_v5 (F := F) (A1 m c)
    ∧ V5 m c (Proc.devRef .tc main_v14) = ReadP.val_main_v14 (F := F) (A0 m c) (A1 m c)
    ∧ V5 m c (Proc.devRef .tc main_v26) = ReadP.val_main_v26 (F := F) (A2 m c)
    ∧ V5 m c (Proc.devRef .tc main_v28) = ReadP.val_main_v28 (F := F) (A2 m c) := by
  obtain ⟨h2, h5, h14, h20⟩ := S4 (F := F) m c
  obtain ⟨k2, k5, k14⟩ := P5_keep (F := F) (V4 m c)
  exact ⟨k2.trans h2, k5.trans h5, k14.trans h14, P5_v26 _ _ h20, P5_v28 _ _ h20⟩

theorem S6 (m : (ℓ : Loc nD τ sig) → Buf (Elt F) ℓ) (c : Dev nD) :
    V6 m c (Proc.devRef .tc main_v5) = ReadP.val_main_v5 (F := F) (A1 m c)
    ∧ V6 m c (Proc.devRef .tc main_v14) = ReadP.val_main_v14 (F := F) (A0 m c) (A1 m c)
    ∧ V6 m c (Proc.devRef .tc main_v26) = ReadP.val_main_v26 (F := F) (A2 m c)
    ∧ V6 m c (Proc.devRef .tc main_v28) = ReadP.val_main_v28 (F := F) (A2 m c)
    ∧ V6 m c (Proc.devRef .tc main_v36) = ReadP.val_main_v36 (F := F) (A0 m c) (A2 m c) := by
  obtain ⟨h2, h5, h14, h26, h28⟩ := S5 (F := F) m c
  obtain ⟨k5, k14, k26, k28⟩ := P6_keep (F := F) (V5 m c)
  exact ⟨k5.trans h5, k14.trans h14, k26.trans h26, k28.trans h28, P6_v36 _ _ _ h2 h26⟩

theorem S7 (m : (ℓ : Loc nD τ sig) → Buf (Elt F) ℓ) (c : Dev nD) :
    V7 m c (Proc.devRef .tc main_v5) = ReadP.val_main_v5 (F := F) (A1 m c)
    ∧ V7 m c (Proc.devRef .tc main_v14) = ReadP.val_main_v14 (F := F) (A0 m c) (A1 m c)
    ∧ V7 m c (Proc.devRef .tc main_v26) = ReadP.val_main_v26 (F := F) (A2 m c)
    ∧ V7 m c (Proc.devRef .tc main_v28) = ReadP.val_main_v28 (F := F) (A2 m c)
    ∧ V7 m c (Proc.devRef .tc main_v41) = ReadP.val_main_v41 (F := F) (A0 m c) (A2 m c) := by
  obtain ⟨h5, h14, h26, h28, h36⟩ := S6 (F := F) m c
  obtain ⟨k5, k14, k26, k28⟩ := P7_keep (F := F) (V6 m c)
  exact ⟨k5.trans h5, k14.trans h14, k26.trans h26, k28.trans h28, P7_v41 _ _ _ h28 h36⟩

theorem S8 (m : (ℓ : Loc nD τ sig) → Buf (Elt F) ℓ) (c : Dev nD) :
    V8 m c (Proc.devRef .tc main_v14) = ReadP.val_main_v14 (F := F) (A0 m c) (A1 m c)
    ∧ V8 m c (Proc.devRef .tc main_v28) = ReadP.val_main_v28 (F := F) (A2 m c)
    ∧ V8 m c (Proc.devRef .tc main_v41) = ReadP.val_main_v41 (F := F) (A0 m c) (A2 m c)
    ∧ V8 m c (Proc.devRef .tc main_v49) = ReadP.val_main_v49 (F := F) (A1 m c) (A2 m c) := by
  obtain ⟨h5, h14, h26, h28, h41⟩ := S7 (F := F) m c
  obtain ⟨k14, k28, k41⟩ := P8_keep (F := F) (V7 m c)
  exact ⟨k14.trans h14, k28.trans h28, k41.trans h41, P8_v49 _ _ _ h5 h26⟩

theorem S9 (m : (ℓ : Loc nD τ sig) → Buf (Elt F) ℓ) (c : Dev nD) :
    V9 m c (Proc.devRef .tc main_v14) = ReadP.val_main_v14 (F := F) (A0 m c) (A1 m c)
    ∧ V9 m c (Proc.devRef .tc main_v41) = ReadP.val_main_v41 (F := F) (A0 m c) (A2 m c)
    ∧ V9 m c (Proc.devRef .tc main_v54) = ReadP.val_main_v54 (F := F) (A1 m c) (A2 m c) := by
  obtain ⟨h14, h28, h41, h49⟩ := S8 (F := F) m c
  obtain ⟨k14, k41⟩ := P9_keep (F := F) (V8 m c)
  exact ⟨k14.trans h14, k41.trans h41, P9_v54 _ _ _ h28 h49⟩

theorem S10 (m : (ℓ : Loc nD τ sig) → Buf (Elt F) ℓ) (c : Dev nD) :
    V10 m c (Proc.devRef .tc main_v57) = ReadP.val_main_v57 (F := F) (A0 m c) (A1 m c) (A2 m c) := by
  obtain ⟨h14, h41, h54⟩ := S9 (F := F) m c
  exact P10_v57 _ _ _ _ h14 h41 h54

/-- The reference's result buffer, at the fold of its 88 operations over the launch contents, holds the last stage
    function of the three arguments' launch contents. -/
theorem ref_fold (m : (ℓ : Loc nD τ sig) → Buf (Elt F) ℓ) (c : Dev nD) :
    StableHlo.after (ValueP.ops (F := F)) (launchContents m c) (Proc.devRef .tc main_v57)
      = ReadP.val_main_v57 (F := F) (m ((c.tc : Thread nD τ).loc main_arg0)) (m ((c.tc : Thread nD τ).loc main_arg1)) (m ((c.tc : Thread nD τ).loc main_arg2)) := by
  rw [after_ops]
  exact S10 m c

end Cert.ReferenceIdeal.RefFold

end
-- ==== Proof.lean ====
/-
  The certificate: a TPU kernel for a contrastive loss against its plain reference.

  The loss is the mean over the batch of exp((1 - cos(x_i, y_i)) / tau) plus, for each of the two inputs, the sum over
  the masked pairs (i, j) of exp(cos(z_i, z_j) / tau) divided by the number of such pairs, where z is the input with
  its rows normalised and the mask pairs a sample with many zero labels with one without. The kernel's program
  computes the two pair sums in two kernel regions of the same body — a grid of 4 x 4 x 4 blocks that accumulates
  z_i . z_j over the column blocks in a scratch and adds the masked row sums of exp(scratch * c) into a column of row
  totals — and everything else on the host, exactly as the reference does. The kernel multiplies by the constant c
  where the reference divides by the f32 word d for tau; the certificate's table names c as 1/d, and the one ledger
  entry per region says so.

  Frames: each kernel program (read at words and read ideally) terminates without a fault and leaves its arguments
  alone, by the launch of its two regions over the pipeline's proof data (the scratch and the output block named at
  every grid point); the reference by its host run. Value: at the ideal instance the kernel's result is the
  reference's last stage of the same arguments (Proof/KI/Bridge.lean), the reference's run ends at that stage
  (Proof/RefFold.lean).
-/
import proofs.«120869_j30030411333999_1_alg».proof.Defs
import proofs.«120869_j30030411333999_1_alg».proof.Proof.Gen.Kernel
import proofs.«120869_j30030411333999_1_alg».proof.Proof.Gen.KernelIdeal
import proofs.«120869_j30030411333999_1_alg».proof.Proof.Gen.ReferenceIdeal
import proofs.«120869_j30030411333999_1_alg».proof.Proof.Gen.Pre_finite_inputs
import proofs.«120869_j30030411333999_1_alg».proof.Proof.KB.Frames
import proofs.«120869_j30030411333999_1_alg».proof.Proof.KI.Frames
import proofs.«120869_j30030411333999_1_alg».proof.Proof.KI.Bridge
import proofs.«120869_j30030411333999_1_alg».proof.Proof.RefRun
import proofs.«120869_j30030411333999_1_alg».proof.Proof.RefFold
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The kernel's program read at words: it runs and leaves its arguments alone. -/
theorem frame_k : Cert.frame_Kernel (hKernel := Cert.Kernel.Gen.facts) (hPre_finite_inputs := Cert.Pre_finite_inputs.Gen.facts) :=
  fun m ρ _ => Cert.Kernel.Hand.frame (F := Bits) m ρ

/-- The same program read ideally. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference: its host run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The ledger's two entries (one per region): the table gives the scale constant the value 134217728/13421773, the
    reciprocal of the reference's divisor, and the printed constant is that value at the ideal instance. -/
theorem preserves : Cert.preserves_Kernel_KernelIdeal :=
  ⟨IdealRules.named_const.statement Cert.KernelIdeal.κ "inv_tau" .f32 0x41200000#32 ((134217728 / 13421773 : ℝ) : EReal) rfl,
   IdealRules.named_const.statement Cert.KernelIdeal.κ "inv_tau" .f32 0x41200000#32 ((134217728 / 13421773 : ℝ) : EReal) rfl⟩

/-- At the ideal instance both programs end at the reference's last stage of the (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.ReadP.val_main_v57 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨?_, ?_, ?_, ?_⟩) (Cert.KernelIdeal.Hand.run_all (F := Ideal) m ρ)
    · exact (h c _ (Cert.KernelIdeal.Hand.mem_uc Cert.KernelIdeal.main_v46 (by decide))).trans (Cert.KernelIdeal.Hand.kfinal m c)
    · exact (h c _ (Cert.KernelIdeal.Hand.mem_uc Cert.KernelIdeal.main_arg0 (by decide))).trans (Cert.KernelIdeal.Gen.V12_main_arg0 m _ c)
    · exact (h c _ (Cert.KernelIdeal.Hand.mem_uc Cert.KernelIdeal.main_arg1 (by decide))).trans (Cert.KernelIdeal.Gen.V12_main_arg1 m _ c)
    · exact (h c _ (Cert.KernelIdeal.Hand.mem_uc Cert.KernelIdeal.main_arg2 (by decide))).trans (Cert.KernelIdeal.Gen.V12_main_arg2 m _ c)
  · refine (θ_run Cert.ReferenceIdeal.defs _ _).mono (fun r h c => ⟨?_, (h c).2⟩) (Cert.ReferenceIdeal.ValueP.run (F := Ideal) m' ρ')
    rw [(h c).1, Cert.ReferenceIdeal.RefFold.ref_fold m' c, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
